-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part5 {F : FTy → Type} [FloatOps F] (main_arg2 : IVec S2x600000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S2x600000 32 := broadcastInDim S2x600000 ![] bcast_S_S2x600000 main_c_34
  let main_v90 : IVec S2x600000 1 := cmpi .sge main_arg2 main_v89
  let main_c_35 : IVec S_ 1 := constantI S_ 1 1#1
  let main_v91 : IVec S_ 1 := (fun x v => Host.reduce IntOp.andi x v reducesTo_S2x600000_S_d0_1 h_S_) main_v90 main_c_35
  let main_v92 : IVec S_ 1 := andi main_v88 main_v91
  main_v92

def fn_part4 {F : FTy → Type} [FloatOps F] (main_arg2 : IVec S2x600000 32) (main_arg15 : FVec F S128x128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S2x600000 32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_v63 main_v67

def fn_part2 {F : FTy → Type} [FloatOps F] (main_arg2 : IVec S2x600000 32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg2 main_arg12 main_arg13 main_arg14 main_arg15 main_arg16 main_arg17 main_arg18 main_v48 main_v49 main_v50

def fn_part1 {F : FTy → Type} [FloatOps F] (main_arg2 : IVec S2x600000 32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S50000x128 .f32) (main_arg1 : FVec F S600000x128 .f32) (main_arg2 : IVec S2x600000 32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S600000x1 : Shape := ⟨2, ![600000, 1]⟩
abbrev S1x128 : Shape := ⟨2, ![1, 128]⟩
abbrev S6000x128 : Shape := ⟨2, ![6000, 128]⟩
abbrev S6000 : Shape := ⟨1, ![6000]⟩
abbrev S6000x1 : Shape := ⟨2, ![6000, 1]⟩
abbrev S_ : Shape := ⟨0, ![]⟩
abbrev S5000x128 : Shape := ⟨2, ![5000, 128]⟩
abbrev S5000 : Shape := ⟨1, ![5000]⟩
abbrev S5000x1 : Shape := ⟨2, ![5000, 1]⟩

abbrev nBuf : Space → Nat
  | .hbm => 58
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S50000x128, .bf16⟩
  | .hbm, ⟨24, _⟩ => ⟨S600000x1, .i32⟩
  | .hbm, ⟨25, _⟩ => ⟨S600000x128, .bf16⟩
  | .hbm, ⟨26, _⟩ => ⟨S600000x1, .i32⟩
  | .hbm, ⟨27, _⟩ => ⟨S600000x128, .bf16⟩
  | .hbm, ⟨28, _⟩ => ⟨S128x128, .f32⟩
  | .hbm, ⟨29, _⟩ => ⟨S128x128, .bf16⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S128x128, .bf16⟩
  | .hbm, ⟨35, _⟩ => ⟨S128x128, .bf16⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S128x128, .f32⟩
  | .hbm, ⟨47, _⟩ => ⟨S128x128, .bf16⟩
  | .hbm, ⟨48, _⟩ => ⟨S128x128, .f32⟩
  | .hbm, ⟨49, _⟩ => ⟨S128x128, .bf16⟩
  | .hbm, ⟨50, _⟩ => ⟨S128x128, .bf16⟩
  | .hbm, ⟨51, _⟩ => ⟨S128x128, .bf16⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S6000x128, .f32⟩
  | .local _ .vmem, ⟨5, _⟩ => ⟨S6000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S6000x128, .f32⟩
  | .local _ .vmem, ⟨17, _⟩ => ⟨S6000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S128x128, .bf16⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_v0 : Ref sig .tc := ⟨.hbm, 24, rfl⟩
abbrev main_v5 : Ref sig .tc := ⟨.hbm, 25, rfl⟩
abbrev main_call1_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  reduces_S6000x128_S6000 : S6000x128.Reduces [1] S6000
  shapeCasts_S6000_S6000x1 : S6000.ShapeCasts S6000x1
  broadcasts_S6000x1_S6000x128 : S6000x1.Broadcasts S6000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6000x128.size a ≤ S600000x128.size a
  hwx0_13 : ∀ i : grid0.Coords, EltTy.bits .f32 = 32 ∨ (Rect.block (s := S600000x128) S6000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v5) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S6000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v35) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S600000x128, .f32⟩
  | 2 => ⟨S2x600000, .i32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x384, .f32⟩
  | 42 => ⟨S600000x128, .f32⟩
  | 43 => ⟨S1x128, .f32⟩
  | 44 => ⟨S600000x128, .f32⟩
  | 45 => ⟨S600000x128, .f32⟩
  | 46 => ⟨S_, .f32⟩
  | 47 => ⟨S600000x128, .f32⟩
  | 48 => ⟨S600000x128, .f32⟩
  | 49 => ⟨S600000x128, .f32⟩
  | 50 => ⟨S1x128, .f32⟩
  | 51 => ⟨S600000x128, .f32⟩
  | 52 => ⟨S600000x128, .f32⟩
  | 53 => ⟨S_, .f32⟩
  | 54 => ⟨S600000x128, .f32⟩
  | 55 => ⟨S600000x128, .f32⟩
  | 56 => ⟨S600000x128, .f32⟩
  | 57 => ⟨S1x128, .f32⟩
  | 58 => ⟨S600000x128, .f32⟩
  | 59 => ⟨S600000x128, .f32⟩
  | 60 => ⟨S_, .f32⟩
  | 61 => ⟨S600000, .f32⟩
  | 62 => ⟨S600000x1, .f32⟩
  | 63 => ⟨S_, .f32⟩
  | 64 => ⟨S600000x1, .f32⟩
  | 65 => ⟨S600000x1, .f32⟩
  | 66 => ⟨S_, .i32⟩
  | 67 => ⟨S_, .f32⟩
  | 68 => ⟨S600000, .f32⟩
  | 69 => ⟨S600000x1, .f32⟩
  | 70 => ⟨S_, .f32⟩
  | 71 => ⟨S600000x1, .f32⟩
  | 72 => ⟨S600000x1, .f32⟩
  | 73 => ⟨S600000x128, .f32⟩
  | 74 => ⟨S600000x128, .f32⟩
  | 75 => ⟨S600000x128, .f32⟩
  | 76 => ⟨S_, .f32⟩
  | 77 => ⟨S_, .f32⟩
  | 78 => ⟨S_, .f32⟩
  | 79 => ⟨S_, .f32⟩
  | 80 => ⟨S600000, .f32⟩
  | 81 => ⟨S600000x1, .f32⟩
  | 82 => ⟨S600000x1, .f32⟩
  | 83 => ⟨S600000x1, .f32⟩
  | 84 => ⟨S_, .f32⟩
  | 85 => ⟨S_, .i1⟩
  | 86 => ⟨S_, .f32⟩
  | 87 => ⟨S_, .f32⟩
  | 88 => ⟨S600000x1, .f32⟩
  | 89 => ⟨S600000x1, .f32⟩
  | 90 => ⟨S600000x128, .f32⟩
  | 91 => ⟨S600000x128, .f32⟩
  | 92 => ⟨S_, .f32⟩
  | 93 => ⟨S600000x1, .f32⟩
  | 94 => ⟨S600000x1, .f32⟩
  | 95 => ⟨S600000x1, .f32⟩
  | 96 => ⟨S600000x128, .f32⟩
  | 97 => ⟨S600000x128, .f32⟩
  | 98 => ⟨S1x128, .f32⟩
  | 99 => ⟨S600000x128, .f32⟩
  | 100 => ⟨S600000x128, .f32⟩
  | 101 => ⟨S1x128, .f32⟩
  | 102 => ⟨S600000x128, .f32⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S50000x256, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S_, .i32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S50000, .f32⟩
  | 20 => ⟨S50000x1, .f32⟩
  | 21 => ⟨S50000x1, .f32⟩
  | 22 => ⟨S50000x1, .f32⟩
  | 23 => ⟨S_, .f32⟩
  | 24 => ⟨S_, .i1⟩
  | 25 => ⟨S_, .f32⟩
  | 26 => ⟨S_, .f32⟩
  | 27 => ⟨S50000x1, .f32⟩
  | 28 => ⟨S50000x1, .f32⟩
  | 29 => ⟨S50000x128, .f32⟩
  | 30 => ⟨S50000x128, .f32⟩
  | 31 => ⟨S_, .f32⟩
  | 32 => ⟨S50000x1, .f32⟩
  | 33 => ⟨S50000x1, .f32⟩
  | 34 => ⟨S50000x1, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_c_4 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_cst_1 : Ref sig .tc := ⟨.hbm, 77, rfl⟩
abbrev main_call2_v8 : Ref sig .tc := ⟨.hbm, 78, rfl⟩
abbrev main_call2_cst_2 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_cst_3 : Ref sig .tc := ⟨.hbm, 84, rfl⟩
abbrev main_call2_v13 : Ref sig .tc := ⟨.hbm, 85, rfl⟩
abbrev main_call2_cst_4 : Ref sig .tc := ⟨.hbm, 86, rfl⟩
abbrev main_call2_call0_v0 : Ref sig .tc := ⟨.hbm, 87, rfl⟩
abbrev main_call2_call0_v1 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_5 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_6 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_call3_cst : Ref sig .tc := ⟨.hbm, 113, rfl⟩
abbrev main_call3_v0 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_call4_cst : Ref sig .tc := ⟨.hbm, 120, rfl⟩
abbrev main_call4_v0 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_cst_7 : Ref sig .tc := ⟨.hbm, 127, rfl⟩
abbrev main_v69 : Ref sig .tc := ⟨.hbm, 128, rfl⟩
abbrev main_v70 : Ref sig .tc := ⟨.hbm, 129, rfl⟩
abbrev main_cst_8 : Ref sig .tc := ⟨.hbm, 130, rfl⟩
abbrev main_v71 : Ref sig .tc := ⟨.hbm, 131, rfl⟩
abbrev main_v72 : Ref sig .tc := ⟨.hbm, 132, rfl⟩
abbrev main_c_9 : Ref sig .tc := ⟨.hbm, 133, rfl⟩
abbrev main_call5_cst : Ref sig .tc := ⟨.hbm, 134, rfl⟩
abbrev main_call5_v0 : Ref sig .tc := ⟨.hbm, 135, rfl⟩
abbrev main_call5_v1 : Ref sig .tc := ⟨.hbm, 136, rfl⟩
abbrev main_call5_cst_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_v6 : Ref sig .tc := ⟨.hbm, 142, rfl⟩
abbrev main_call5_v7 : Ref sig .tc := ⟨.hbm, 143, rfl⟩
abbrev main_call5_cst_1 : Ref sig .tc := ⟨.hbm, 144, rfl⟩
abbrev main_call5_v8 : Ref sig .tc := ⟨.hbm, 145, rfl⟩
abbrev main_call5_cst_2 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_v12 : Ref sig .tc := ⟨.hbm, 150, rfl⟩
abbrev main_call5_cst_3 : Ref sig .tc := ⟨.hbm, 151, rfl⟩
abbrev main_call5_v13 : Ref sig .tc := ⟨.hbm, 152, rfl⟩
abbrev main_call5_cst_4 : Ref sig .tc := ⟨.hbm, 153, rfl⟩
abbrev main_call5_call0_v0 : Ref sig .tc := ⟨.hbm, 154, rfl⟩
abbrev main_call5_call0_v1 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_cst_10 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.GraphBlock.lean ====
/-
  One round of message passing on a graph, written as plain functions of rows of 128 extended reals.

  Every edge reads the feature rows of its two end nodes and its own row, sends the three through a three-layer
  perceptron (two hidden layers with a rectifier, a layer normalisation at the end) and keeps the result as its new row;
  every node adds up the new rows of the edges that point at it, sends its own row and that sum through a second
  perceptron of the same build, and adds the result to its row.  The first layer of either perceptron multiplies a
  concatenated row by a stacked weight matrix; here it is written as the sum of the products with the stacked blocks, and
  `sum_three_blocks` / `sum_two_blocks` say that this is the same number: a finite sum splits at any point, in any
  commutative monoid, so nothing about finiteness is used.

  The gathering of the end nodes' rows and the summing over incoming edges are left as the host operations they are
  (their dimension records are parameters): both programs apply the same ones to the same operands.
-/
import Idealize.ShloMosaic.Lib.ValueIdx
import Idealize.ShloMosaic.PureOps.Ideal.Laws

noncomputable section

namespace Cert.GraphBlock

open Idealize.ShloMosaic Idealize.ShloMosaic.ValueIdx
open scoped BigOperators

/-- A feature row. -/
abbrev Row := Fin 128 → EReal
/-- A weight matrix with `K` input rows. -/
abbrev Weights (K : Nat) := Fin K → Fin 128 → EReal
/-- An `n × k` array of extended reals. -/
abbrev Arr (n k : Nat) := (⟨2, ![n, k]⟩ : Shape).Idx → EReal
/-- A vector of 128 extended reals (a bias, a gain). -/
abbrev Vec1 := (⟨1, ![128]⟩ : Shape).Idx → EReal
/-- The edge list: row 0 the sources, row 1 the destinations. -/
abbrev Edges := (⟨2, ![2, 600000]⟩ : Shape).Idx → BitVec 32

/-- The three single-precision words both programs carry: zero, the row width 128, and the normalisation's epsilon. -/
def zero32 : EReal := Ideal.ofBits .f32 0x00000000#32
def width32 : EReal := Ideal.ofBits .f32 0x43000000#32
def eps32 : EReal := Ideal.ofBits .f32 0x3727C5AC#32

/-- A linear layer: the row times the weights, plus the bias. -/
def affine (v : Row) (w : Weights 128) (b : Row) : Row := fun j => (∑ k, v k * w k j) + b j

/-- The rectifier. -/
def relu (v : Row) : Row := fun j => max (v j) zero32

/-- A row less its mean. -/
def centred (h : Row) : Row := fun j => h j - Ideal.div (∑ k, h k) width32

/-- Layer normalisation: the centred row over the root of its mean square plus epsilon, scaled and shifted. -/
def layerNorm (h g b : Row) : Row := fun j =>
  centred h j * Ideal.rsqrt (Ideal.div (∑ k, centred h k * centred h k) width32 + eps32) * g j + b j

/-- The perceptron after its first linear layer. -/
def hidden (pre : Row) (w1 : Weights 128) (b1 : Row) (w2 : Weights 128) (b2 g bg : Row) : Row :=
  layerNorm (affine (relu (affine (relu pre) w1 b1)) w2 b2) g bg

/-- An edge's first layer: destination row, source row and edge row against the three stacked blocks. -/
def edgePre (xd xs e : Row) (wd ws we : Weights 128) (b0 : Row) : Row := fun j =>
  (∑ k, xd k * wd k j) + (∑ k, xs k * ws k j) + (∑ k, e k * we k j) + b0 j

/-- A node's first layer: its row and the incoming sum against the two stacked blocks. -/
def nodePre (x a : Row) (wx wa : Weights 128) (b0 : Row) : Row := fun j =>
  (∑ k, x k * wx k j) + (∑ k, a k * wa k j) + b0 j

/-- Row `i` of an array. -/
def rowAt {n : Nat} (A : Arr n 128) (i : Fin n) : Row := fun k => A (ix2 i k)

/-- The 128 rows of a stacked weight array that start at row `off`. -/
def block {K : Nat} (W : Arr K 128) (off : Nat) (h : off + 128 ≤ K) : Weights 128 :=
  fun k j => W (ix2 ⟨off + k.val, by have := k.isLt; omega⟩ j)

/-- A vector as a row. -/
def vecRow (b : Vec1) : Row := fun j => b (ix1 j)

/-- One entry of an edge's new row. -/
def edgeEntry (xd xs e : Arr 600000 128) (we0 : Arr 384 128) (be0 : Vec1) (we1 : Arr 128 128) (be1 : Vec1)
    (we2 : Arr 128 128) (be2 ge bge : Vec1) (p : Fin 600000) (q : Fin 128) : EReal :=
  hidden (edgePre (rowAt xd p) (rowAt xs p) (rowAt e p) (block we0 0 (by decide)) (block we0 128 (by decide))
      (block we0 256 (by decide)) (vecRow be0))
    (block we1 0 (by decide)) (vecRow be1) (block we2 0 (by decide)) (vecRow be2) (vecRow ge) (vecRow bge) q

/-- The new edge rows, from the gathered end rows and the old edge rows. -/
def edgeOut (xd xs e : Arr 600000 128) (we0 : Arr 384 128) (be0 : Vec1) (we1 : Arr 128 128) (be1 : Vec1)
    (we2 : Arr 128 128) (be2 ge bge : Vec1) : Arr 600000 128 :=
  fun i => edgeEntry xd xs e we0 be0 we1 be1 we2 be2 ge bge (i 0) (i 1)

/-- One entry of a node's new row. -/
def nodeEntry (x agg : Arr 50000 128) (wn0 : Arr 256 128) (bn0 : Vec1) (wn1 : Arr 128 128) (bn1 : Vec1)
    (wn2 : Arr 128 128) (bn2 gn bgn : Vec1) (p : Fin 50000) (q : Fin 128) : EReal :=
  x (ix2 p q) + hidden (nodePre (rowAt x p) (rowAt agg p) (block wn0 0 (by decide)) (block wn0 128 (by decide)) (vecRow bn0))
    (block wn1 0 (by decide)) (vecRow bn1) (block wn2 0 (by decide)) (vecRow bn2) (vecRow gn) (vecRow bgn) q

/-- The new node rows, from the old ones and the sums over incoming edges. -/
def nodeOut (x agg : Arr 50000 128) (wn0 : Arr 256 128) (bn0 : Vec1) (wn1 : Arr 128 128) (bn1 : Vec1)
    (wn2 : Arr 128 128) (bn2 gn bgn : Vec1) : Arr 50000 128 :=
  fun i => nodeEntry x agg wn0 bn0 wn1 bn1 wn2 bn2 gn bgn (i 0) (i 1)

/-- Row `r` of the edge list as the column of start indices a gather or a scatter reads. -/
def column (r : Fin 2) (ei : Edges) : (⟨2, ![600000, 1]⟩ : Shape).Idx → BitVec 32 := fun i => ei (ix2 r (i 0))

/-- The program's second result: every edge's new row. -/
def messages (gd : GatherDims ⟨2, ![50000, 128]⟩ ⟨2, ![600000, 1]⟩ ⟨2, ![600000, 128]⟩)
    (x : Arr 50000 128) (e : Arr 600000 128) (ei : Edges) (we0 : Arr 384 128) (be0 : Vec1) (we1 : Arr 128 128) (be1 : Vec1)
    (we2 : Arr 128 128) (be2 ge bge : Vec1) : Arr 600000 128 :=
  edgeOut (Host.gather gd x (column 1 ei)) (Host.gather gd x (column 0 ei)) e we0 be0 we1 be1 we2 be2 ge bge

/-- The program's first result: every node's new row. -/
def updated (gd : GatherDims ⟨2, ![50000, 128]⟩ ⟨2, ![600000, 1]⟩ ⟨2, ![600000, 128]⟩)
    (sd : ScatterDims ⟨2, ![50000, 128]⟩ ⟨2, ![600000, 1]⟩ ⟨2, ![600000, 128]⟩)
    (x : Arr 50000 128) (e : Arr 600000 128) (ei : Edges) (we0 : Arr 384 128) (be0 : Vec1) (we1 : Arr 128 128) (be1 : Vec1)
    (we2 : Arr 128 128) (be2 ge bge : Vec1) (wn0 : Arr 256 128) (bn0 : Vec1) (wn1 : Arr 128 128) (bn1 : Vec1)
    (wn2 : Arr 128 128) (bn2 gn bgn : Vec1) : Arr 50000 128 :=
  nodeOut x (Host.scatterAdd (F := Ideal) (φ := .f32) sd (fun _ => zero32) (column 1 ei)
      (messages gd x e ei we0 be0 we1 be1 we2 be2 ge bge))
    wn0 bn0 wn1 bn1 wn2 bn2 gn bgn

/-- A sum over 384 terms is the sum of its three consecutive blocks of 128. -/
theorem sum_three_blocks {M : Type*} [AddCommMonoid M] (f : Fin 384 → M) :
    ∑ k : Fin 384, f k
      = (∑ k : Fin 128, f ⟨k.val, by have := k.isLt; omega⟩) + (∑ k : Fin 128, f ⟨128 + k.val, by have := k.isLt; omega⟩)
        + (∑ k : Fin 128, f ⟨256 + k.val, by have := k.isLt; omega⟩) := by
  show ∑ k : Fin (128 + 128 + 128), f k = _
  rw [Fin.sum_univ_add, Fin.sum_univ_add]
  rfl

/-- A sum over 256 terms is the sum of its two halves. -/
theorem sum_two_blocks {M : Type*} [AddCommMonoid M] (f : Fin 256 → M) :
    ∑ k : Fin 256, f k
      = (∑ k : Fin 128, f ⟨k.val, by have := k.isLt; omega⟩) + (∑ k : Fin 128, f ⟨128 + k.val, by have := k.isLt; omega⟩) := by
  show ∑ k : Fin (128 + 128), f k = _
  rw [Fin.sum_univ_add]
  rfl

end Cert.GraphBlock

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.LibPlainProduct.lean ====
/-
  A plain matrix product — rows × contraction times contraction × columns, no batch axis — read at one entry.

  A GENERAL lemma file (any extents): for dimension numbers that contract the left operand's second axis with the
  right operand's first and keep the left rows and the right columns, a kernel's matmul into the zero accumulator and a
  reference's dot_general hold, at the ideal values, at entry (p, q) the sum over k of left (p, k) times right (k, q).
  The four facts that say which operand entry sits at a result index and a contraction position are proved once, from
  the six lists of the dimension numbers alone; a certificate supplies those lists by `rfl` per printed record.
-/
import Idealize.ShloMosaic.Lib.ValueIdx
import Idealize.ShloMosaic.PureOps.Ideal.Laws
import proofs.«418581_j55173149884911_3_alg».proof.Proof.LibOneAxisContraction

noncomputable section

namespace Cert.Dots

open Idealize.ShloMosaic Idealize.ShloMosaic.ValueIdx
open scoped BigOperators

/-- The dimension numbers of a plain `n × K` by `K × m` product. -/
structure IsPlain {n K m : Nat} (d : DotDims ⟨2, ![n, K]⟩ ⟨2, ![K, m]⟩ ⟨2, ![n, m]⟩) : Prop where
  lb : d.lhsBatch = []
  rb : d.rhsBatch = []
  ln : d.lhsNonContracting = [0]
  rn : d.rhsNonContracting = [1]
  lc : d.lhsContracting = [1]
  rc : d.rhsContracting = [0]

variable {n K m : Nat} {d : DotDims ⟨2, ![n, K]⟩ ⟨2, ![K, m]⟩ ⟨2, ![n, m]⟩}

theorem IsPlain.contr_rank (h : IsPlain d) : d.contr.rank = 1 := by rw [d.rank_contr, h.lc]; rfl

theorem IsPlain.contr_size (h : IsPlain d) : d.contr.size ⟨0, by rw [h.contr_rank]; exact Nat.one_pos⟩ = K := by
  have := d.size_contr 0 (by rw [h.lc]; exact Nat.one_pos)
  rw [this]
  simp only [h.lc, List.getElem_cons_zero]
  rfl

/-- A coordinate of an index read at two positions that are the same number is the same coordinate. -/
private theorem coord_congr {s : Shape} (j : s.Idx) (a b : Nat) (ha : a < s.rank) (hb : b < s.rank) (e : a = b) :
    (j ⟨a, ha⟩).val = (j ⟨b, hb⟩).val := by subst e; rfl

/-- Off the contracted axis the left index reads the result's row. -/
theorem IsPlain.lhs_row (h : IsPlain d) (j : (⟨2, ![n, m]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton_self _)]
  simp only [Fin.coe_cast]
  exact coord_congr j _ _ _ _ (by simp [h.lb, h.ln])

/-- On it, the contraction position. -/
theorem IsPlain.lhs_col (h : IsPlain d) (j : (⟨2, ![n, m]⟩ : Shape).Idx) (c : Fin K) :
    (d.lhsIdx j ((contrEquiv1 d K h.contr_rank h.contr_size).symm c) 1).val = c.val :=
  (d.lhsIdx_val_of_single h.lc j _).trans (contrEquiv1_symm_val d K h.contr_rank h.contr_size c)

/-- The right index reads the contraction position on its first axis. -/
theorem IsPlain.rhs_row (h : IsPlain d) (j : (⟨2, ![n, m]⟩ : Shape).Idx) (c : Fin K) :
    (d.rhsIdx j ((contrEquiv1 d K h.contr_rank h.contr_size).symm c) 0).val = c.val :=
  (d.rhsIdx_val_of_single h.rc j _).trans (contrEquiv1_symm_val d K h.contr_rank h.contr_size c)

/-- and the result's column on its second. -/
theorem IsPlain.rhs_col (h : IsPlain d) (j : (⟨2, ![n, m]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton_self _)]
  simp only [Fin.coe_cast]
  exact coord_congr j _ _ _ _ (by simp [h.lb, h.ln, h.rn])

theorem IsPlain.lhsIdx_eq (h : IsPlain d) (p : Fin n) (q : Fin m) (c : Fin K) :
    d.lhsIdx (ix2 p q) ((contrEquiv1 d K h.contr_rank h.contr_size).symm c) = ix2 p c := by
  funext a; apply Fin.ext
  match a with
  | ⟨0, _⟩ => exact h.lhs_row _ _
  | ⟨1, _⟩ => exact h.lhs_col _ _

theorem IsPlain.rhsIdx_eq (h : IsPlain d) (p : Fin n) (q : Fin m) (c : Fin K) :
    d.rhsIdx (ix2 p q) ((contrEquiv1 d K h.contr_rank h.contr_size).symm c) = ix2 c q := by
  funext a; apply Fin.ext
  match a with
  | ⟨0, _⟩ => exact h.rhs_row _ _
  | ⟨1, _⟩ => exact h.rhs_col _ _

/-- A kernel's plain matmul into the zero accumulator, at entry `(p, q)`. -/
theorem matmul_plain {φ₁ φ₂ : FTy} (h : IsPlain d) (prec : Option ContractPrecision)
    (a : FVec Ideal ⟨2, ![n, K]⟩ φ₁) (w : FVec Ideal ⟨2, ![K, m]⟩ φ₂) (p : Fin n) (q : Fin m) :
    matmul d prec a w (constant ⟨2, ![n, m]⟩ .f32 0x00000000#32) (ix2 p q) = ∑ k : Fin K, a (ix2 p k) * w (ix2 k q) :=
  matmul_zero_apply_of d K h.contr_rank h.contr_size prec a w (ix2 p q) (fun k => ix2 p k) (fun k => ix2 k q)
    (h.lhsIdx_eq p q) (h.rhsIdx_eq p q)

/-- A reference's plain dot_general, at entry `(p, q)`. -/
theorem dotGeneral_plain {φ₁ φ₂ : FTy} (h : IsPlain d) (prec : Option ContractPrecision) (sched : HostSchedule)
    (a : FVec Ideal ⟨2, ![n, K]⟩ φ₁) (w : FVec Ideal ⟨2, ![K, m]⟩ φ₂) (p : Fin n) (q : Fin m) :
    FloatOps.dotGeneral d prec sched a w (ix2 p q) = ∑ k : Fin K, a (ix2 p k) * w (ix2 k q) :=
  dotGeneral_apply_of d K h.contr_rank h.contr_size prec sched a w (ix2 p q) (fun k => ix2 p k) (fun k => ix2 k q)
    (h.lhsIdx_eq p q) (h.rhsIdx_eq p q)

end Cert.Dots

end
-- ==== Proof.LibRowOps.lean ====
/-
  Row operations on an `a × b` array read at an entry.

  A GENERAL lemma file (any extents): the sum along a row — a kernel's lane reduction and a reference's host sum, at the
  ideal values — is the sum over the column coordinate; a vector of `a` numbers recast as an `a × 1` column keeps its
  entries; a column broadcast across `b` columns repeats each row's entry. These are the keep-dimension forms a mean or
  a variance along the last axis is written with.
-/
import Idealize.ShloMosaic.Lib.ValueIdx
import Idealize.ShloMosaic.Lib.Pipeline.Value
import Idealize.ShloMosaic.PureOps.Ideal.Laws

noncomputable section

namespace Cert.Rows

open Idealize.ShloMosaic Idealize.ShloMosaic.ValueIdx
open scoped BigOperators

variable {α : Type}

/-- A vector recast as a column: entry `(i, 0)` is entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A kernel's sum along the rows of an `a × b` array, at row `p`: the sum over the column coordinate. -/
theorem multiReduction_rows {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) := by
  rw [Ideal.multiReduction_add_single]
  exact Finset.sum_congr rfl fun k _ => congrArg v (funext fun ax => Fin.ext (by
    match ax with
    | ⟨0, _⟩ => rfl
    | ⟨1, _⟩ => rfl))

/-- A reference's host sum along the rows, at row `p`: the initial value plus the sum over the column coordinate. -/
theorem hostReduceAdd_rows {φ : FTy} {a b : ℕ} (x : FVec Ideal ⟨2, ![a, b]⟩ φ) (init : Ideal φ)
    (h' : (⟨2, ![a, b]⟩ : Shape).ReducesTo [1] ⟨1, ![a]⟩) (h : (⟨2, ![a, b]⟩ : Shape).Reduces [1] ⟨1, ![a]⟩) (p : Fin a) :
    Ideal.hostReduceAdd h' x init (ix1 p) = init + ∑ k : Fin b, x (ix2 p k) := by
  rw [Ideal.hostReduceAdd_single h' h]
  exact congrArg (init + ·) (Finset.sum_congr rfl fun k _ => congrArg x (funext fun ax => Fin.ext (by
    match ax with
    | ⟨0, _⟩ => rfl
    | ⟨1, _⟩ => rfl)))

end Cert.Rows

end
-- ==== Proof.BlockLayers.lean ====
/-
  The layers of the perceptron on a BLOCK of `N` rows at once, as a kernel body computes them, read at one entry.

  A kernel body works on an `N × 128` block: a linear layer is a matrix product into a zero accumulator plus the bias
  row broadcast down the block; the rectifier is a maximum with a zero splat; the layer normalisation takes the mean
  along each row (a lane sum, recast as a column, divided by the width, broadcast back across the row), centres, takes
  the mean square the same way, adds epsilon, takes the reciprocal root, and scales and shifts by a gain row and a bias
  row. Every one of these acts on each row by itself, so entry `(p, q)` of the result is entry `q` of the row
  function of `Cert.GraphBlock` applied to row `p` of the operands. The block terms are stated over the dimension
  records as parameters, so the same text serves a body at any block height.
-/
import proofs.«418581_j55173149884911_3_alg».proof.Proof.GraphBlock
import proofs.«418581_j55173149884911_3_alg».proof.Proof.LibPlainProduct
import proofs.«418581_j55173149884911_3_alg».proof.Proof.LibRowOps
import Idealize.ShloMosaic.Lib.ValueLayout

noncomputable section

namespace Cert.BlockLayers

open Idealize.ShloMosaic Idealize.ShloMosaic.ValueIdx Cert.GraphBlock
open scoped BigOperators

/-- The first 128 rows of a 128-row weight array are the array. -/
theorem block_zero (W : Arr 128 128) (h : 0 + 128 ≤ 128) : block W 0 h = fun k j => W (ix2 k j) := by
  funext k j
  show W (ix2 ⟨0 + k.val, _⟩ j) = W (ix2 k j)
  congr 2
  exact Fin.ext (Nat.zero_add _)

variable {N : ℕ}
  (dN : DotDims ⟨2, ![N, 128]⟩ ⟨2, ![128, 128]⟩ ⟨2, ![N, 128]⟩) (hd : Cert.Dots.IsPlain dN)
  (red : (⟨2, ![N, 128]⟩ : Shape).Reduces [1] ⟨1, ![N]⟩)
  (col : (⟨1, ![N]⟩ : Shape).ShapeCasts ⟨2, ![N, 1]⟩)
  (across : (⟨2, ![N, 1]⟩ : Shape).Broadcasts ⟨2, ![N, 128]⟩)
  (down : (⟨2, ![1, 128]⟩ : Shape).Broadcasts ⟨2, ![N, 128]⟩)
  (sameRow : (⟨2, ![1, 128]⟩ : Shape).ShapeCasts ⟨2, ![1, 128]⟩)
  (sameW : (⟨2, ![128, 128]⟩ : Shape).ShapeCasts ⟨2, ![128, 128]⟩)

/-- A matrix product of the block with a weight array, into the zero accumulator. -/
abbrev product {φ : FTy} (a : FVec Ideal ⟨2, ![N, 128]⟩ φ) (w : FVec Ideal ⟨2, ![128, 128]⟩ .bf16) : FVec Ideal ⟨2, ![N, 128]⟩ .f32 :=
  matmul dN none a (shapeCast ⟨2, ![128, 128]⟩ w sameW) (constant ⟨2, ![N, 128]⟩ .f32 0x00000000#32)

/-- A bias, gain or shift row broadcast down the block. -/
abbrev downRows (b : FVec Ideal ⟨2, ![1, 128]⟩ .f32) : FVec Ideal ⟨2, ![N, 128]⟩ .f32 :=
  broadcastTo ⟨2, ![N, 128]⟩ (shapeCast ⟨2, ![1, 128]⟩ b sameRow) down

include hd in
theorem product_apply {φ : FTy} (a : FVec Ideal ⟨2, ![N, 128]⟩ φ) (w : FVec Ideal ⟨2, ![128, 128]⟩ .bf16) (p : Fin N) (q : Fin 128) :
    product dN sameW a w (ix2 p q) = ∑ k, rowAt a p k * block w 0 (by decide) k q := by
  show matmul dN none a (shapeCast ⟨2, ![128, 128]⟩ w sameW) (constant ⟨2, ![N, 128]⟩ .f32 0x00000000#32) (ix2 p q) = _
  rw [shapeCast_self, Cert.Dots.matmul_plain hd, block_zero]
  rfl

theorem downRows_apply (b : FVec Ideal ⟨2, ![1, 128]⟩ .f32) (p : Fin N) (q : Fin 128) :
    downRows down sameRow b (ix2 p q) = rowAt b 0 q := by
  show broadcastTo ⟨2, ![N, 128]⟩ (shapeCast ⟨2, ![1, 128]⟩ b sameRow) down (ix2 p q) = _
  rw [shapeCast_self, broadcastTo_1b_ab_apply]
  rfl

/-- A linear layer on the block. -/
abbrev linear {φ : FTy} (a : FVec Ideal ⟨2, ![N, 128]⟩ φ) (w : FVec Ideal ⟨2, ![128, 128]⟩ .bf16) (b : FVec Ideal ⟨2, ![1, 128]⟩ .f32) :
    FVec Ideal ⟨2, ![N, 128]⟩ .f32 :=
  addf (product dN sameW a w) (downRows down sameRow b)

include hd in
theorem linear_apply {φ : FTy} (a : FVec Ideal ⟨2, ![N, 128]⟩ φ) (w : FVec Ideal ⟨2, ![128, 128]⟩ .bf16) (b : FVec Ideal ⟨2, ![1, 128]⟩ .f32)
    (p : Fin N) (q : Fin 128) :
    linear dN down sameRow sameW a w b (ix2 p q) = affine (rowAt a p) (block w 0 (by decide)) (rowAt b 0) q := by
  show product dN sameW a w (ix2 p q) + downRows down sameRow b (ix2 p q) = _
  rw [product_apply dN hd, downRows_apply]
  rfl

/-- The rectifier on the block: the maximum with a zero splat. -/
abbrev rectify (h : FVec Ideal ⟨2, ![N, 128]⟩ .f32) : FVec Ideal ⟨2, ![N, 128]⟩ .f32 :=
  maximumf h (broadcast ⟨2, ![N, 128]⟩ (Scalar.ofBits (F := Ideal) .f32 0x00000000#32))

theorem rectify_apply (h : FVec Ideal ⟨2, ![N, 128]⟩ .f32) (p : Fin N) (q : Fin 128) :
    rectify h (ix2 p q) = relu (rowAt h p) q := rfl

/-- The mean along each row, as a column: lane sum, recast, divided by the width word. -/
abbrev rowMean (h : FVec Ideal ⟨2, ![N, 128]⟩ .f32) : FVec Ideal ⟨2, ![N, 1]⟩ .f32 :=
  divf (shapeCast ⟨2, ![N, 1]⟩ (multiReduction .add [1] ⟨1, ![N]⟩ h 0x00000000#32 red (.inl rfl) rfl) col)
    (broadcast ⟨2, ![N, 1]⟩ (Scalar.ofBits (F := Ideal) .f32 0x43000000#32))

theorem rowMean_apply (h : FVec Ideal ⟨2, ![N, 128]⟩ .f32) (p : Fin N) (u : Fin 1) :
    rowMean red col h (ix2 p u) = Ideal.div (∑ k, rowAt h p k) width32 := by
  show Ideal.div (shapeCast ⟨2, ![N, 1]⟩ (multiReduction .add [1] ⟨1, ![N]⟩ h 0x00000000#32 red (.inl rfl) rfl) col (ix2 p u)) _ = _
  rw [Cert.Rows.shapeCast_a_a1_apply]
  exact congrArg (fun s => Ideal.div s width32) (Cert.Rows.multiReduction_rows h 0x00000000#32 red (.inl rfl) rfl p)

/-- The block less its row means. -/
abbrev centredBlock (h : FVec Ideal ⟨2, ![N, 128]⟩ .f32) : FVec Ideal ⟨2, ![N, 128]⟩ .f32 :=
  subf h (broadcastTo ⟨2, ![N, 128]⟩ (rowMean red col h) across)

theorem centredBlock_apply (h : FVec Ideal ⟨2, ![N, 128]⟩ .f32) (p : Fin N) (q : Fin 128) :
    centredBlock red col across h (ix2 p q) = centred (rowAt h p) q := by
  show h (ix2 p q) - broadcastTo ⟨2, ![N, 128]⟩ (rowMean red col h) across (ix2 p q) = _
  rw [Cert.Rows.broadcastTo_a1_ab_apply, rowMean_apply]
  rfl

/-- The reciprocal root of the row's mean square plus epsilon, as a column. -/
abbrev rowScale (d : FVec Ideal ⟨2, ![N, 128]⟩ .f32) : FVec Ideal ⟨2, ![N, 1]⟩ .f32 :=
  rsqrt (addf (rowMean red col (mulf d d)) (broadcast ⟨2, ![N, 1]⟩ (Scalar.ofBits (F := Ideal) .f32 0x3727C5AC#32)))

theorem rowScale_apply (d : FVec Ideal ⟨2, ![N, 128]⟩ .f32) (p : Fin N) (u : Fin 1) :
    rowScale red col d (ix2 p u) = Ideal.rsqrt (Ideal.div (∑ k, rowAt d p k * rowAt d p k) width32 + eps32) := by
  show Ideal.rsqrt (rowMean red col (mulf d d) (ix2 p u) + _) = _
  rw [rowMean_apply]
  rfl

/-- Layer normalisation of the block. -/
abbrev normalise (h : FVec Ideal ⟨2, ![N, 128]⟩ .f32) (g bg : FVec Ideal ⟨2, ![1, 128]⟩ .f32) : FVec Ideal ⟨2, ![N, 128]⟩ .f32 :=
  addf (mulf (mulf (centredBlock red col across h)
        (broadcastTo ⟨2, ![N, 128]⟩ (rowScale red col (centredBlock red col across h)) across))
      (downRows down sameRow g))
    (downRows down sameRow bg)

theorem normalise_apply (h : FVec Ideal ⟨2, ![N, 128]⟩ .f32) (g bg : FVec Ideal ⟨2, ![1, 128]⟩ .f32) (p : Fin N) (q : Fin 128) :
    normalise red col across down sameRow h g bg (ix2 p q) = layerNorm (rowAt h p) (rowAt g 0) (rowAt bg 0) q := by
  show centredBlock red col across h (ix2 p q)
      * broadcastTo ⟨2, ![N, 128]⟩ (rowScale red col (centredBlock red col across h)) across (ix2 p q)
      * downRows down sameRow g (ix2 p q) + downRows down sameRow bg (ix2 p q) = _
  rw [Cert.Rows.broadcastTo_a1_ab_apply, rowScale_apply, downRows_apply, downRows_apply, centredBlock_apply]
  have e : rowAt (centredBlock red col across h) p = centred (rowAt h p) := funext fun k => centredBlock_apply red col across h p k
  rw [e]
  rfl

end Cert.BlockLayers

end
-- ==== Proof.KernelEdgeRow.lean ====
/-
  The edge kernel's body at one entry of its output block.

  The body's arithmetic is the skeleton's two payloads: the first two layers of the edge perceptron (three matrix
  products of the gathered destination rows, the gathered source rows and the edge rows with the three stacked weight
  blocks, summed, plus the bias; a rectifier; a second linear layer; a rectifier) and then the third linear layer with
  the layer normalisation. Both are, by unfolding, compositions of the block layers of `Cert.BlockLayers`, each of
  which acts row by row; so entry `(p, q)` of the stored block is entry `q` of the specification's row function
  `hidden (edgePre …) …` at row `p` of the three data blocks. Changes of float format are the identity at the ideal values.
-/
import proofs.«418581_j55173149884911_3_alg».proof.Proof.Gen.KernelIdeal.Skeleton
import proofs.«418581_j55173149884911_3_alg».proof.Proof.BlockLayers

noncomputable section

namespace Cert.KernelIdeal.EdgeRow

open Cert.KernelIdeal Cert.KernelIdeal.Gen Idealize.ShloMosaic Idealize.ShloMosaic.ValueIdx Cert.GraphBlock Cert.BlockLayers
open scoped BigOperators

/-- The body's matrix products are plain row-by-column products. -/
theorem plain : Cert.Dots.IsPlain dot_S6000x128_S128x128_S6000x128_1_0_0_1_n_n := ⟨rfl, rfl, rfl, rfl, rfl, rfl⟩

/-- The block's matrix product, bias broadcast, linear layer and normalisation at this body's records. -/
abbrev prod {φ : FTy} (a : FVec Ideal S6000x128 φ) (w : FVec Ideal S128x128 .bf16) : FVec Ideal S6000x128 .f32 :=
  product dot_S6000x128_S128x128_S6000x128_1_0_0_1_n_n shapeCasts_S128x128_S128x128 a w
abbrev bias (b : FVec Ideal S1x128 .f32) : FVec Ideal S6000x128 .f32 :=
  downRows broadcasts_S1x128_S6000x128 shapeCasts_S1x128_S1x128 b
abbrev lin {φ : FTy} (a : FVec Ideal S6000x128 φ) (w : FVec Ideal S128x128 .bf16) (b : FVec Ideal S1x128 .f32) : FVec Ideal S6000x128 .f32 :=
  linear dot_S6000x128_S128x128_S6000x128_1_0_0_1_n_n broadcasts_S1x128_S6000x128 shapeCasts_S1x128_S1x128 shapeCasts_S128x128_S128x128 a w b
abbrev norm (h : FVec Ideal S6000x128 .f32) (g bg : FVec Ideal S1x128 .f32) : FVec Ideal S6000x128 .f32 :=
  normalise reduces_S6000x128_S6000 shapeCasts_S6000_S6000x1 broadcasts_S6000x1_S6000x128 broadcasts_S1x128_S6000x128
    shapeCasts_S1x128_S1x128 h g bg

theorem prod_apply {φ : FTy} (a : FVec Ideal S6000x128 φ) (w : FVec Ideal S128x128 .bf16) (p : Fin 6000) (q : Fin 128) :
    prod a w (ix2 p q) = ∑ k, rowAt a p k * block w 0 (by decide) k q := product_apply _ plain _ a w p q
theorem bias_apply (b : FVec Ideal S1x128 .f32) (p : Fin 6000) (q : Fin 128) : bias b (ix2 p q) = rowAt b 0 q :=
  downRows_apply _ _ b p q
theorem lin_apply {φ : FTy} (a : FVec Ideal S6000x128 φ) (w : FVec Ideal S128x128 .bf16) (b : FVec Ideal S1x128 .f32)
    (p : Fin 6000) (q : Fin 128) : lin a w b (ix2 p q) = affine (rowAt a p) (block w 0 (by decide)) (rowAt b 0) q :=
  linear_apply _ plain _ _ _ a w b p q
theorem norm_apply (h : FVec Ideal S6000x128 .f32) (g bg : FVec Ideal S1x128 .f32) (p : Fin 6000) (q : Fin 128) :
    norm h g bg (ix2 p q) = layerNorm (rowAt h p) (rowAt g 0) (rowAt bg 0) q :=
  normalise_apply _ _ _ _ _ h g bg p q

/-- The first layer's sum on the block, before the rectifier. -/
abbrev firstSum (x0 x1 : FVec Ideal S6000x128 .bf16) (x2 : FVec Ideal S6000x128 .f32) (x3 x4 x5 : FVec Ideal S128x128 .bf16)
    (x6 : FVec Ideal S1x128 .f32) : FVec Ideal S6000x128 .f32 :=
  addf (addf (addf (prod (shapeCast S6000x128 x0 shapeCasts_S6000x128_S6000x128) x3)
      (prod (shapeCast S6000x128 x1 shapeCasts_S6000x128_S6000x128) x4))
      (prod (truncf .bf16 x2 bitsLt_bf16_f32) x5)) (bias x6)

/-- The payload of the first two layers is: rectifier of a linear layer of the rectifier of the first sum. -/
theorem pay2_eq (x0 x1 : FVec Ideal S6000x128 .bf16) (x2 : FVec Ideal S6000x128 .f32) (x3 x4 x5 : FVec Ideal S128x128 .bf16)
    (x6 : FVec Ideal S1x128 .f32) (x7 : FVec Ideal S128x128 .bf16) (x8 : FVec Ideal S1x128 .f32) :
    k0_pay2 (F := Ideal) x0 x1 x2 x3 x4 x5 x6 x7 x8
      = truncf .bf16 (rectify (lin (truncf .bf16 (rectify (firstSum x0 x1 x2 x3 x4 x5 x6)) bitsLt_bf16_f32) x7 x8)) bitsLt_bf16_f32 := rfl

/-- The payload of the store is: the normalisation of the third linear layer. -/
theorem pay1_eq (v33 : FVec Ideal S6000x128 .bf16) (v34 : FVec Ideal S128x128 .bf16) (v37 v41 v43 : FVec Ideal S1x128 .f32) :
    k0_pay1 (F := Ideal) v33 v34 v37 v41 v43 = norm (lin v33 v34 v37) v41 v43 := rfl

/-- The first sum at an entry: the three products and the bias of the specification's first layer. -/
theorem firstSum_apply (x0 x1 : FVec Ideal S6000x128 .bf16) (x2 : FVec Ideal S6000x128 .f32) (x3 x4 x5 : FVec Ideal S128x128 .bf16)
    (x6 : FVec Ideal S1x128 .f32) (p : Fin 6000) (q : Fin 128) :
    firstSum x0 x1 x2 x3 x4 x5 x6 (ix2 p q)
      = edgePre (rowAt x0 p) (rowAt x1 p) (rowAt x2 p) (block x3 0 (by decide)) (block x4 0 (by decide)) (block x5 0 (by decide))
          (rowAt x6 0) q := by
  show prod (shapeCast S6000x128 x0 shapeCasts_S6000x128_S6000x128) x3 (ix2 p q)
      + prod (shapeCast S6000x128 x1 shapeCasts_S6000x128_S6000x128) x4 (ix2 p q)
      + prod (truncf .bf16 x2 bitsLt_bf16_f32) x5 (ix2 p q) + bias x6 (ix2 p q) = _
  rw [shapeCast_self, shapeCast_self, prod_apply, prod_apply, prod_apply, bias_apply]
  rfl

/-- The first two layers at an entry. -/
theorem pay2_apply (x0 x1 : FVec Ideal S6000x128 .bf16) (x2 : FVec Ideal S6000x128 .f32) (x3 x4 x5 : FVec Ideal S128x128 .bf16)
    (x6 : FVec Ideal S1x128 .f32) (x7 : FVec Ideal S128x128 .bf16) (x8 : FVec Ideal S1x128 .f32) (p : Fin 6000) (q : Fin 128) :
    k0_pay2 (F := Ideal) x0 x1 x2 x3 x4 x5 x6 x7 x8 (ix2 p q)
      = relu (affine (relu (edgePre (rowAt x0 p) (rowAt x1 p) (rowAt x2 p) (block x3 0 (by decide)) (block x4 0 (by decide))
          (block x5 0 (by decide)) (rowAt x6 0))) (block x7 0 (by decide)) (rowAt x8 0)) q := by
  rw [pay2_eq]
  show rectify (lin (truncf .bf16 (rectify (firstSum x0 x1 x2 x3 x4 x5 x6)) bitsLt_bf16_f32) x7 x8) (ix2 p q) = _
  rw [rectify_apply]
  have e1 : rowAt (lin (truncf .bf16 (rectify (firstSum x0 x1 x2 x3 x4 x5 x6)) bitsLt_bf16_f32) x7 x8) p
      = affine (rowAt (truncf .bf16 (rectify (firstSum x0 x1 x2 x3 x4 x5 x6)) bitsLt_bf16_f32) p) (block x7 0 (by decide)) (rowAt x8 0) :=
    funext fun k => lin_apply _ _ _ p k
  have e2 : rowAt (truncf .bf16 (rectify (firstSum x0 x1 x2 x3 x4 x5 x6)) bitsLt_bf16_f32) p
      = relu (edgePre (rowAt x0 p) (rowAt x1 p) (rowAt x2 p) (block x3 0 (by decide)) (block x4 0 (by decide))
          (block x5 0 (by decide)) (rowAt x6 0)) :=
    funext fun k => by
      show rectify (firstSum x0 x1 x2 x3 x4 x5 x6) (ix2 p k) = _
      rw [rectify_apply]
      exact congrArg (fun r : Row => relu r k) (funext fun j => firstSum_apply x0 x1 x2 x3 x4 x5 x6 p j)
  rw [e1, e2]

/-- THE BODY AT AN ENTRY: entry `(p, q)` of what the body stores is the edge perceptron's row function at row `p` of
    the three data blocks and the weight, bias, gain and shift blocks. -/
theorem pay_apply (x0 x1 : FVec Ideal S6000x128 .bf16) (x2 : FVec Ideal S6000x128 .f32) (x3 x4 x5 : FVec Ideal S128x128 .bf16)
    (x6 : FVec Ideal S1x128 .f32) (x7 : FVec Ideal S128x128 .bf16) (x8 : FVec Ideal S1x128 .f32) (x9 : FVec Ideal S128x128 .bf16)
    (x10 x11 x12 : FVec Ideal S1x128 .f32) (p : Fin 6000) (q : Fin 128) :
    k0_pay1 (F := Ideal) (k0_pay2 (F := Ideal) x0 x1 x2 x3 x4 x5 x6 x7 x8) x9 x10 x11 x12 (ix2 p q)
      = hidden (edgePre (rowAt x0 p) (rowAt x1 p) (rowAt x2 p) (block x3 0 (by decide)) (block x4 0 (by decide))
          (block x5 0 (by decide)) (rowAt x6 0))
        (block x7 0 (by decide)) (rowAt x8 0) (block x9 0 (by decide)) (rowAt x10 0) (rowAt x11 0) (rowAt x12 0) q := by
  rw [pay1_eq]
  show norm (lin (k0_pay2 (F := Ideal) x0 x1 x2 x3 x4 x5 x6 x7 x8) x9 x10) x11 x12 (ix2 p q) = _
  rw [norm_apply]
  have e3 : rowAt (lin (k0_pay2 (F := Ideal) x0 x1 x2 x3 x4 x5 x6 x7 x8) x9 x10) p
      = affine (rowAt (k0_pay2 (F := Ideal) x0 x1 x2 x3 x4 x5 x6 x7 x8) p) (block x9 0 (by decide)) (rowAt x10 0) :=
    funext fun k => lin_apply _ _ _ p k
  have e2 : rowAt (k0_pay2 (F := Ideal) x0 x1 x2 x3 x4 x5 x6 x7 x8) p
      = relu (affine (relu (edgePre (rowAt x0 p) (rowAt x1 p) (rowAt x2 p) (block x3 0 (by decide)) (block x4 0 (by decide))
          (block x5 0 (by decide)) (rowAt x6 0))) (block x7 0 (by decide)) (rowAt x8 0)) :=
    funext fun k => pay2_apply x0 x1 x2 x3 x4 x5 x6 x7 x8 p k
  rw [e3, e2]
  rfl

end Cert.KernelIdeal.EdgeRow

end
-- ==== Proof.KernelEdgeValue.lean ====
/-
  What the edge region leaves in its output array: every edge's new row.

  The region walks 100 grid points; point `t` fetches rows `6000 t … 6000 t + 5999` of the two gathered arrays and of
  the edge array, the whole of every weight, bias, gain and shift array, and writes back rows `6000 t … 6000 t + 5999` of
  the output. The body acts row by row (`EdgeRow.pay_apply`), so what point `t` writes back is block `t` of ONE
  whole-array function of the arrays as the region finds them — row `i` of the result is the edge perceptron's row
  function of row `i` of the three data arrays —, and the 100 blocks tile the 600000 rows (row `i` lies in block
  `i / 6000`), so the array ends holding that function.
-/
import proofs.«418581_j55173149884911_3_alg».proof.Proof.Gen.KernelIdeal.Frame
import proofs.«418581_j55173149884911_3_alg».proof.Proof.KernelEdgeRow
import Idealize.ShloMosaic.Lib.Pipeline.Value

set_option maxRecDepth 16384

noncomputable section

namespace Cert.KernelIdeal.EdgeValue

open Cert.KernelIdeal Cert.KernelIdeal.Gen Idealize.ShloMosaic Idealize.ShloMosaic.TcCoe Idealize.ShloMosaic.ValueIdx
open Idealize.SL.Sem Cert.GraphBlock
open Idealize.ShloMosaic.Pipeline (Dat Cfg Window)

variable (V : (c : Dev nD) → (b : Ref sig .tc) → Buf (Elt Ideal) ((c : Thread nD τ).loc b))

/-- The region's arrays as it finds them, each at its literal type: the gathered destination and source rows, the
    edge rows, the three stacked first-layer blocks and the first bias, the second and third layers, gain and shift. -/
abbrev xd (c : Dev nD) : FVec Ideal S600000x128 .bf16 := V c (Pipeline.arrRef spec0 0)
abbrev xs (c : Dev nD) : FVec Ideal S600000x128 .bf16 := V c (Pipeline.arrRef spec0 1)
abbrev ee (c : Dev nD) : FVec Ideal S600000x128 .f32 := V c (Pipeline.arrRef spec0 2)
abbrev w0d (c : Dev nD) : FVec Ideal S128x128 .bf16 := V c (Pipeline.arrRef spec0 3)
abbrev w0s (c : Dev nD) : FVec Ideal S128x128 .bf16 := V c (Pipeline.arrRef spec0 4)
abbrev w0e (c : Dev nD) : FVec Ideal S128x128 .bf16 := V c (Pipeline.arrRef spec0 5)
abbrev b0 (c : Dev nD) : FVec Ideal S1x128 .f32 := V c (Pipeline.arrRef spec0 6)
abbrev w1 (c : Dev nD) : FVec Ideal S128x128 .bf16 := V c (Pipeline.arrRef spec0 7)
abbrev b1 (c : Dev nD) : FVec Ideal S1x128 .f32 := V c (Pipeline.arrRef spec0 8)
abbrev w2 (c : Dev nD) : FVec Ideal S128x128 .bf16 := V c (Pipeline.arrRef spec0 9)
abbrev b2 (c : Dev nD) : FVec Ideal S1x128 .f32 := V c (Pipeline.arrRef spec0 10)
abbrev gain (c : Dev nD) : FVec Ideal S1x128 .f32 := V c (Pipeline.arrRef spec0 11)
abbrev shift (c : Dev nD) : FVec Ideal S1x128 .f32 := V c (Pipeline.arrRef spec0 12)

/-- Entry `(r, q)` of the region's result: the edge perceptron's row function at row `r`. -/
def entry (c : Dev nD) (r : Fin 600000) (q : Fin 128) : EReal :=
  hidden (edgePre (rowAt (xd V c) r) (rowAt (xs V c) r) (rowAt (ee V c) r) (block (w0d V c) 0 (by decide))
      (block (w0s V c) 0 (by decide)) (block (w0e V c) 0 (by decide)) (rowAt (b0 V c) 0))
    (block (w1 V c) 0 (by decide)) (rowAt (b1 V c) 0) (block (w2 V c) 0 (by decide)) (rowAt (b2 V c) 0)
    (rowAt (gain V c) 0) (rowAt (shift V c) 0) q

/-- The region's result as one whole-array function of the arrays it finds. -/
def result (c : Dev nD) : S600000x128.Idx → EReal := fun i => entry V c (i 0) (i 1)

theorem hz : (![0, 0] : Fin 2 → Nat) = fun _ => 0 := funext fun a => by fin_cases a <;> rfl

/-- The printed index maps, decided over the grid: the data windows and the output move down one block of rows per
    point, the other windows stay at block `(0, 0)`. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

theorem point_lt (t : Fin cfg0.N) : t.val < 100 := lt_of_lt_of_eq t.isLt N_0

/-- The array row that row `p` of point `t`'s block is. -/
abbrev rowOf (t : Fin cfg0.N) (p : Fin 6000) : Fin 600000 :=
  ⟨t.val * 6000 + p.val, by have := point_lt t; have := p.isLt; omega⟩

/-- The data blocks at a point, each at its literal type. -/
abbrev d0 (c : Dev nD) (t : Fin cfg0.N) : FVec Ideal S6000x128 .bf16 := iblk0 V c 0 t
abbrev d1 (c : Dev nD) (t : Fin cfg0.N) : FVec Ideal S6000x128 .bf16 := iblk0 V c 1 t
abbrev d2 (c : Dev nD) (t : Fin cfg0.N) : FVec Ideal S6000x128 .f32 := iblk0 V c 2 t

/-- Row `p` of data window 0's block at point `t` is row `6000 t + p` of its array. -/
theorem read0 (c : Dev nD) (t : Fin cfg0.N) (p : Fin 6000) : rowAt (d0 V c t) p = rowAt (xd V c) (rowOf t p) := by
  obtain ⟨e0, e1⟩ := idx0 t
  funext k
  show V c (Pipeline.arrRef spec0 0) (((cfg0.win 0).blk t).view.emb (ix2 p k)) = V c (Pipeline.arrRef spec0 0) (ix2 (rowOf t p) k)
  congr 1
  funext a; apply Fin.ext
  match a with
  | ⟨0, _⟩ => show win0_0.index t (0 : Fin 2) * 6000 + 1 * p.val = t.val * 6000 + p.val; omega
  | ⟨1, _⟩ => show win0_0.index t (1 : Fin 2) * 128 + 1 * k.val = k.val; omega
/-- Row `p` of data window 1's block at point `t` is row `6000 t + p` of its array. -/
theorem read1 (c : Dev nD) (t : Fin cfg0.N) (p : Fin 6000) : rowAt (d1 V c t) p = rowAt (xs V c) (rowOf t p) := by
  obtain ⟨e0, e1⟩ := idx1 t
  funext k
  show V c (Pipeline.arrRef spec0 1) (((cfg0.win 1).blk t).view.emb (ix2 p k)) = V c (Pipeline.arrRef spec0 1) (ix2 (rowOf t p) k)
  congr 1
  funext a; apply Fin.ext
  match a with
  | ⟨0, _⟩ => show win0_1.index t (0 : Fin 2) * 6000 + 1 * p.val = t.val * 6000 + p.val; omega
  | ⟨1, _⟩ => show win0_1.index t (1 : Fin 2) * 128 + 1 * k.val = k.val; omega
/-- Row `p` of data window 2's block at point `t` is row `6000 t + p` of its array. -/
theorem read2 (c : Dev nD) (t : Fin cfg0.N) (p : Fin 6000) : rowAt (d2 V c t) p = rowAt (ee V c) (rowOf t p) := by
  obtain ⟨e0, e1⟩ := idx2 t
  funext k
  show V c (Pipeline.arrRef spec0 2) (((cfg0.win 2).blk t).view.emb (ix2 p k)) = V c (Pipeline.arrRef spec0 2) (ix2 (rowOf t p) k)
  congr 1
  funext a; apply Fin.ext
  match a with
  | ⟨0, _⟩ => show win0_2.index t (0 : Fin 2) * 6000 + 1 * p.val = t.val * 6000 + p.val; omega
  | ⟨1, _⟩ => show win0_2.index t (1 : Fin 2) * 128 + 1 * k.val = k.val; omega

/-- Window 3's block at any point is its whole array. -/
theorem read3 (c : Dev nD) (t : Fin cfg0.N) : (iblk0 V c 3 t : FVec Ideal S128x128 _) = w0d V c := by
  obtain ⟨e0, e1⟩ := idx3 t
  funext y
  show V c (Pipeline.arrRef spec0 3) (((cfg0.win 3).blk t).view.emb y) = V c (Pipeline.arrRef spec0 3) y
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4's block at any point is its whole array. -/
theorem read4 (c : Dev nD) (t : Fin cfg0.N) : (iblk0 V c 4 t : FVec Ideal S128x128 _) = w0s V c := by
  obtain ⟨e0, e1⟩ := idx4 t
  funext y
  show V c (Pipeline.arrRef spec0 4) (((cfg0.win 4).blk t).view.emb y) = V c (Pipeline.arrRef spec0 4) y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
/-- Window 5's block at any point is its whole array. -/
theorem read5 (c : Dev nD) (t : Fin cfg0.N) : (iblk0 V c 5 t : FVec Ideal S128x128 _) = w0e V c := by
  obtain ⟨e0, e1⟩ := idx5 t
  funext y
  show V c (Pipeline.arrRef spec0 5) (((cfg0.win 5).blk t).view.emb y) = V c (Pipeline.arrRef spec0 5) y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega
/-- Window 6's block at any point is its whole array. -/
theorem read6 (c : Dev nD) (t : Fin cfg0.N) : (iblk0 V c 6 t : FVec Ideal S1x128 _) = b0 V c := by
  obtain ⟨e0, e1⟩ := idx6 t
  funext y
  show V c (Pipeline.arrRef spec0 6) (((cfg0.win 6).blk t).view.emb y) = V c (Pipeline.arrRef spec0 6) y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega
/-- Window 7's block at any point is its whole array. -/
theorem read7 (c : Dev nD) (t : Fin cfg0.N) : (iblk0 V c 7 t : FVec Ideal S128x128 _) = w1 V c := by
  obtain ⟨e0, e1⟩ := idx7 t
  funext y
  show V c (Pipeline.arrRef spec0 7) (((cfg0.win 7).blk t).view.emb y) = V c (Pipeline.arrRef spec0 7) y
  congr 1
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega
/-- Window 8's block at any point is its whole array. -/
theorem read8 (c : Dev nD) (t : Fin cfg0.N) : (iblk0 V c 8 t : FVec Ideal S1x128 _) = b1 V c := by
  obtain ⟨e0, e1⟩ := idx8 t
  funext y
  show V c (Pipeline.arrRef spec0 8) (((cfg0.win 8).blk t).view.emb y) = V c (Pipeline.arrRef spec0 8) y
  congr 1
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega
/-- Window 9's block at any point is its whole array. -/
theorem read9 (c : Dev nD) (t : Fin cfg0.N) : (iblk0 V c 9 t : FVec Ideal S128x128 _) = w2 V c := by
  obtain ⟨e0, e1⟩ := idx9 t
  funext y
  show V c (Pipeline.arrRef spec0 9) (((cfg0.win 9).blk t).view.emb y) = V c (Pipeline.arrRef spec0 9) y
  congr 1
  funext a; apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega
/-- Window 10's block at any point is its whole array. -/
theorem read10 (c : Dev nD) (t : Fin cfg0.N) : (iblk0 V c 10 t : FVec Ideal S1x128 _) = b2 V c := by
  obtain ⟨e0, e1⟩ := idx10 t
  funext y
  show V c (Pipeline.arrRef spec0 10) (((cfg0.win 10).blk t).view.emb y) = V c (Pipeline.arrRef spec0 10) y
  congr 1
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega
/-- Window 11's block at any point is its whole array. -/
theorem read11 (c : Dev nD) (t : Fin cfg0.N) : (iblk0 V c 11 t : FVec Ideal S1x128 _) = gain V c := by
  obtain ⟨e0, e1⟩ := idx11 t
  funext y
  show V c (Pipeline.arrRef spec0 11) (((cfg0.win 11).blk t).view.emb y) = V c (Pipeline.arrRef spec0 11) y
  congr 1
  funext a; apply Fin.ext
  match a with
  | ⟨0, _⟩ => show win0_11.index t (0 : Fin 2) * 1 + 1 * (y 0).val = (y 0).val; omega
  | ⟨1, _⟩ => show win0_11.index t (1 : Fin 2) * 128 + 1 * (y 1).val = (y 1).val; omega
/-- Window 12's block at any point is its whole array. -/
theorem read12 (c : Dev nD) (t : Fin cfg0.N) : (iblk0 V c 12 t : FVec Ideal S1x128 _) = shift V c := by
  obtain ⟨e0, e1⟩ := idx12 t
  funext y
  show V c (Pipeline.arrRef spec0 12) (((cfg0.win 12).blk t).view.emb y) = V c (Pipeline.arrRef spec0 12) y
  congr 1
  funext a; apply Fin.ext
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Entry `(p, q)` of the output block at point `t` is entry `(6000 t + p, q)` of the output array. -/
theorem emb_out (t : Fin cfg0.N) (p : Fin 6000) (q : Fin 128) :
    ((cfg0.win 13).blk t).view.emb (ix2 p q) = ix2 (rowOf t p) q := by
  obtain ⟨e0, e1⟩ := idx13 t
  funext a; apply Fin.ext
  match a with
  | ⟨0, _⟩ => show win0_13.index t (0 : Fin 2) * 6000 + 1 * p.val = t.val * 6000 + p.val; omega
  | ⟨1, _⟩ => show win0_13.index t (1 : Fin 2) * 128 + 1 * q.val = q.val; omega

/-- WHAT POINT `t` WRITES BACK is block `t` of the region's result function. -/
theorem flushed_eq (c : Dev nD) (t : Fin cfg0.N) :
    (dat0 V c).flushed 13 t = ((cfg0.win 13).blk t).view.read (Elt Ideal) (result V c) := by
  show (cfg0.win 13).cut (grid0.coords t) ((dat0 V c).after 13 t) = _
  rw [after0_13]
  unfold out0_13
  rw [View.canon_unit_zero hz]
  simp only [View.ld_unit_zero (S := S6000x128) hz, View.ld_unit_zero (S := S128x128) hz, View.ld_unit_zero (S := S1x128) hz]
  funext j
  obtain ⟨p, q, rfl⟩ : ∃ (p : Fin 6000) (q : Fin 128), j = ix2 p q := ⟨j 0, j 1, eq_ix2 j⟩
  refine (EdgeRow.pay_apply (d0 V c t) (d1 V c t) (d2 V c t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p q).trans ?_
  show _ = result V c (((cfg0.win 13).blk t).view.emb (ix2 p q))
  rw [emb_out, read0, read1, read2, read3, read4, read5, read6, read7, read8, read9, read10, read11, read12]
  rfl

/-- An index of the output array is in point `t`'s block iff its row is among the block's rows. -/
theorem mem_blk (t : Fin cfg0.N) (i : S600000x128.Idx) :
    i ∈ ((cfg0.win 13).blk t).view.set ↔ ∀ a : Fin 2, win0_13.index t a * S6000x128.size a ≤ (i a).val ∧ (i a).val < win0_13.index t a * S6000x128.size a + S6000x128.size a := by
  show i ∈ ((View.whole main_v20).slice (win0_13.rect t)).set ↔ _
  rw [View.set_slice_whole, Rect.mem_set_unit]
  exact Iff.rfl

/-- Every row lies in the block of the point `row / 6000`. -/
theorem cover (i : S600000x128.Idx) : ∃ t : Fin cfg0.N, (cfg0.win 13).flush t = true ∧ i ∈ ((cfg0.win 13).blk t).view.set := by
  have hi0 : (i 0).val < 600000 := (i 0).isLt
  have hi1 : (i 1).val < 128 := (i 1).isLt
  let t : Fin cfg0.N := ⟨(i 0).val / 6000, by rw [show cfg0.N = 100 from N_0]; omega⟩
  obtain ⟨e0, e1⟩ := idx13 t
  have ht : t.val = (i 0).val / 6000 := rfl
  refine ⟨t, flush0_13 t, ?_⟩
  rw [mem_blk]
  intro a
  match a with
  | ⟨0, _⟩ => show win0_13.index t (0 : Fin 2) * 6000 ≤ (i 0).val ∧ (i 0).val < win0_13.index t (0 : Fin 2) * 6000 + 6000; omega
  | ⟨1, _⟩ => show win0_13.index t (1 : Fin 2) * 128 ≤ (i 1).val ∧ (i 1).val < win0_13.index t (1 : Fin 2) * 128 + 128; omega

/-- THE OUTPUT ARRAY after the region: the result function of the arrays the region found. -/
theorem final (c : Dev nD) : (dat0 V c).arrAt 13 cfg0.N = result V c :=
  (dat0 V c).arrAt_eq_of_cover 13 (result V c) (fun t _ => flushed_eq V c t) (cover)

end Cert.KernelIdeal.EdgeValue

end
-- ==== Proof.KernelNodeRow.lean ====
/-
  The node kernel's body at one entry of its output block.

  The body's arithmetic is the skeleton's three payloads: the node perceptron up to its third matrix product (two
  matrix products of the node rows and of the summed incoming rows with the two stacked weight blocks, summed, plus the
  bias; a rectifier; a second linear layer; a rectifier; the third product), the third bias broadcast down the block,
  and then their sum, the layer normalisation, and the node rows added back. Each is a composition of the block layers
  of `Cert.BlockLayers`, which act row by row; so entry `(p, q)` of the stored block is the node's old entry plus entry
  `q` of the specification's row function `hidden (nodePre …) …` at row `p` of the two data blocks.
-/
import proofs.«418581_j55173149884911_3_alg».proof.Proof.Gen.KernelIdeal.Skeleton
import proofs.«418581_j55173149884911_3_alg».proof.Proof.BlockLayers

noncomputable section

namespace Cert.KernelIdeal.NodeRow

open Cert.KernelIdeal Cert.KernelIdeal.Gen Idealize.ShloMosaic Idealize.ShloMosaic.ValueIdx Cert.GraphBlock Cert.BlockLayers
open scoped BigOperators

/-- The body's matrix products are plain row-by-column products. -/
theorem plain : Cert.Dots.IsPlain dot_S5000x128_S128x128_S5000x128_1_0_0_1_n_n := ⟨rfl, rfl, rfl, rfl, rfl, rfl⟩

/-- The block's matrix product, bias broadcast, linear layer and normalisation at this body's records. -/
abbrev prod {φ : FTy} (a : FVec Ideal S5000x128 φ) (w : FVec Ideal S128x128 .bf16) : FVec Ideal S5000x128 .f32 :=
  product dot_S5000x128_S128x128_S5000x128_1_0_0_1_n_n shapeCasts_S128x128_S128x128 a w
abbrev bias (b : FVec Ideal S1x128 .f32) : FVec Ideal S5000x128 .f32 :=
  downRows broadcasts_S1x128_S5000x128 shapeCasts_S1x128_S1x128 b
abbrev lin {φ : FTy} (a : FVec Ideal S5000x128 φ) (w : FVec Ideal S128x128 .bf16) (b : FVec Ideal S1x128 .f32) : FVec Ideal S5000x128 .f32 :=
  linear dot_S5000x128_S128x128_S5000x128_1_0_0_1_n_n broadcasts_S1x128_S5000x128 shapeCasts_S1x128_S1x128 shapeCasts_S128x128_S128x128 a w b
abbrev norm (h : FVec Ideal S5000x128 .f32) (g bg : FVec Ideal S1x128 .f32) : FVec Ideal S5000x128 .f32 :=
  normalise reduces_S5000x128_S5000 shapeCasts_S5000_S5000x1 broadcasts_S5000x1_S5000x128 broadcasts_S1x128_S5000x128
    shapeCasts_S1x128_S1x128 h g bg

theorem prod_apply {φ : FTy} (a : FVec Ideal S5000x128 φ) (w : FVec Ideal S128x128 .bf16) (p : Fin 5000) (q : Fin 128) :
    prod a w (ix2 p q) = ∑ k, rowAt a p k * block w 0 (by decide) k q := product_apply _ plain _ a w p q
theorem bias_apply (b : FVec Ideal S1x128 .f32) (p : Fin 5000) (q : Fin 128) : bias b (ix2 p q) = rowAt b 0 q :=
  downRows_apply _ _ b p q
theorem lin_apply {φ : FTy} (a : FVec Ideal S5000x128 φ) (w : FVec Ideal S128x128 .bf16) (b : FVec Ideal S1x128 .f32)
    (p : Fin 5000) (q : Fin 128) : lin a w b (ix2 p q) = affine (rowAt a p) (block w 0 (by decide)) (rowAt b 0) q :=
  linear_apply _ plain _ _ _ a w b p q
theorem norm_apply (h : FVec Ideal S5000x128 .f32) (g bg : FVec Ideal S1x128 .f32) (p : Fin 5000) (q : Fin 128) :
    norm h g bg (ix2 p q) = layerNorm (rowAt h p) (rowAt g 0) (rowAt bg 0) q :=
  normalise_apply _ _ _ _ _ h g bg p q

/-- The first layer's sum on the block, before the rectifier. -/
abbrev firstSum (x0 x1 : FVec Ideal S5000x128 .f32) (x2 x3 : FVec Ideal S128x128 .bf16) (x4 : FVec Ideal S1x128 .f32) :
    FVec Ideal S5000x128 .f32 :=
  addf (addf (prod (truncf .bf16 x0 bitsLt_bf16_f32) x2)
      (prod (truncf .bf16 (shapeCast S5000x128 x1 shapeCasts_S5000x128_S5000x128) bitsLt_bf16_f32) x3)) (bias x4)

/-- The payload up to the third product. -/
theorem pay2_eq (x0 x1 : FVec Ideal S5000x128 .f32) (x2 x3 : FVec Ideal S128x128 .bf16) (x4 : FVec Ideal S1x128 .f32)
    (x5 : FVec Ideal S128x128 .bf16) (x6 : FVec Ideal S1x128 .f32) (x7 : FVec Ideal S128x128 .bf16) :
    k1_pay2 (F := Ideal) x0 x1 x2 x3 x4 x5 x6 x7
      = prod (truncf .bf16 (rectify (lin (truncf .bf16 (rectify (firstSum x0 x1 x2 x3 x4)) bitsLt_bf16_f32) x5 x6)) bitsLt_bf16_f32) x7 := rfl

/-- The third bias, broadcast down the block. -/
theorem pay3_eq (x8 : FVec Ideal S1x128 .f32) : k1_pay3 (F := Ideal) x8 = bias x8 := rfl

/-- The payload of the store: the old rows plus the normalisation of the third layer. -/
theorem pay1_eq (v31 v34 : FVec Ideal S5000x128 .f32) (v36 v38 : FVec Ideal S1x128 .f32) (v60 : FVec Ideal S5000x128 .f32) :
    k1_pay1 (F := Ideal) v31 v34 v36 v38 v60 = addf v60 (norm (addf v31 v34) v36 v38) := rfl

/-- The first sum at an entry: the two products and the bias of the specification's first layer. -/
theorem firstSum_apply (x0 x1 : FVec Ideal S5000x128 .f32) (x2 x3 : FVec Ideal S128x128 .bf16) (x4 : FVec Ideal S1x128 .f32)
    (p : Fin 5000) (q : Fin 128) :
    firstSum x0 x1 x2 x3 x4 (ix2 p q)
      = nodePre (rowAt x0 p) (rowAt x1 p) (block x2 0 (by decide)) (block x3 0 (by decide)) (rowAt x4 0) q := by
  show prod (truncf .bf16 x0 bitsLt_bf16_f32) x2 (ix2 p q)
      + prod (truncf .bf16 (shapeCast S5000x128 x1 shapeCasts_S5000x128_S5000x128) bitsLt_bf16_f32) x3 (ix2 p q) + bias x4 (ix2 p q) = _
  rw [shapeCast_self, prod_apply, prod_apply, bias_apply]
  rfl

/-- The rows the third bias is added to, at an entry: the third product of the twice rectified rows. -/
theorem pay2_apply (x0 x1 : FVec Ideal S5000x128 .f32) (x2 x3 : FVec Ideal S128x128 .bf16) (x4 : FVec Ideal S1x128 .f32)
    (x5 : FVec Ideal S128x128 .bf16) (x6 : FVec Ideal S1x128 .f32) (x7 : FVec Ideal S128x128 .bf16) (p : Fin 5000) (q : Fin 128) :
    k1_pay2 (F := Ideal) x0 x1 x2 x3 x4 x5 x6 x7 (ix2 p q)
      = ∑ k, relu (affine (relu (nodePre (rowAt x0 p) (rowAt x1 p) (block x2 0 (by decide)) (block x3 0 (by decide)) (rowAt x4 0)))
          (block x5 0 (by decide)) (rowAt x6 0)) k * block x7 0 (by decide) k q := by
  rw [pay2_eq, prod_apply]
  have e1 : rowAt (truncf .bf16 (rectify (lin (truncf .bf16 (rectify (firstSum x0 x1 x2 x3 x4)) bitsLt_bf16_f32) x5 x6)) bitsLt_bf16_f32) p
      = relu (affine (rowAt (truncf .bf16 (rectify (firstSum x0 x1 x2 x3 x4)) bitsLt_bf16_f32) p) (block x5 0 (by decide)) (rowAt x6 0)) :=
    funext fun k => by
      show rectify (lin (truncf .bf16 (rectify (firstSum x0 x1 x2 x3 x4)) bitsLt_bf16_f32) x5 x6) (ix2 p k) = _
      rw [rectify_apply]
      exact congrArg (fun r : Row => relu r k) (funext fun j => lin_apply _ _ _ p j)
  have e2 : rowAt (truncf .bf16 (rectify (firstSum x0 x1 x2 x3 x4)) bitsLt_bf16_f32) p
      = relu (nodePre (rowAt x0 p) (rowAt x1 p) (block x2 0 (by decide)) (block x3 0 (by decide)) (rowAt x4 0)) :=
    funext fun k => by
      show rectify (firstSum x0 x1 x2 x3 x4) (ix2 p k) = _
      rw [rectify_apply]
      exact congrArg (fun r : Row => relu r k) (funext fun j => firstSum_apply x0 x1 x2 x3 x4 p j)
  rw [e1, e2]

/-- THE BODY AT AN ENTRY: entry `(p, q)` of what the body stores is the node's old entry plus the node perceptron's row
    function at row `p` of the two data blocks and the weight, bias, gain and shift blocks. -/
theorem pay_apply (x0 x1 : FVec Ideal S5000x128 .f32) (x2 x3 : FVec Ideal S128x128 .bf16) (x4 : FVec Ideal S1x128 .f32)
    (x5 : FVec Ideal S128x128 .bf16) (x6 : FVec Ideal S1x128 .f32) (x7 : FVec Ideal S128x128 .bf16)
    (x8 x9 x10 : FVec Ideal S1x128 .f32) (p : Fin 5000) (q : Fin 128) :
    k1_pay1 (F := Ideal) (k1_pay2 (F := Ideal) x0 x1 x2 x3 x4 x5 x6 x7) (k1_pay3 (F := Ideal) x8) x9 x10 x0 (ix2 p q)
      = x0 (ix2 p q) + hidden (nodePre (rowAt x0 p) (rowAt x1 p) (block x2 0 (by decide)) (block x3 0 (by decide)) (rowAt x4 0))
        (block x5 0 (by decide)) (rowAt x6 0) (block x7 0 (by decide)) (rowAt x8 0) (rowAt x9 0) (rowAt x10 0) q := by
  rw [pay1_eq, pay3_eq]
  show x0 (ix2 p q) + norm (addf (k1_pay2 (F := Ideal) x0 x1 x2 x3 x4 x5 x6 x7) (bias x8)) x9 x10 (ix2 p q) = _
  rw [norm_apply]
  have e3 : rowAt (addf (k1_pay2 (F := Ideal) x0 x1 x2 x3 x4 x5 x6 x7) (bias x8)) p
      = affine (relu (affine (relu (nodePre (rowAt x0 p) (rowAt x1 p) (block x2 0 (by decide)) (block x3 0 (by decide)) (rowAt x4 0)))
          (block x5 0 (by decide)) (rowAt x6 0))) (block x7 0 (by decide)) (rowAt x8 0) :=
    funext fun k => by
      show k1_pay2 (F := Ideal) x0 x1 x2 x3 x4 x5 x6 x7 (ix2 p k) + bias x8 (ix2 p k) = _
      rw [pay2_apply, bias_apply]
      rfl
  rw [e3]
  rfl

end Cert.KernelIdeal.NodeRow

end
-- ==== Proof.KernelNodeValue.lean ====
/-
  What the node region leaves in its output array: every node's new row.

  The region walks 10 grid points; point `t` fetches rows `5000 t … 5000 t + 4999` of the node array and of the array
  of sums over incoming edges, the whole of every weight, bias, gain and shift array, and writes back rows
  `5000 t … 5000 t + 4999` of the output. The body acts row by row (`NodeRow.pay_apply`), so what point `t` writes
  back is block `t` of ONE whole-array function of the arrays as the region finds them — row `i` of the result is row
  `i` of the node array plus the node perceptron's row function of row `i` of the two data arrays —, and the 10 blocks
  tile the 50000 rows (row `i` lies in block `i / 5000`), so the array ends holding that function.
-/
import proofs.«418581_j55173149884911_3_alg».proof.Proof.Gen.KernelIdeal.Frame
import proofs.«418581_j55173149884911_3_alg».proof.Proof.KernelNodeRow
import Idealize.ShloMosaic.Lib.Pipeline.Value

set_option maxRecDepth 16384

noncomputable section

namespace Cert.KernelIdeal.NodeValue

open Cert.KernelIdeal Cert.KernelIdeal.Gen Idealize.ShloMosaic Idealize.ShloMosaic.TcCoe Idealize.ShloMosaic.ValueIdx
open Idealize.SL.Sem Cert.GraphBlock
open Idealize.ShloMosaic.Pipeline (Dat Cfg Window)

variable (V : (c : Dev nD) → (b : Ref sig .tc) → Buf (Elt Ideal) ((c : Thread nD τ).loc b))

/-- The region's arrays as it finds them, each at its literal type: the node rows, the sums over incoming edges, the
    two stacked first-layer blocks and the first bias, the second and third layers, gain and shift. -/
abbrev xn (c : Dev nD) : FVec Ideal S50000x128 .f32 := V c (Pipeline.arrRef spec1 0)
abbrev agg (c : Dev nD) : FVec Ideal S50000x128 .f32 := V c (Pipeline.arrRef spec1 1)
abbrev w0x (c : Dev nD) : FVec Ideal S128x128 .bf16 := V c (Pipeline.arrRef spec1 2)
abbrev w0a (c : Dev nD) : FVec Ideal S128x128 .bf16 := V c (Pipeline.arrRef spec1 3)
abbrev b0 (c : Dev nD) : FVec Ideal S1x128 .f32 := V c (Pipeline.arrRef spec1 4)
abbrev w1 (c : Dev nD) : FVec Ideal S128x128 .bf16 := V c (Pipeline.arrRef spec1 5)
abbrev b1 (c : Dev nD) : FVec Ideal S1x128 .f32 := V c (Pipeline.arrRef spec1 6)
abbrev w2 (c : Dev nD) : FVec Ideal S128x128 .bf16 := V c (Pipeline.arrRef spec1 7)
abbrev b2 (c : Dev nD) : FVec Ideal S1x128 .f32 := V c (Pipeline.arrRef spec1 8)
abbrev gain (c : Dev nD) : FVec Ideal S1x128 .f32 := V c (Pipeline.arrRef spec1 9)
abbrev shift (c : Dev nD) : FVec Ideal S1x128 .f32 := V c (Pipeline.arrRef spec1 10)

/-- Entry `(r, q)` of the region's result: the node's old entry plus the node perceptron's row function at row `r`. -/
def entry (c : Dev nD) (r : Fin 50000) (q : Fin 128) : EReal :=
  xn V c (ix2 r q) + hidden (nodePre (rowAt (xn V c) r) (rowAt (agg V c) r) (block (w0x V c) 0 (by decide))
      (block (w0a V c) 0 (by decide)) (rowAt (b0 V c) 0))
    (block (w1 V c) 0 (by decide)) (rowAt (b1 V c) 0) (block (w2 V c) 0 (by decide)) (rowAt (b2 V c) 0)
    (rowAt (gain V c) 0) (rowAt (shift V c) 0) q

/-- The region's result as one whole-array function of the arrays it finds. -/
def result (c : Dev nD) : S50000x128.Idx → EReal := fun i => entry V c (i 0) (i 1)

theorem hz : (![0, 0] : Fin 2 → Nat) = fun _ => 0 := funext fun a => by fin_cases a <;> rfl

/-- The printed index maps, decided over the grid: the data windows and the output move down one block of rows per
    point, the other windows stay at block `(0, 0)`. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx11 : ∀ t : Fin cfg1.N, win1_11.index t (0 : Fin 2) = t.val ∧ win1_11.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = 0 ∧ win1_9.index t (1 : Fin 2) = 0 :=
  (by decide +kernel : ∀ t : Fin grid1.N, _)
theorem idx10 : ∀ t : Fin cfg1.N, win1_10.index t (0 : Fin 2) = 0 ∧ win1_10.index t (1 : Fin 2) = 0 :=
  (by decide +kernel : ∀ t : Fin grid1.N, _)

theorem point_lt (t : Fin cfg1.N) : t.val < 10 := lt_of_lt_of_eq t.isLt N_1

/-- The array row that row `p` of point `t`'s block is. -/
abbrev rowOf (t : Fin cfg1.N) (p : Fin 5000) : Fin 50000 :=
  ⟨t.val * 5000 + p.val, by have := point_lt t; have := p.isLt; omega⟩

/-- The data blocks at a point, each at its literal type. -/
abbrev d0 (c : Dev nD) (t : Fin cfg1.N) : FVec Ideal S5000x128 .f32 := iblk1 V c 0 t
abbrev d1 (c : Dev nD) (t : Fin cfg1.N) : FVec Ideal S5000x128 .f32 := iblk1 V c 1 t

/-- Row `p` of data window 0's block at point `t` is row `5000 t + p` of its array. -/
theorem read0 (c : Dev nD) (t : Fin cfg1.N) (p : Fin 5000) : rowAt (d0 V c t) p = rowAt (xn V c) (rowOf t p) := by
  obtain ⟨e0, e1⟩ := idx0 t
  funext k
  show V c (Pipeline.arrRef spec1 0) (((cfg1.win 0).blk t).view.emb (ix2 p k)) = V c (Pipeline.arrRef spec1 0) (ix2 (rowOf t p) k)
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega
/-- Row `p` of data window 1's block at point `t` is row `5000 t + p` of its array. -/
theorem read1 (c : Dev nD) (t : Fin cfg1.N) (p : Fin 5000) : rowAt (d1 V c t) p = rowAt (agg V c) (rowOf t p) := by
  obtain ⟨e0, e1⟩ := idx1 t
  funext k
  show V c (Pipeline.arrRef spec1 1) (((cfg1.win 1).blk t).view.emb (ix2 p k)) = V c (Pipeline.arrRef spec1 1) (ix2 (rowOf t p) k)
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2's block at any point is its whole array. -/
theorem read2 (c : Dev nD) (t : Fin cfg1.N) : (iblk1 V c 2 t : FVec Ideal S128x128 _) = w0x V c := by
  obtain ⟨e0, e1⟩ := idx2 t
  funext y
  show V c (Pipeline.arrRef spec1 2) (((cfg1.win 2).blk t).view.emb y) = V c (Pipeline.arrRef spec1 2) y
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega
/-- Window 3's block at any point is its whole array. -/
theorem read3 (c : Dev nD) (t : Fin cfg1.N) : (iblk1 V c 3 t : FVec Ideal S128x128 _) = w0a V c := by
  obtain ⟨e0, e1⟩ := idx3 t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega
/-- Window 4's block at any point is its whole array. -/
theorem read4 (c : Dev nD) (t : Fin cfg1.N) : (iblk1 V c 4 t : FVec Ideal S1x128 _) = b0 V c := by
  obtain ⟨e0, e1⟩ := idx4 t
  funext y
  show V c (Pipeline.arrRef spec1 4) (((cfg1.win 4).blk t).view.emb y) = V c (Pipeline.arrRef spec1 4) y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega
/-- Window 5's block at any point is its whole array. -/
theorem read5 (c : Dev nD) (t : Fin cfg1.N) : (iblk1 V c 5 t : FVec Ideal S128x128 _) = w1 V c := by
  obtain ⟨e0, e1⟩ := idx5 t
  funext y
  show V c (Pipeline.arrRef spec1 5) (((cfg1.win 5).blk t).view.emb y) = V c (Pipeline.arrRef spec1 5) y
  congr 1
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega
/-- Window 6's block at any point is its whole array. -/
theorem read6 (c : Dev nD) (t : Fin cfg1.N) : (iblk1 V c 6 t : FVec Ideal S1x128 _) = b1 V c := by
  obtain ⟨e0, e1⟩ := idx6 t
  funext y
  show V c (Pipeline.arrRef spec1 6) (((cfg1.win 6).blk t).view.emb y) = V c (Pipeline.arrRef spec1 6) y
  congr 1
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega
/-- Window 7's block at any point is its whole array. -/
theorem read7 (c : Dev nD) (t : Fin cfg1.N) : (iblk1 V c 7 t : FVec Ideal S128x128 _) = w2 V c := by
  obtain ⟨e0, e1⟩ := idx7 t
  funext y
  show V c (Pipeline.arrRef spec1 7) (((cfg1.win 7).blk t).view.emb y) = V c (Pipeline.arrRef spec1 7) y
  congr 1
  funext a; apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega
/-- Window 8's block at any point is its whole array. -/
theorem read8 (c : Dev nD) (t : Fin cfg1.N) : (iblk1 V c 8 t : FVec Ideal S1x128 _) = b2 V c := by
  obtain ⟨e0, e1⟩ := idx8 t
  funext y
  show V c (Pipeline.arrRef spec1 8) (((cfg1.win 8).blk t).view.emb y) = V c (Pipeline.arrRef spec1 8) y
  congr 1
  funext a; apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega
/-- Window 9's block at any point is its whole array. -/
theorem read9 (c : Dev nD) (t : Fin cfg1.N) : (iblk1 V c 9 t : FVec Ideal S1x128 _) = gain V c := by
  obtain ⟨e0, e1⟩ := idx9 t
  funext y
  show V c (Pipeline.arrRef spec1 9) (((cfg1.win 9).blk t).view.emb y) = V c (Pipeline.arrRef spec1 9) y
  congr 1
  funext a; apply Fin.ext
  match a with
  | ⟨0, _⟩ => show win1_9.index t (0 : Fin 2) * 1 + 1 * (y 0).val = (y 0).val; omega
  | ⟨1, _⟩ => show win1_9.index t (1 : Fin 2) * 128 + 1 * (y 1).val = (y 1).val; omega
/-- Window 10's block at any point is its whole array. -/
theorem read10 (c : Dev nD) (t : Fin cfg1.N) : (iblk1 V c 10 t : FVec Ideal S1x128 _) = shift V c := by
  obtain ⟨e0, e1⟩ := idx10 t
  funext y
  show V c (Pipeline.arrRef spec1 10) (((cfg1.win 10).blk t).view.emb y) = V c (Pipeline.arrRef spec1 10) y
  congr 1
  funext a; apply Fin.ext
  match a with
  | ⟨0, _⟩ => show win1_10.index t (0 : Fin 2) * 1 + 1 * (y 0).val = (y 0).val; omega
  | ⟨1, _⟩ => show win1_10.index t (1 : Fin 2) * 128 + 1 * (y 1).val = (y 1).val; omega

/-- Entry `(p, q)` of the output block at point `t` is entry `(5000 t + p, q)` of the output array. -/
theorem emb_out (t : Fin cfg1.N) (p : Fin 5000) (q : Fin 128) :
    ((cfg1.win 11).blk t).view.emb (ix2 p q) = ix2 (rowOf t p) q := by
  obtain ⟨e0, e1⟩ := idx11 t
  funext a; apply Fin.ext
  match a with
  | ⟨0, _⟩ => show win1_11.index t (0 : Fin 2) * 5000 + 1 * p.val = t.val * 5000 + p.val; omega
  | ⟨1, _⟩ => show win1_11.index t (1 : Fin 2) * 128 + 1 * q.val = q.val; omega

/-- WHAT POINT `t` WRITES BACK is block `t` of the region's result function. -/
theorem flushed_eq (c : Dev nD) (t : Fin cfg1.N) :
    (dat1 V c).flushed 11 t = ((cfg1.win 11).blk t).view.read (Elt Ideal) (result V c) := by
  show (cfg1.win 11).cut (grid1.coords t) ((dat1 V c).after 11 t) = _
  rw [after1_11]
  unfold out1_11
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (NodeRow.pay_apply (d0 V c t) (d1 V c t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  show _ = result V c (((cfg1.win 11).blk t).view.emb (ix2 p q))
  rw [emb_out, read0, read1, read2, read3, read4, read5, read6, read7, read8, read9, read10]
  rw [show d0 V c t (ix2 p q) = xn V c (ix2 (rowOf t p) q) from congrFun (read0 V c t p) q]
  rfl

/-- An index of the output array is in point `t`'s block iff its row is among the block's rows. -/
theorem mem_blk (t : Fin cfg1.N) (i : S50000x128.Idx) :
    i ∈ ((cfg1.win 11).blk t).view.set ↔ ∀ a : Fin 2, win1_11.index t a * S5000x128.size a ≤ (i a).val ∧ (i a).val < win1_11.index t a * S5000x128.size a + S5000x128.size a := by
  show i ∈ ((View.whole main_v35).slice (win1_11.rect t)).set ↔ _
  rw [View.set_slice_whole, Rect.mem_set_unit]
  exact Iff.rfl

/-- Every row lies in the block of the point `row / 5000`. -/
theorem cover (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨e0, e1⟩ := idx11 t
  have ht : t.val = (i 0).val / 5000 := rfl
  refine ⟨t, flush1_11 t, ?_⟩
  rw [mem_blk]
  intro a
  match a with
  | ⟨0, _⟩ => show win1_11.index t (0 : Fin 2) * 5000 ≤ (i 0).val ∧ (i 0).val < win1_11.index t (0 : Fin 2) * 5000 + 5000; omega
  | ⟨1, _⟩ => show win1_11.index t (1 : Fin 2) * 128 ≤ (i 1).val ∧ (i 1).val < win1_11.index t (1 : Fin 2) * 128 + 128; omega

/-- THE OUTPUT ARRAY after the region: the result function of the arrays the region found. -/
theorem final (c : Dev nD) : (dat1 V c).arrAt 11 cfg1.N = result V c :=
  (dat1 V c).arrAt_eq_of_cover 11 (result V c) (fun t _ => flushed_eq V c t) (cover)

end Cert.KernelIdeal.NodeValue

end
-- ==== Proof.GraphLayout.lean ====
/-
  The host's layout steps around the perceptrons, read at an entry.

  A row of the edge list, cut out as a `1 × 600000` slice, reshaped to a vector and broadcast to a `600000 × 1` column,
  is the column of start indices `GraphBlock.column`; a 128-row band cut from a stacked weight array is the band
  `GraphBlock.block` reads; a vector of 128 numbers reshaped to a `1 × 128` row is `GraphBlock.vecRow`. The shape
  witnesses are parameters, so the lemmas serve whichever program applies these steps.
-/
import proofs.«418581_j55173149884911_3_alg».proof.Proof.GraphBlock
import Idealize.ShloMosaic.Lib.Pipeline.Value
import Idealize.ShloMosaic.Lib.ValueLayout

noncomputable section

namespace Cert.GraphBlock

open Idealize.ShloMosaic Idealize.ShloMosaic.ValueIdx

/-- Row `r` of the edge list, sliced, reshaped and broadcast to a column, is `column r`. -/
theorem column_eq (r : Fin 2) (ei : Edges)
    (hs : (⟨2, ![2, 600000]⟩ : Shape).Slices ![r.val, 0] ⟨2, ![1, 600000]⟩)
    (hc : (⟨2, ![1, 600000]⟩ : Shape).ShapeCasts ⟨1, ![600000]⟩)
    (hb : (⟨1, ![600000]⟩ : Shape).BroadcastsInDim ⟨2, ![600000, 1]⟩ ![0]) :
    broadcastInDim ⟨2, ![600000, 1]⟩ ![0] hb
      (shapeCast ⟨1, ![600000]⟩ (extractStridedSlice ⟨2, ![1, 600000]⟩ ![r.val, 0] ei hs) hc) = column r ei := by
  funext i
  obtain ⟨p, u, rfl⟩ : ∃ (p : Fin 600000) (u : Fin 1), i = ix2 p u := ⟨i 0, i 1, eq_ix2 i⟩
  rw [broadcastInDim_apply ![0] hb _ (ix2 p u) (ix1 p) (fun a => by
    match a with
    | ⟨0, _⟩ => rfl)]
  rw [shapeCast_1a_a_apply, slice2_axis0_eq]
  show ei (ix2 ⟨r.val + 0, _⟩ p) = ei (ix2 r p)
  congr 2

/-- The 128-row band of a stacked weight array that starts at row `off`, cut out as a slice, is `block` at `off`. -/
theorem block_slice {K : Nat} (W : Arr K 128) (off : Nat) (h : off + 128 ≤ K)
    (hs : (⟨2, ![K, 128]⟩ : Shape).Slices ![off, 0] ⟨2, ![128, 128]⟩) :
    block (extractStridedSlice ⟨2, ![128, 128]⟩ ![off, 0] W hs) 0 (by decide) = block W off h := by
  funext k j
  show extractStridedSlice ⟨2, ![128, 128]⟩ ![off, 0] W hs (ix2 ⟨0 + k.val, _⟩ j) = W (ix2 ⟨off + k.val, _⟩ j)
  rw [slice2_axis0_eq]
  congr 2
  exact Fin.ext (by show off + (0 + k.val) = off + k.val; omega)

/-- A vector reshaped to a one-row array: its row is the vector. -/
theorem row_reshape (b : Vec1) (hc : (⟨1, ![128]⟩ : Shape).ShapeCasts ⟨2, ![1, 128]⟩) :
    rowAt (shapeCast ⟨2, ![1, 128]⟩ b hc) 0 = vecRow b := by
  funext j
  show shapeCast ⟨2, ![1, 128]⟩ b hc (ix2 (0 : Fin 1) j) = b (ix1 j)
  rw [shapeCast_a_1a_apply]

end Cert.GraphBlock

end
-- ==== Proof.KernelValue.lean ====
/-
  The host side of the two-region program: what each region finds in its arrays, and so what the program returns.

  Before the edge region the host cuts the two rows of the edge list, gathers the node rows at the destinations and at
  the sources, cuts the stacked first-layer weights into their three bands and reshapes the bias, gain and shift vectors
  to rows; between the regions it sums the new edge rows into their destination nodes, cuts the node perceptron's
  stacked weights into two bands and reshapes its vectors. Changes of float format are the identity at the ideal
  values. Reading the fold of these operations at each window's array turns the two regions' results
  (`EdgeValue.final`, `NodeValue.final`) into the specification's `messages` and `updated` of the argument arrays.
-/
import proofs.«418581_j55173149884911_3_alg».proof.Proof.Gen.KernelIdeal.Frame
import proofs.«418581_j55173149884911_3_alg».proof.Proof.KernelEdgeValue
import proofs.«418581_j55173149884911_3_alg».proof.Proof.KernelNodeValue
import proofs.«418581_j55173149884911_3_alg».proof.Proof.KernelValueRun
import proofs.«418581_j55173149884911_3_alg».proof.Proof.GraphLayout
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.ShloMosaic.ValueIdx
open Idealize.ShloMosaic.StableHlo Idealize.SL.Sem Cert.GraphBlock

variable (m : (ℓ : Loc nD τ sig) → Buf (Elt Ideal) ℓ) (ρ : Dev nD → PrngReg)

/-- The argument arrays, each at its literal type. -/
abbrev a0 (c : Dev nD) : Arr 50000 128 := m ((c : Thread nD τ).loc main_arg0)
abbrev a1 (c : Dev nD) : Arr 600000 128 := m ((c : Thread nD τ).loc main_arg1)
abbrev a2 (c : Dev nD) : Edges := m ((c : Thread nD τ).loc main_arg2)
abbrev a3 (c : Dev nD) : Arr 384 128 := m ((c : Thread nD τ).loc main_arg3)
abbrev a4 (c : Dev nD) : Vec1 := m ((c : Thread nD τ).loc main_arg4)
abbrev a5 (c : Dev nD) : Arr 128 128 := m ((c : Thread nD τ).loc main_arg5)
abbrev a6 (c : Dev nD) : Vec1 := m ((c : Thread nD τ).loc main_arg6)
abbrev a7 (c : Dev nD) : Arr 128 128 := m ((c : Thread nD τ).loc main_arg7)
abbrev a8 (c : Dev nD) : Vec1 := m ((c : Thread nD τ).loc main_arg8)
abbrev a9 (c : Dev nD) : Vec1 := m ((c : Thread nD τ).loc main_arg9)
abbrev a10 (c : Dev nD) : Vec1 := m ((c : Thread nD τ).loc main_arg10)
abbrev a11 (c : Dev nD) : Arr 256 128 := m ((c : Thread nD τ).loc main_arg11)
abbrev a12 (c : Dev nD) : Vec1 := m ((c : Thread nD τ).loc main_arg12)
abbrev a13 (c : Dev nD) : Arr 128 128 := m ((c : Thread nD τ).loc main_arg13)
abbrev a14 (c : Dev nD) : Vec1 := m ((c : Thread nD τ).loc main_arg14)
abbrev a15 (c : Dev nD) : Arr 128 128 := m ((c : Thread nD τ).loc main_arg15)
abbrev a16 (c : Dev nD) : Vec1 := m ((c : Thread nD τ).loc main_arg16)
abbrev a17 (c : Dev nD) : Vec1 := m ((c : Thread nD τ).loc main_arg17)
abbrev a18 (c : Dev nD) : Vec1 := m ((c : Thread nD τ).loc main_arg18)

/-! ## What the edge region finds -/

/-- The contents at the edge region's entry are the fold of the four host stretches before it, as one line. -/
theorem W4_eq (c : Dev nD) :
    W4 m ρ c = StableHlo.after (hostOps0 ++ hostOps0_1 ++ hostOps0_2 ++ hostOps0_3) (W0 m ρ c) := by
  rw [StableHlo.after_append, StableHlo.after_append, StableHlo.after_append]

/-- Reads that fold at one buffer. -/
macro "read_entry0" : tactic =>
  `(tactic| (rw [W4_eq]; simp only [hostOps0, hostOps0_1, hostOps0_2, hostOps0_3, List.cons_append, List.nil_append]; after_results))

theorem xd_eq (c : Dev nD) : EdgeValue.xd (V4 m ρ) c = Host.gather gather_S50000x128_S600000x1_S600000x128_1_0_n_n_0_1_1128 (a0 m c) (column 1 (a2 m c)) := by
  show W4 m ρ c (Proc.devRef .tc main_v5) = _
  read_entry0
  exact congrArg (Host.gather gather_S50000x128_S600000x1_S600000x128_1_0_n_n_0_1_1128 (a0 m c)) (column_eq 1 (a2 m c) slices_S2x600000_S1x600000_1_0 shapeCasts_S1x600000_S600000 bcast_S600000_S600000x1_0)

theorem xs_eq (c : Dev nD) : EdgeValue.xs (V4 m ρ) c = Host.gather gather_S50000x128_S600000x1_S600000x128_1_0_n_n_0_1_1128 (a0 m c) (column 0 (a2 m c)) := by
  show W4 m ρ c (Proc.devRef .tc main_v6) = _
  read_entry0
  exact congrArg (Host.gather gather_S50000x128_S600000x1_S600000x128_1_0_n_n_0_1_1128 (a0 m c)) (column_eq 0 (a2 m c) slices_S2x600000_S1x600000_0_0 shapeCasts_S1x600000_S600000 bcast_S600000_S600000x1_0)

theorem ee_eq (c : Dev nD) : EdgeValue.ee (V4 m ρ) c = a1 m c := by
  show W4 m ρ c (Proc.devRef .tc main_arg1) = _
  read_entry0

theorem w0d_eq (c : Dev nD) : block (EdgeValue.w0d (V4 m ρ) c) 0 (by decide) = block (a3 m c) 0 (by decide) := by
  have e : EdgeValue.w0d (V4 m ρ) c = extractStridedSlice S128x128 ![0, 0] (a3 m c) slices_S384x128_S128x128_0_0 := by
    show W4 m ρ c (Proc.devRef .tc main_v8) = _
    read_entry0
    rfl
  rw [e]; exact block_slice (a3 m c) 0 (by decide) _

theorem w0s_eq (c : Dev nD) : block (EdgeValue.w0s (V4 m ρ) c) 0 (by decide) = block (a3 m c) 128 (by decide) := by
  have e : EdgeValue.w0s (V4 m ρ) c = extractStridedSlice S128x128 ![128, 0] (a3 m c) slices_S384x128_S128x128_128_0 := by
    show W4 m ρ c (Proc.devRef .tc main_v10) = _
    read_entry0
    rfl
  rw [e]; exact block_slice (a3 m c) 128 (by decide) _

theorem w0e_eq (c : Dev nD) : block (EdgeValue.w0e (V4 m ρ) c) 0 (by decide) = block (a3 m c) 256 (by decide) := by
  have e : EdgeValue.w0e (V4 m ρ) c = extractStridedSlice S128x128 ![256, 0] (a3 m c) slices_S384x128_S128x128_256_0 := by
    show W4 m ρ c (Proc.devRef .tc main_v12) = _
    read_entry0
    rfl
  rw [e]; exact block_slice (a3 m c) 256 (by decide) _

theorem b0_eq (c : Dev nD) : rowAt (EdgeValue.b0 (V4 m ρ) c) 0 = vecRow (a4 m c) := by
  have e : EdgeValue.b0 (V4 m ρ) c = shapeCast S1x128 (a4 m c) shapeCasts_S128_S1x128 := by
    show W4 m ρ c (Proc.devRef .tc main_v15) = _
    read_entry0
    rfl
  rw [e]; exact row_reshape (a4 m c) _

theorem w1_eq (c : Dev nD) : EdgeValue.w1 (V4 m ρ) c = a5 m c := by
  show W4 m ρ c (Proc.devRef .tc main_v13) = _
  read_entry0
  rfl

theorem b1_eq (c : Dev nD) : rowAt (EdgeValue.b1 (V4 m ρ) c) 0 = vecRow (a6 m c) := by
  have e : EdgeValue.b1 (V4 m ρ) c = shapeCast S1x128 (a6 m c) shapeCasts_S128_S1x128 := by
    show W4 m ρ c (Proc.devRef .tc main_v16) = _
    read_entry0
    rfl
  rw [e]; exact row_reshape (a6 m c) _

theorem w2_eq (c : Dev nD) : EdgeValue.w2 (V4 m ρ) c = a7 m c := by
  show W4 m ρ c (Proc.devRef .tc main_v14) = _
  read_entry0
  rfl

theorem b2_eq (c : Dev nD) : rowAt (EdgeValue.b2 (V4 m ρ) c) 0 = vecRow (a8 m c) := by
  have e : EdgeValue.b2 (V4 m ρ) c = shapeCast S1x128 (a8 m c) shapeCasts_S128_S1x128 := by
    show W4 m ρ c (Proc.devRef .tc main_v17) = _
    read_entry0
    rfl
  rw [e]; exact row_reshape (a8 m c) _

theorem gain_eq (c : Dev nD) : rowAt (EdgeValue.gain (V4 m ρ) c) 0 = vecRow (a9 m c) := by
  have e : EdgeValue.gain (V4 m ρ) c = shapeCast S1x128 (a9 m c) shapeCasts_S128_S1x128 := by
    show W4 m ρ c (Proc.devRef .tc main_v18) = _
    read_entry0
    rfl
  rw [e]; exact row_reshape (a9 m c) _

theorem shift_eq (c : Dev nD) : rowAt (EdgeValue.shift (V4 m ρ) c) 0 = vecRow (a10 m c) := by
  have e : EdgeValue.shift (V4 m ρ) c = shapeCast S1x128 (a10 m c) shapeCasts_S128_S1x128 := by
    show W4 m ρ c (Proc.devRef .tc main_v19) = _
    read_entry0
    rfl
  rw [e]; exact row_reshape (a10 m c) _

/-- THE EDGE REGION'S RESULT is the specification's `messages` of the arguments. -/
theorem edge_result (c : Dev nD) :
    EdgeValue.result (V4 m ρ) c
      = messages gather_S50000x128_S600000x1_S600000x128_1_0_n_n_0_1_1128 (a0 m c) (a1 m c) (a2 m c) (a3 m c) (a4 m c) (a5 m c) (a6 m c) (a7 m c) (a8 m c) (a9 m c) (a10 m c) := by
  funext i
  show EdgeValue.entry (V4 m ρ) c (i 0) (i 1)
    = edgeEntry (Host.gather gather_S50000x128_S600000x1_S600000x128_1_0_n_n_0_1_1128 (a0 m c) (column 1 (a2 m c))) (Host.gather gather_S50000x128_S600000x1_S600000x128_1_0_n_n_0_1_1128 (a0 m c) (column 0 (a2 m c)))
        (a1 m c) (a3 m c) (a4 m c) (a5 m c) (a6 m c) (a7 m c) (a8 m c) (a9 m c) (a10 m c) (i 0) (i 1)
  unfold EdgeValue.entry edgeEntry
  rw [xd_eq, xs_eq, ee_eq, w0d_eq, w0s_eq, w0e_eq, b0_eq, w1_eq, b1_eq, w2_eq, b2_eq, gain_eq, shift_eq]

/-! ## What the node region finds -/

theorem W4_v3 (c : Dev nD) :
    W4 m ρ c (Proc.devRef .tc main_v3)
      = shapeCast S600000 (extractStridedSlice S1x600000 ![1, 0] (a2 m c) slices_S2x600000_S1x600000_1_0) shapeCasts_S1x600000_S600000 := by
  read_entry0
  rfl

theorem W4_arg0 (c : Dev nD) : W4 m ρ c (Proc.devRef .tc main_arg0) = a0 m c := by read_entry0
theorem W4_arg11 (c : Dev nD) : W4 m ρ c (Proc.devRef .tc main_arg11) = a11 m c := by read_entry0
theorem W4_arg12 (c : Dev nD) : W4 m ρ c (Proc.devRef .tc main_arg12) = a12 m c := by read_entry0
theorem W4_arg13 (c : Dev nD) : W4 m ρ c (Proc.devRef .tc main_arg13) = a13 m c := by read_entry0
theorem W4_arg14 (c : Dev nD) : W4 m ρ c (Proc.devRef .tc main_arg14) = a14 m c := by read_entry0
theorem W4_arg15 (c : Dev nD) : W4 m ρ c (Proc.devRef .tc main_arg15) = a15 m c := by read_entry0
theorem W4_arg16 (c : Dev nD) : W4 m ρ c (Proc.devRef .tc main_arg16) = a16 m c := by read_entry0
theorem W4_arg17 (c : Dev nD) : W4 m ρ c (Proc.devRef .tc main_arg17) = a17 m c := by read_entry0
theorem W4_arg18 (c : Dev nD) : W4 m ρ c (Proc.devRef .tc main_arg18) = a18 m c := by read_entry0

/-- The edge region leaves its output array at its result and touches nothing else the node side reads. -/
theorem W5_v20 (c : Dev nD) : W5 m ρ c (Proc.devRef .tc main_v20) = EdgeValue.result (V4 m ρ) c :=
  (W5_arr m ρ c 13).trans (EdgeValue.final (V4 m ρ) c)

/-- The contents at the node region's entry are the host stretch between the regions over the edge region's exit. -/
theorem W6_eq (c : Dev nD) : W6 m ρ c = StableHlo.after hostOps1 (W5 m ρ c) := rfl

macro "read_entry1" : tactic => `(tactic| (rw [W6_eq]; simp only [hostOps1]; after_results))

theorem xn_eq (c : Dev nD) : NodeValue.xn (V6 m ρ) c = a0 m c := by
  show W6 m ρ c (Proc.devRef .tc main_arg0) = _
  read_entry1
  rw [W5_of_ne m ρ c main_arg0 (by decide)]
  exact W4_arg0 m ρ c

/-- The sums over incoming edges: the host's scatter-add of the new edge rows into a zero array at the destinations. -/
theorem agg_eq (c : Dev nD) :
    NodeValue.agg (V6 m ρ) c
      = Host.scatterAdd (F := Ideal) (φ := .f32) scatter_S50000x128_S600000x1_S600000x128_1_0_0_1 (fun _ => zero32) (column 1 (a2 m c)) (EdgeValue.result (V4 m ρ) c) := by
  show W6 m ρ c (Proc.devRef .tc main_v23) = _
  read_entry1
  rw [W5_of_ne m ρ c main_v3 (by decide), W4_v3, W5_v20]
  exact congrArg (fun idx => Host.scatterAdd (F := Ideal) (φ := .f32) scatter_S50000x128_S600000x1_S600000x128_1_0_0_1 (fun _ => zero32) idx (EdgeValue.result (V4 m ρ) c))
    (column_eq 1 (a2 m c) slices_S2x600000_S1x600000_1_0 shapeCasts_S1x600000_S600000 bcast_S600000_S600000x1_0)

theorem w0x_eq (c : Dev nD) : block (NodeValue.w0x (V6 m ρ) c) 0 (by decide) = block (a11 m c) 0 (by decide) := by
  have e : NodeValue.w0x (V6 m ρ) c = extractStridedSlice S128x128 ![0, 0] (a11 m c) slices_S256x128_S128x128_0_0 := by
    show W6 m ρ c (Proc.devRef .tc main_v25) = _
    read_entry1
    rw [W5_of_ne m ρ c main_arg11 (by decide), W4_arg11]
    rfl
  rw [e]; exact block_slice (a11 m c) 0 (by decide) _

theorem w0a_eq (c : Dev nD) : block (NodeValue.w0a (V6 m ρ) c) 0 (by decide) = block (a11 m c) 128 (by decide) := by
  have e : NodeValue.w0a (V6 m ρ) c = extractStridedSlice S128x128 ![128, 0] (a11 m c) slices_S256x128_S128x128_128_0 := by
    show W6 m ρ c (Proc.devRef .tc main_v27) = _
    read_entry1
    rw [W5_of_ne m ρ c main_arg11 (by decide), W4_arg11]
    rfl
  rw [e]; exact block_slice (a11 m c) 128 (by decide) _

theorem nb0_eq (c : Dev nD) : rowAt (NodeValue.b0 (V6 m ρ) c) 0 = vecRow (a12 m c) := by
  have e : NodeValue.b0 (V6 m ρ) c = shapeCast S1x128 (a12 m c) shapeCasts_S128_S1x128 := by
    show W6 m ρ c (Proc.devRef .tc main_v30) = _
    read_entry1
    rw [W5_of_ne m ρ c main_arg12 (by decide), W4_arg12]
    rfl
  rw [e]; exact row_reshape (a12 m c) _

theorem nw1_eq (c : Dev nD) : NodeValue.w1 (V6 m ρ) c = a13 m c := by
  show W6 m ρ c (Proc.devRef .tc main_v28) = _
  read_entry1
  rw [W5_of_ne m ρ c main_arg13 (by decide), W4_arg13]
  rfl

theorem nb1_eq (c : Dev nD) : rowAt (NodeValue.b1 (V6 m ρ) c) 0 = vecRow (a14 m c) := by
  have e : NodeValue.b1 (V6 m ρ) c = shapeCast S1x128 (a14 m c) shapeCasts_S128_S1x128 := by
    show W6 m ρ c (Proc.devRef .tc main_v31) = _
    read_entry1
    rw [W5_of_ne m ρ c main_arg14 (by decide), W4_arg14]
    rfl
  rw [e]; exact row_reshape (a14 m c) _

theorem nw2_eq (c : Dev nD) : NodeValue.w2 (V6 m ρ) c = a15 m c := by
  show W6 m ρ c (Proc.devRef .tc main_v29) = _
  read_entry1
  rw [W5_of_ne m ρ c main_arg15 (by decide), W4_arg15]
  rfl

theorem nb2_eq (c : Dev nD) : rowAt (NodeValue.b2 (V6 m ρ) c) 0 = vecRow (a16 m c) := by
  have e : NodeValue.b2 (V6 m ρ) c = shapeCast S1x128 (a16 m c) shapeCasts_S128_S1x128 := by
    show W6 m ρ c (Proc.devRef .tc main_v32) = _
    read_entry1
    rw [W5_of_ne m ρ c main_arg16 (by decide), W4_arg16]
    rfl
  rw [e]; exact row_reshape (a16 m c) _

theorem ngain_eq (c : Dev nD) : rowAt (NodeValue.gain (V6 m ρ) c) 0 = vecRow (a17 m c) := by
  have e : NodeValue.gain (V6 m ρ) c = shapeCast S1x128 (a17 m c) shapeCasts_S128_S1x128 := by
    show W6 m ρ c (Proc.devRef .tc main_v33) = _
    read_entry1
    rw [W5_of_ne m ρ c main_arg17 (by decide), W4_arg17]
    rfl
  rw [e]; exact row_reshape (a17 m c) _

theorem nshift_eq (c : Dev nD) : rowAt (NodeValue.shift (V6 m ρ) c) 0 = vecRow (a18 m c) := by
  have e : NodeValue.shift (V6 m ρ) c = shapeCast S1x128 (a18 m c) shapeCasts_S128_S1x128 := by
    show W6 m ρ c (Proc.devRef .tc main_v34) = _
    read_entry1
    rw [W5_of_ne m ρ c main_arg18 (by decide), W4_arg18]
    rfl
  rw [e]; exact row_reshape (a18 m c) _

/-- THE NODE REGION'S RESULT is the specification's `updated` of the arguments. -/
theorem node_result (c : Dev nD) :
    NodeValue.result (V6 m ρ) c
      = updated gather_S50000x128_S600000x1_S600000x128_1_0_n_n_0_1_1128 scatter_S50000x128_S600000x1_S600000x128_1_0_0_1 (a0 m c) (a1 m c) (a2 m c) (a3 m c) (a4 m c) (a5 m c) (a6 m c) (a7 m c) (a8 m c) (a9 m c) (a10 m c)
          (a11 m c) (a12 m c) (a13 m c) (a14 m c) (a15 m c) (a16 m c) (a17 m c) (a18 m c) := by
  funext i
  show NodeValue.entry (V6 m ρ) c (i 0) (i 1)
    = nodeEntry (a0 m c) (Host.scatterAdd (F := Ideal) (φ := .f32) scatter_S50000x128_S600000x1_S600000x128_1_0_0_1 (fun _ => zero32) (column 1 (a2 m c))
          (messages gather_S50000x128_S600000x1_S600000x128_1_0_n_n_0_1_1128 (a0 m c) (a1 m c) (a2 m c) (a3 m c) (a4 m c) (a5 m c) (a6 m c) (a7 m c) (a8 m c) (a9 m c) (a10 m c)))
        (a11 m c) (a12 m c) (a13 m c) (a14 m c) (a15 m c) (a16 m c) (a17 m c) (a18 m c) (i 0) (i 1)
  unfold NodeValue.entry nodeEntry
  rw [xn_eq, agg_eq, edge_result, w0x_eq, w0a_eq, nb0_eq, nw1_eq, nb1_eq, nw2_eq, nb2_eq, ngain_eq, nshift_eq]

/-- The second result's buffer is not touched after the edge region. -/
theorem W7_v20 (c : Dev nD) : W7 m ρ c (Proc.devRef .tc main_v20) = EdgeValue.result (V4 m ρ) c := by
  rw [W7_of_ne m ρ c main_v20 (by decide)]
  show W6 m ρ c (Proc.devRef .tc main_v20) = _
  read_entry1
  exact W5_v20 m ρ c

/-- The first result's buffer is the node region's output array. -/
theorem W7_v35 (c : Dev nD) : W7 m ρ c (Proc.devRef .tc main_v35) = NodeValue.result (V6 m ρ) c :=
  (W7_arr m ρ c 11).trans (NodeValue.final (V6 m ρ) c)

/-! ## The program's run, read -/

/-- Every weakly fair execution of the two-region program terminates with its first result at the specification's
    `updated` and its second at `messages` of the argument arrays, the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v35)
        = Cert.GraphBlock.updated Cert.KernelIdeal.gather_S50000x128_S600000x1_S600000x128_1_0_n_n_0_1_1128 Cert.KernelIdeal.scatter_S50000x128_S600000x1_S600000x128_1_0_0_1
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
      ∧ r.2.mem ((c.tc : Thread Cert.KernelIdeal.nD Cert.KernelIdeal.τ).loc Cert.KernelIdeal.main_v20)
        = Cert.GraphBlock.messages Cert.KernelIdeal.gather_S50000x128_S600000x1_S600000x128_1_0_n_n_0_1_1128
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run defs _ _).mono (fun r h c =>
    ⟨(h c _ (mem_uc main_v35 (by decide))).trans ((W7_v35 m ρ c).trans (node_result m ρ c)),
     (h c _ (mem_uc main_v20 (by decide))).trans ((W7_v20 m ρ c).trans (edge_result m ρ c)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c)⟩)
    (ValueRun.run_all m ρ)

end Cert.KernelIdeal.Value

end
-- ==== Proof.ReferenceRun.lean ====
/-
  The reference's @main as the list of its host operations, in order, every call replaced by the callee's
  operations over that call's buffers; the same list cut into consecutive stretches (the two gathers; the edge
  perceptron's three layers; the edge normalisation; the summing over incoming edges; the node perceptron's three
  layers; the node normalisation and the residual), with the buffers each stretch writes; and the run: every
  weakly fair execution ends with each buffer at the fold of the operations over the launch contents.
-/
import proofs.«418581_j55173149884911_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 153 operations, in order. -/
abbrev ops : List (HloOp τ sig (Elt F)) :=
  [ StableHlo.unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v3 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v3 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v3 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v1 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v1 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nary ![main_v10, main_v17, main_arg1] main_v18 (fun u => concatenate S600000x384 1 [⟨S600000x128, u 0⟩, ⟨S600000x128, u 1⟩, ⟨S600000x128, u 2⟩] concatenates_S600000x128_S600000x128_S600000x128_S600000x384_d1),
    StableHlo.binary main_v18 main_arg3 main_v19 ((fun l r => Host.dotGeneral dot_S600000x384_S384x128_S600000x128_1_0_0_1_n_n none l r) : (⟨S600000x384, .f32⟩ : BufTy).Contents (Elt F) → (⟨S384x128, .f32⟩ : BufTy).Contents (Elt F) → (⟨S600000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S600000x128 ![0, 1] bcast_S1x128_S600000x128_0_1 : (⟨S1x128, .f32⟩ : BufTy).Contents (Elt F) → (⟨S600000x128, .f32⟩ : BufTy).Contents (Elt F)),
    StableHlo.binary main_v19 main_v21 main_v22 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (.of main_v22 : StableHlo.TRef sig ⟨S600000x128, .f32⟩) main_call0.v0 main_call0.v1 maximumf,
    StableHlo.binary main_v23 main_arg5 main_v24 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S600000x128 ![0, 1] bcast_S1x128_S600000x128_0_1 : (⟨S1x128, .f32⟩ : BufTy).Contents (Elt F) → (⟨S600000x128, .f32⟩ : BufTy).Contents (Elt F)),
    StableHlo.binary main_v24 main_v26 main_v27 (addf : (⟨S600000x128, .f32⟩ : BufTy).Contents (Elt F) → (⟨S600000x128, .f32⟩ : BufTy).Contents (Elt F) → (⟨S600000x128, .f32⟩ : BufTy).Contents (Elt F)),
    StableHlo.TRef.nullary main_call1.cst (constant S_ .f32 0x00000000#32),
    StableHlo.TRef.unary main_call1.cst main_call1.v0 (broadcastInDim S600000x128 ![] bcast_S_S600000x128),
    StableHlo.TRef.binary (.of main_v27 : StableHlo.TRef sig ⟨S600000x128, .f32⟩) main_call1.v0 main_call1.v1 maximumf,
    StableHlo.binary main_v28 main_arg7 main_v29 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg8 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S600000x128 ![0, 1] bcast_S1x128_S600000x128_0_1 : (⟨S1x128, .f32⟩ : BufTy).Contents (Elt F) → (⟨S600000x128, .f32⟩ : BufTy).Contents (Elt F)),
    StableHlo.binary main_v29 main_v31 main_v32 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.binary main_v32 main_cst main_v33 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    StableHlo.unary main_v33 main_v34 (broadcastInDim S600000x1 ![0] bcast_S600000_S600000x1_0 : (⟨S600000, .f32⟩ : BufTy).Contents (Elt F) → (⟨S600000x1, .f32⟩ : BufTy).Contents (Elt F)),
    StableHlo.nullary main_cst_3 (constant S_ .f32 0x43000000#32),
    StableHlo.unary main_cst_3 main_v35 (broadcastInDim S600000x1 ![] bcast_S_S600000x1 : (⟨S_, .f32⟩ : BufTy).Contents (Elt F) → (⟨S600000x1, .f32⟩ : BufTy).Contents (Elt F)),
    StableHlo.binary main_v34 main_v35 main_v36 (Host.divf : (⟨S600000x1, .f32⟩ : BufTy).Contents (Elt F) → (⟨S600000x1, .f32⟩ : BufTy).Contents (Elt F) → (⟨S600000x1, .f32⟩ : BufTy).Contents (Elt F)),
    StableHlo.nullary main_c_4 (constantI S_ 32 0#32),
    StableHlo.TRef.nullary main_call2.cst (constant S_ .f32 0x00000000#32),
    StableHlo.TRef.binary (.of main_v32 : StableHlo.TRef sig ⟨S600000x128, .f32⟩) main_call2.cst main_call2.v0 (fun x v => Host.reduceAdd x v reducesTo_S600000x128_S600000_d1 h_S_),
    StableHlo.TRef.unary main_call2.v0 main_call2.v1 (broadcastInDim S600000x1 ![0] bcast_S600000_S600000x1_0),
    StableHlo.TRef.nullary main_call2.cst_0 (constant S_ .f32 0x43000000#32),
    StableHlo.TRef.unary main_call2.cst_0 main_call2.v2 (broadcastInDim S600000x1 ![] bcast_S_S600000x1),
    StableHlo.TRef.binary main_call2.v1 main_call2.v2 main_call2.v3 Host.divf,
    StableHlo.TRef.unary main_call2.v3 main_call2.v4 (broadcastInDim S600000x128 ![0, 1] bcast_S600000x1_S600000x128_0_1),
    StableHlo.TRef.binary (.of main_v32 : StableHlo.TRef sig ⟨S600000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S600000x128_S600000_d1 h_S_),
    StableHlo.TRef.unary main_call2.v9 main_call2.v10 (broadcastInDim S600000x1 ![0] bcast_S600000_S600000x1_0),
    StableHlo.TRef.unary main_call2.v8 main_call2.v11 (broadcastInDim S600000x1 ![] bcast_S_S600000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S600000x1 ![] bcast_S_S600000x1),
    StableHlo.TRef.ternary main_call2.v13 main_call2.v12 main_call2.call0.v1 main_call2.call0.v2 (fun p a b => select (broadcastInDim S600000x1 ![] bcast_S_S600000x1 p) a b),
    StableHlo.unary main_v36 main_v38 (broadcastInDim S600000x128 ![0, 1] bcast_S600000x1_S600000x128_0_1 : (⟨S600000x1, .f32⟩ : BufTy).Contents (Elt F) → (⟨S600000x128, .f32⟩ : BufTy).Contents (Elt F)),
    StableHlo.binary main_v32 main_v38 main_v39 (subf : (⟨S600000x128, .f32⟩ : BufTy).Contents (Elt F) → (⟨S600000x128, .f32⟩ : BufTy).Contents (Elt F) → (⟨S600000x128, .f32⟩ : BufTy).Contents (Elt F)),
    StableHlo.nullary main_cst_5 (constant S_ .f32 0x3727C5AC#32),
    StableHlo.unary main_cst_5 main_v40 (broadcastInDim S600000x1 ![] bcast_S_S600000x1 : (⟨S_, .f32⟩ : BufTy).Contents (Elt F) → (⟨S600000x1, .f32⟩ : BufTy).Contents (Elt F)),
    StableHlo.binary main_v37 main_v40 main_v41 (addf : (⟨S600000x1, .f32⟩ : BufTy).Contents (Elt F) → (⟨S600000x1, .f32⟩ : BufTy).Contents (Elt F) → (⟨S600000x1, .f32⟩ : BufTy).Contents (Elt F)),
    StableHlo.unary main_v41 main_v42 (Host.rsqrt : (⟨S600000x1, .f32⟩ : BufTy).Contents (Elt F) → (⟨S600000x1, .f32⟩ : BufTy).Contents (Elt F)),
    StableHlo.unary main_v42 main_v43 (broadcastInDim S600000x128 ![0, 1] bcast_S600000x1_S600000x128_0_1 : (⟨S600000x1, .f32⟩ : BufTy).Contents (Elt F) → (⟨S600000x128, .f32⟩ : BufTy).Contents (Elt F)),
    StableHlo.binary main_v39 main_v43 main_v44 (mulf : (⟨S600000x128, .f32⟩ : BufTy).Contents (Elt F) → (⟨S600000x128, .f32⟩ : BufTy).Contents (Elt F) → (⟨S600000x128, .f32⟩ : BufTy).Contents (Elt F)),
    StableHlo.unary main_arg9 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S600000x128 ![0, 1] bcast_S1x128_S600000x128_0_1 : (⟨S1x128, .f32⟩ : BufTy).Contents (Elt F) → (⟨S600000x128, .f32⟩ : BufTy).Contents (Elt F)),
    StableHlo.binary main_v44 main_v46 main_v47 (mulf : (⟨S600000x128, .f32⟩ : BufTy).Contents (Elt F) → (⟨S600000x128, .f32⟩ : BufTy).Contents (Elt F) → (⟨S600000x128, .f32⟩ : BufTy).Contents (Elt F)),
    StableHlo.unary main_arg10 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S600000x128 ![0, 1] bcast_S1x128_S600000x128_0_1 : (⟨S1x128, .f32⟩ : BufTy).Contents (Elt F) → (⟨S600000x128, .f32⟩ : BufTy).Contents (Elt F)),
    StableHlo.binary main_v47 main_v49 main_v50 (addf : (⟨S600000x128, .f32⟩ : BufTy).Contents (Elt F) → (⟨S600000x128, .f32⟩ : BufTy).Contents (Elt F) → (⟨S600000x128, .f32⟩ : BufTy).Contents (Elt F)),
    StableHlo.nullary main_cst_6 (constant S_ .f32 0x00000000#32),
    StableHlo.unary main_cst_6 main_v51 (broadcastInDim S50000x128 ![] bcast_S_S50000x128 : (⟨S_, .f32⟩ : BufTy).Contents (Elt F) → (⟨S50000x128, .f32⟩ : BufTy).Contents (Elt F)),
    StableHlo.unary main_v3 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v53 main_v54 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v54 main_arg11 main_v55 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v57 main_v58 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v58 : StableHlo.TRef sig ⟨S50000x128, .f32⟩) main_call3.v0 main_call3.v1 maximumf,
    StableHlo.binary main_v59 main_arg13 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg14 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v63 : StableHlo.TRef sig ⟨S50000x128, .f32⟩) main_call4.v0 main_call4.v1 maximumf,
    StableHlo.binary main_v64 main_arg15 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v67 main_v68 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x00000000#32),
    StableHlo.binary main_v68 main_cst_7 main_v69 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.nullary main_cst_8 (constant S_ .f32 0x43000000#32),
    StableHlo.unary main_cst_8 main_v71 (broadcastInDim S50000x1 ![] bcast_S_S50000x1 : (⟨S_, .f32⟩ : BufTy).Contents (Elt F) → (⟨S50000x1, .f32⟩ : BufTy).Contents (Elt F)),
    StableHlo.binary main_v70 main_v71 main_v72 (Host.divf : (⟨S50000x1, .f32⟩ : BufTy).Contents (Elt F) → (⟨S50000x1, .f32⟩ : BufTy).Contents (Elt F) → (⟨S50000x1, .f32⟩ : BufTy).Contents (Elt F)),
    StableHlo.nullary main_c_9 (constantI S_ 32 0#32),
    StableHlo.TRef.nullary main_call5.cst (constant S_ .f32 0x00000000#32),
    StableHlo.TRef.binary (.of main_v68 : StableHlo.TRef sig ⟨S50000x128, .f32⟩) main_call5.cst main_call5.v0 (fun x v => Host.reduceAdd x v reducesTo_S50000x128_S50000_d1 h_S_),
    StableHlo.TRef.unary main_call5.v0 main_call5.v1 (broadcastInDim S50000x1 ![0] bcast_S50000_S50000x1_0),
    StableHlo.TRef.nullary main_call5.cst_0 (constant S_ .f32 0x43000000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x128 ![0, 1] bcast_S50000x1_S50000x128_0_1),
    StableHlo.TRef.binary (.of main_v68 : StableHlo.TRef sig ⟨S50000x128, .f32⟩) main_call5.v4 main_call5.v5 subf,
    StableHlo.TRef.binary main_call5.v5 main_call5.v5 main_call5.v6 mulf,
    StableHlo.TRef.unary (.of main_c_9 : StableHlo.TRef sig ⟨S_, .i32⟩) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b),
    StableHlo.unary main_v72 main_v74 (broadcastInDim S50000x128 ![0, 1] bcast_S50000x1_S50000x128_0_1 : (⟨S50000x1, .f32⟩ : BufTy).Contents (Elt F) → (⟨S50000x128, .f32⟩ : BufTy).Contents (Elt F)),
    StableHlo.binary main_v68 main_v74 main_v75 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v76 (broadcastInDim S50000x1 ![] bcast_S_S50000x1 : (⟨S_, .f32⟩ : BufTy).Contents (Elt F) → (⟨S50000x1, .f32⟩ : BufTy).Contents (Elt F)),
    StableHlo.binary main_v73 main_v76 main_v77 (addf : (⟨S50000x1, .f32⟩ : BufTy).Contents (Elt F) → (⟨S50000x1, .f32⟩ : BufTy).Contents (Elt F) → (⟨S50000x1, .f32⟩ : BufTy).Contents (Elt F)),
    StableHlo.unary main_v77 main_v78 (Host.rsqrt : (⟨S50000x1, .f32⟩ : BufTy).Contents (Elt F) → (⟨S50000x1, .f32⟩ : BufTy).Contents (Elt F)),
    StableHlo.unary main_v78 main_v79 (broadcastInDim S50000x128 ![0, 1] bcast_S50000x1_S50000x128_0_1 : (⟨S50000x1, .f32⟩ : BufTy).Contents (Elt F) → (⟨S50000x128, .f32⟩ : BufTy).Contents (Elt F)),
    StableHlo.binary main_v75 main_v79 main_v80 (mulf : (⟨S50000x128, .f32⟩ : BufTy).Contents (Elt F) → (⟨S50000x128, .f32⟩ : BufTy).Contents (Elt F) → (⟨S50000x128, .f32⟩ : BufTy).Contents (Elt F)),
    StableHlo.unary main_arg17 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (mulf : (⟨S50000x128, .f32⟩ : BufTy).Contents (Elt F) → (⟨S50000x128, .f32⟩ : BufTy).Contents (Elt F) → (⟨S50000x128, .f32⟩ : BufTy).Contents (Elt F)),
    StableHlo.unary main_arg18 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    StableHlo.binary main_arg0 main_v86 main_v87 (addf : (⟨S50000x128, .f32⟩ : BufTy).Contents (Elt F) → (⟨S50000x128, .f32⟩ : BufTy).Contents (Elt F) → (⟨S50000x128, .f32⟩ : BufTy).Contents (Elt F)) ]

/-- Stretch 0: 22 operations. -/
abbrev seg0 : List (HloOp τ sig (Elt F)) :=
  [ StableHlo.unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v3 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v3 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v3 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v1 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v1 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The buffers stretch 0 writes. -/
abbrev seg0_written : List (Ref sig .tc) :=
  [ main_v0, main_v1, main_v2, main_v3, main_c, main_v4, main_v5, main_c_0, main_v6, main_v7, main_v8, main_v9, main_v10, main_c_1, main_v11, main_v12, main_c_2, main_v13, main_v14, main_v15, main_v16, main_v17 ]

/-- Stretch 1: 5 operations. -/
abbrev seg1 : List (HloOp τ sig (Elt F)) :=
  [ StableHlo.nary ![main_v10, main_v17, main_arg1] main_v18 (fun u => concatenate S600000x384 1 [⟨S600000x128, u 0⟩, ⟨S600000x128, u 1⟩, ⟨S600000x128, u 2⟩] concatenates_S600000x128_S600000x128_S600000x128_S600000x384_d1),
    StableHlo.binary main_v18 main_arg3 main_v19 ((fun l r => Host.dotGeneral dot_S600000x384_S384x128_S600000x128_1_0_0_1_n_n none l r) : (⟨S600000x384, .f32⟩ : BufTy).Contents (Elt F) → (⟨S384x128, .f32⟩ : BufTy).Contents (Elt F) → (⟨S600000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S600000x128 ![0, 1] bcast_S1x128_S600000x128_0_1 : (⟨S1x128, .f32⟩ : BufTy).Contents (Elt F) → (⟨S600000x128, .f32⟩ : BufTy).Contents (Elt F)),
    StableHlo.binary main_v19 main_v21 main_v22 (addf : (⟨S600000x128, .f32⟩ : BufTy).Contents (Elt F) → (⟨S600000x128, .f32⟩ : BufTy).Contents (Elt F) → (⟨S600000x128, .f32⟩ : BufTy).Contents (Elt F)) ]

/-- The buffers stretch 1 writes. -/
abbrev seg1_written : List (Ref sig .tc) :=
  [ main_v18, main_v19, main_v20, main_v21, main_v22 ]

/-- Stretch 2: 7 operations. -/
abbrev seg2 : List (HloOp τ sig (Elt F)) :=
  [ StableHlo.TRef.nullary main_call0.cst (constant S_ .f32 0x00000000#32),
    StableHlo.TRef.unary main_call0.cst main_call0.v0 (broadcastInDim S600000x128 ![] bcast_S_S600000x128),
    StableHlo.TRef.binary (.of main_v22 : StableHlo.TRef sig ⟨S600000x128, .f32⟩) main_call0.v0 main_call0.v1 maximumf,
    StableHlo.binary main_v23 main_arg5 main_v24 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S600000x128 ![0, 1] bcast_S1x128_S600000x128_0_1 : (⟨S1x128, .f32⟩ : BufTy).Contents (Elt F) → (⟨S600000x128, .f32⟩ : BufTy).Contents (Elt F)),
    StableHlo.binary main_v24 main_v26 main_v27 (addf : (⟨S600000x128, .f32⟩ : BufTy).Contents (Elt F) → (⟨S600000x128, .f32⟩ : BufTy).Contents (Elt F) → (⟨S600000x128, .f32⟩ : BufTy).Contents (Elt F)) ]

/-- The buffers stretch 2 writes. -/
abbrev seg2_written : List (Ref sig .tc) :=
  [ main_call0.cst.ref, main_call0.v0.ref, main_call0.v1.ref, main_v24, main_v25, main_v26, main_v27 ]

/-- Stretch 3: 7 operations. -/
abbrev seg3 : List (HloOp τ sig (Elt F)) :=
  [ StableHlo.TRef.nullary main_call1.cst (constant S_ .f32 0x00000000#32),
    StableHlo.TRef.unary main_call1.cst main_call1.v0 (broadcastInDim S600000x128 ![] bcast_S_S600000x128),
    StableHlo.TRef.binary (.of main_v27 : StableHlo.TRef sig ⟨S600000x128, .f32⟩) main_call1.v0 main_call1.v1 maximumf,
    StableHlo.binary main_v28 main_arg7 main_v29 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg8 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S600000x128 ![0, 1] bcast_S1x128_S600000x128_0_1 : (⟨S1x128, .f32⟩ : BufTy).Contents (Elt F) → (⟨S600000x128, .f32⟩ : BufTy).Contents (Elt F)),
    StableHlo.binary main_v29 main_v31 main_v32 (addf : (⟨S600000x128, .f32⟩ : BufTy).Contents (Elt F) → (⟨S600000x128, .f32⟩ : BufTy).Contents (Elt F) → (⟨S600000x128, .f32⟩ : BufTy).Contents (Elt F)) ]

/-- The buffers stretch 3 writes. -/
abbrev seg3_written : List (Ref sig .tc) :=
  [ main_call1.cst.ref, main_call1.v0.ref, main_call1.v1.ref, main_v29, main_v30, main_v31, main_v32 ]

/-- Stretch 4: 44 operations. -/
abbrev seg4 : List (HloOp τ sig (Elt F)) :=
  [ StableHlo.nullary main_cst (constant S_ .f32 0x00000000#32),
    StableHlo.binary main_v32 main_cst main_v33 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    StableHlo.unary main_v33 main_v34 (broadcastInDim S600000x1 ![0] bcast_S600000_S600000x1_0 : (⟨S600000, .f32⟩ : BufTy).Contents (Elt F) → (⟨S600000x1, .f32⟩ : BufTy).Contents (Elt F)),
    StableHlo.nullary main_cst_3 (constant S_ .f32 0x43000000#32),
    StableHlo.unary main_cst_3 main_v35 (broadcastInDim S600000x1 ![] bcast_S_S600000x1 : (⟨S_, .f32⟩ : BufTy).Contents (Elt F) → (⟨S600000x1, .f32⟩ : BufTy).Contents (Elt F)),
    StableHlo.binary main_v34 main_v35 main_v36 (Host.divf : (⟨S600000x1, .f32⟩ : BufTy).Contents (Elt F) → (⟨S600000x1, .f32⟩ : BufTy).Contents (Elt F) → (⟨S600000x1, .f32⟩ : BufTy).Contents (Elt F)),
    StableHlo.nullary main_c_4 (constantI S_ 32 0#32),
    StableHlo.TRef.nullary main_call2.cst (constant S_ .f32 0x00000000#32),
    StableHlo.TRef.binary (.of main_v32 : StableHlo.TRef sig ⟨S600000x128, .f32⟩) main_call2.cst main_call2.v0 (fun x v => Host.reduceAdd x v reducesTo_S600000x128_S600000_d1 h_S_),
    StableHlo.TRef.unary main_call2.v0 main_call2.v1 (broadcastInDim S600000x1 ![0] bcast_S600000_S600000x1_0),
    StableHlo.TRef.nullary main_call2.cst_0 (constant S_ .f32 0x43000000#32),
    StableHlo.TRef.unary main_call2.cst_0 main_call2.v2 (broadcastInDim S600000x1 ![] bcast_S_S600000x1),
    StableHlo.TRef.binary main_call2.v1 main_call2.v2 main_call2.v3 Host.divf,
    StableHlo.TRef.unary main_call2.v3 main_call2.v4 (broadcastInDim S600000x128 ![0, 1] bcast_S600000x1_S600000x128_0_1),
    StableHlo.TRef.binary (.of main_v32 : StableHlo.TRef sig ⟨S600000x128, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S600000x128_S600000_d1 h_S_),
    StableHlo.TRef.unary main_call2.v9 main_call2.v10 (broadcastInDim S600000x1 ![0] bcast_S600000_S600000x1_0),
    StableHlo.TRef.unary main_call2.v8 main_call2.v11 (broadcastInDim S600000x1 ![] bcast_S_S600000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S600000x1 ![] bcast_S_S600000x1),
    StableHlo.TRef.ternary main_call2.v13 main_call2.v12 main_call2.call0.v1 main_call2.call0.v2 (fun p a b => select (broadcastInDim S600000x1 ![] bcast_S_S600000x1 p) a b),
    StableHlo.unary main_v36 main_v38 (broadcastInDim S600000x128 ![0, 1] bcast_S600000x1_S600000x128_0_1 : (⟨S600000x1, .f32⟩ : BufTy).Contents (Elt F) → (⟨S600000x128, .f32⟩ : BufTy).Contents (Elt F)),
    StableHlo.binary main_v32 main_v38 main_v39 (subf : (⟨S600000x128, .f32⟩ : BufTy).Contents (Elt F) → (⟨S600000x128, .f32⟩ : BufTy).Contents (Elt F) → (⟨S600000x128, .f32⟩ : BufTy).Contents (Elt F)),
    StableHlo.nullary main_cst_5 (constant S_ .f32 0x3727C5AC#32),
    StableHlo.unary main_cst_5 main_v40 (broadcastInDim S600000x1 ![] bcast_S_S600000x1 : (⟨S_, .f32⟩ : BufTy).Contents (Elt F) → (⟨S600000x1, .f32⟩ : BufTy).Contents (Elt F)),
    StableHlo.binary main_v37 main_v40 main_v41 (addf : (⟨S600000x1, .f32⟩ : BufTy).Contents (Elt F) → (⟨S600000x1, .f32⟩ : BufTy).Contents (Elt F) → (⟨S600000x1, .f32⟩ : BufTy).Contents (Elt F)),
    StableHlo.unary main_v41 main_v42 (Host.rsqrt : (⟨S600000x1, .f32⟩ : BufTy).Contents (Elt F) → (⟨S600000x1, .f32⟩ : BufTy).Contents (Elt F)),
    StableHlo.unary main_v42 main_v43 (broadcastInDim S600000x128 ![0, 1] bcast_S600000x1_S600000x128_0_1 : (⟨S600000x1, .f32⟩ : BufTy).Contents (Elt F) → (⟨S600000x128, .f32⟩ : BufTy).Contents (Elt F)),
    StableHlo.binary main_v39 main_v43 main_v44 (mulf : (⟨S600000x128, .f32⟩ : BufTy).Contents (Elt F) → (⟨S600000x128, .f32⟩ : BufTy).Contents (Elt F) → (⟨S600000x128, .f32⟩ : BufTy).Contents (Elt F)),
    StableHlo.unary main_arg9 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S600000x128 ![0, 1] bcast_S1x128_S600000x128_0_1 : (⟨S1x128, .f32⟩ : BufTy).Contents (Elt F) → (⟨S600000x128, .f32⟩ : BufTy).Contents (Elt F)),
    StableHlo.binary main_v44 main_v46 main_v47 (mulf : (⟨S600000x128, .f32⟩ : BufTy).Contents (Elt F) → (⟨S600000x128, .f32⟩ : BufTy).Contents (Elt F) → (⟨S600000x128, .f32⟩ : BufTy).Contents (Elt F)),
    StableHlo.unary main_arg10 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S600000x128 ![0, 1] bcast_S1x128_S600000x128_0_1 : (⟨S1x128, .f32⟩ : BufTy).Contents (Elt F) → (⟨S600000x128, .f32⟩ : BufTy).Contents (Elt F)),
    StableHlo.binary main_v47 main_v49 main_v50 (addf : (⟨S600000x128, .f32⟩ : BufTy).Contents (Elt F) → (⟨S600000x128, .f32⟩ : BufTy).Contents (Elt F) → (⟨S600000x128, .f32⟩ : BufTy).Contents (Elt F)) ]

/-- The buffers stretch 4 writes. -/
abbrev seg4_written : List (Ref sig .tc) :=
  [ main_cst, main_v33, main_v34, main_cst_3, main_v35, main_v36, main_c_4, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v38, main_v39, main_cst_5, main_v40, main_v41, main_v42, main_v43, main_v44, main_v45, main_v46, main_v47, main_v48, main_v49, main_v50 ]

/-- Stretch 5: 4 operations. -/
abbrev seg5 : List (HloOp τ sig (Elt F)) :=
  [ StableHlo.nullary main_cst_6 (constant S_ .f32 0x00000000#32),
    StableHlo.unary main_cst_6 main_v51 (broadcastInDim S50000x128 ![] bcast_S_S50000x128 : (⟨S_, .f32⟩ : BufTy).Contents (Elt F) → (⟨S50000x128, .f32⟩ : BufTy).Contents (Elt F)),
    StableHlo.unary main_v3 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The buffers stretch 5 writes. -/
abbrev seg5_written : List (Ref sig .tc) :=
  [ main_cst_6, main_v51, main_v52, main_v53 ]

/-- Stretch 6: 5 operations. -/
abbrev seg6 : List (HloOp τ sig (Elt F)) :=
  [ StableHlo.binary main_arg0 main_v53 main_v54 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v54 main_arg11 main_v55 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v57 main_v58 (addf : (⟨S50000x128, .f32⟩ : BufTy).Contents (Elt F) → (⟨S50000x128, .f32⟩ : BufTy).Contents (Elt F) → (⟨S50000x128, .f32⟩ : BufTy).Contents (Elt F)) ]

/-- The buffers stretch 6 writes. -/
abbrev seg6_written : List (Ref sig .tc) :=
  [ main_v54, main_v55, main_v56, main_v57, main_v58 ]

/-- Stretch 7: 7 operations. -/
abbrev seg7 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v58 : StableHlo.TRef sig ⟨S50000x128, .f32⟩) main_call3.v0 main_call3.v1 maximumf,
    StableHlo.binary main_v59 main_arg13 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg14 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)) ]

/-- The buffers stretch 7 writes. -/
abbrev seg7_written : List (Ref sig .tc) :=
  [ main_call3.cst.ref, main_call3.v0.ref, main_call3.v1.ref, main_v60, main_v61, main_v62, main_v63 ]

/-- Stretch 8: 7 operations. -/
abbrev seg8 : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary (.of main_v63 : StableHlo.TRef sig ⟨S50000x128, .f32⟩) main_call4.v0 main_call4.v1 maximumf,
    StableHlo.binary main_v64 main_arg15 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg16 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v67 main_v68 (addf : (⟨S50000x128, .f32⟩ : BufTy).Contents (Elt F) → (⟨S50000x128, .f32⟩ : BufTy).Contents (Elt F) → (⟨S50000x128, .f32⟩ : BufTy).Contents (Elt F)) ]

/-- The buffers stretch 8 writes. -/
abbrev seg8_written : List (Ref sig .tc) :=
  [ main_call4.cst.ref, main_call4.v0.ref, main_call4.v1.ref, main_v65, main_v66, main_v67, main_v68 ]

/-- Stretch 9: 45 operations. -/
abbrev seg9 : List (HloOp τ sig (Elt F)) :=
  [ StableHlo.nullary main_cst_7 (constant S_ .f32 0x00000000#32),
    StableHlo.binary main_v68 main_cst_7 main_v69 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.nullary main_cst_8 (constant S_ .f32 0x43000000#32),
    StableHlo.unary main_cst_8 main_v71 (broadcastInDim S50000x1 ![] bcast_S_S50000x1 : (⟨S_, .f32⟩ : BufTy).Contents (Elt F) → (⟨S50000x1, .f32⟩ : BufTy).Contents (Elt F)),
    StableHlo.binary main_v70 main_v71 main_v72 (Host.divf : (⟨S50000x1, .f32⟩ : BufTy).Contents (Elt F) → (⟨S50000x1, .f32⟩ : BufTy).Contents (Elt F) → (⟨S50000x1, .f32⟩ : BufTy).Contents (Elt F)),
    StableHlo.nullary main_c_9 (constantI S_ 32 0#32),
    StableHlo.TRef.nullary main_call5.cst (constant S_ .f32 0x00000000#32),
    StableHlo.TRef.binary (.of main_v68 : StableHlo.TRef sig ⟨S50000x128, .f32⟩) main_call5.cst main_call5.v0 (fun x v => Host.reduceAdd x v reducesTo_S50000x128_S50000_d1 h_S_),
    StableHlo.TRef.unary main_call5.v0 main_call5.v1 (broadcastInDim S50000x1 ![0] bcast_S50000_S50000x1_0),
    StableHlo.TRef.nullary main_call5.cst_0 (constant S_ .f32 0x43000000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x128 ![0, 1] bcast_S50000x1_S50000x128_0_1),
    StableHlo.TRef.binary (.of main_v68 : StableHlo.TRef sig ⟨S50000x128, .f32⟩) main_call5.v4 main_call5.v5 subf,
    StableHlo.TRef.binary main_call5.v5 main_call5.v5 main_call5.v6 mulf,
    StableHlo.TRef.unary (.of main_c_9 : StableHlo.TRef sig ⟨S_, .i32⟩) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b),
    StableHlo.unary main_v72 main_v74 (broadcastInDim S50000x128 ![0, 1] bcast_S50000x1_S50000x128_0_1 : (⟨S50000x1, .f32⟩ : BufTy).Contents (Elt F) → (⟨S50000x128, .f32⟩ : BufTy).Contents (Elt F)),
    StableHlo.binary main_v68 main_v74 main_v75 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v76 (broadcastInDim S50000x1 ![] bcast_S_S50000x1 : (⟨S_, .f32⟩ : BufTy).Contents (Elt F) → (⟨S50000x1, .f32⟩ : BufTy).Contents (Elt F)),
    StableHlo.binary main_v73 main_v76 main_v77 (addf : (⟨S50000x1, .f32⟩ : BufTy).Contents (Elt F) → (⟨S50000x1, .f32⟩ : BufTy).Contents (Elt F) → (⟨S50000x1, .f32⟩ : BufTy).Contents (Elt F)),
    StableHlo.unary main_v77 main_v78 (Host.rsqrt : (⟨S50000x1, .f32⟩ : BufTy).Contents (Elt F) → (⟨S50000x1, .f32⟩ : BufTy).Contents (Elt F)),
    StableHlo.unary main_v78 main_v79 (broadcastInDim S50000x128 ![0, 1] bcast_S50000x1_S50000x128_0_1 : (⟨S50000x1, .f32⟩ : BufTy).Contents (Elt F) → (⟨S50000x128, .f32⟩ : BufTy).Contents (Elt F)),
    StableHlo.binary main_v75 main_v79 main_v80 (mulf : (⟨S50000x128, .f32⟩ : BufTy).Contents (Elt F) → (⟨S50000x128, .f32⟩ : BufTy).Contents (Elt F) → (⟨S50000x128, .f32⟩ : BufTy).Contents (Elt F)),
    StableHlo.unary main_arg17 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (mulf : (⟨S50000x128, .f32⟩ : BufTy).Contents (Elt F) → (⟨S50000x128, .f32⟩ : BufTy).Contents (Elt F) → (⟨S50000x128, .f32⟩ : BufTy).Contents (Elt F)),
    StableHlo.unary main_arg18 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    StableHlo.binary main_arg0 main_v86 main_v87 (addf : (⟨S50000x128, .f32⟩ : BufTy).Contents (Elt F) → (⟨S50000x128, .f32⟩ : BufTy).Contents (Elt F) → (⟨S50000x128, .f32⟩ : BufTy).Contents (Elt F)) ]

/-- The buffers stretch 9 writes. -/
abbrev seg9_written : List (Ref sig .tc) :=
  [ main_cst_7, main_v69, main_v70, main_cst_8, main_v71, main_v72, main_c_9, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.v12.ref, main_call5.cst_3.ref, main_call5.v13.ref, main_call5.cst_4.ref, main_call5.call0.v0.ref, main_call5.call0.v1.ref, main_call5.call0.v2.ref, main_v74, main_v75, main_cst_10, main_v76, main_v77, main_v78, main_v79, main_v80, main_v81, main_v82, main_v83, main_v84, main_v85, main_v86, main_v87 ]

/-- The list is its stretches, in order. -/
theorem ops_eq_segs : (ops : List (HloOp τ sig (Elt F))) = seg0 ++ seg1 ++ seg2 ++ seg3 ++ seg4 ++ seg5 ++ seg6 ++ seg7 ++ seg8 ++ seg9 := rfl

/-- An operation that writes one buffer of a list writes inside the list. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem seg0_writes : (seg0 : List (HloOp τ sig (Elt F))).Forall fun op => op.writes ⊆ ((seg0_written).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem seg1_writes : (seg1 : List (HloOp τ sig (Elt F))).Forall fun op => op.writes ⊆ ((seg1_written).map (Proc.devRef (τ := τ) .tc)).toFinset :=
  ⟨writes_mem (by decide), writes_mem (by decide), writes_mem (by decide), writes_mem (by decide), writes_mem (by decide)⟩

theorem seg2_writes : (seg2 : List (HloOp τ sig (Elt F))).Forall fun op => op.writes ⊆ ((seg2_written).map (Proc.devRef (τ := τ) .tc)).toFinset :=
  ⟨writes_mem (by decide), writes_mem (by decide), writes_mem (by decide), writes_mem (by decide), writes_mem (by decide), writes_mem (by decide), writes_mem (by decide)⟩

theorem seg3_writes : (seg3 : List (HloOp τ sig (Elt F))).Forall fun op => op.writes ⊆ ((seg3_written).map (Proc.devRef (τ := τ) .tc)).toFinset :=
  ⟨writes_mem (by decide), writes_mem (by decide), writes_mem (by decide), writes_mem (by decide), writes_mem (by decide), writes_mem (by decide), writes_mem (by decide)⟩

theorem seg4_writes : (seg4 : List (HloOp τ sig (Elt F))).Forall fun op => op.writes ⊆ ((seg4_written).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

theorem seg5_writes : (seg5 : List (HloOp τ sig (Elt F))).Forall fun op => op.writes ⊆ ((seg5_written).map (Proc.devRef (τ := τ) .tc)).toFinset :=
  ⟨writes_mem (by decide), writes_mem (by decide), writes_mem (by decide), writes_mem (by decide)⟩

theorem seg6_writes : (seg6 : List (HloOp τ sig (Elt F))).Forall fun op => op.writes ⊆ ((seg6_written).map (Proc.devRef (τ := τ) .tc)).toFinset :=
  ⟨writes_mem (by decide), writes_mem (by decide), writes_mem (by decide), writes_mem (by decide), writes_mem (by decide)⟩

theorem seg7_writes : (seg7 : List (HloOp τ sig (Elt F))).Forall fun op => op.writes ⊆ ((seg7_written).map (Proc.devRef (τ := τ) .tc)).toFinset :=
  ⟨writes_mem (by decide), writes_mem (by decide), writes_mem (by decide), writes_mem (by decide), writes_mem (by decide), writes_mem (by decide), writes_mem (by decide)⟩

theorem seg8_writes : (seg8 : List (HloOp τ sig (Elt F))).Forall fun op => op.writes ⊆ ((seg8_written).map (Proc.devRef (τ := τ) .tc)).toFinset :=
  ⟨writes_mem (by decide), writes_mem (by decide), writes_mem (by decide), writes_mem (by decide), writes_mem (by decide), writes_mem (by decide), writes_mem (by decide)⟩

theorem seg9_writes : (seg9 : List (HloOp τ sig (Elt F))).Forall fun op => op.writes ⊆ ((seg9_written).map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩

-- one bind per operation re-associated: the rewrite under the chain recurses once per statement
set_option maxRecDepth 8192 in
set_option maxHeartbeats 4000000 in
/-- @main is that straight line: the functions' definitions unfolded at their calls and the records at their fields. -/
theorem main_eq (c : Dev nD) : main (F := F) c = seq ops := by
  simp only [main, main_part0, main_part1, fn_relu.body, fn_where.body, fn_var.body, fn_relu_0.body, fn_where_2.body, fn_var_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
/-- On every device, for any float values, from any memory with zero counters: every weakly fair execution of @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.ReferenceReaders.lean ====
/-
  The reference's host operations read at ONE index, at the ideal values, for arrays of any number `n` of rows.

  Every layout operation of the reference (a vector broadcast along the rows, a column broadcast along the columns, a
  scalar splat, a row of the edge list sliced off and flattened, a concatenation along the columns) is a re-indexing:
  read at an index it is its operand at one computed index.  The host's sum along a row is the initial value plus the
  sum of the row's entries.  The single-precision word for 128 is read as the extended real it is, as far as the
  variance's guard needs: it is above zero.
-/
import proofs.«418581_j55173149884911_3_alg».proof.Proof.Gen.ReferenceIdeal
import proofs.«418581_j55173149884911_3_alg».proof.Proof.GraphBlock
import proofs.«418581_j55173149884911_3_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.GraphBlock
open scoped BigOperators

variable {α : Type} {n : Nat}

/-! ### Broadcasts -/

/-- A vector broadcast along the rows, read at an entry: the vector at the entry's column. -/
theorem bias_read (h1 : S128.BroadcastsInDim S1x128 ![1]) (h2 : S1x128.BroadcastsInDim ⟨2, ![n, 128]⟩ ![0, 1])
    (b : S128.Idx → α) (p : Fin n) (q : Fin 128) :
    broadcastInDim ⟨2, ![n, 128]⟩ ![0, 1] h2 (broadcastInDim S1x128 ![1] h1 b) (ix2 p q) = b (ix1 q) := by
  rw [broadcastInDim_apply _ _ _ (ix2 p q) (ix2 0 q) (fun a => match a with | ⟨0, _⟩ => rfl | ⟨1, _⟩ => rfl),
    broadcastInDim_apply _ _ _ (ix2 0 q) (ix1 q) (fun a => match a with | ⟨0, _⟩ => rfl)]

/-- A coordinate below `n` is zero when `n` is one: the broadcast rule's two cases agree on it. -/
theorem unit_or_self (p : Fin n) : p.val = if n = 1 then 0 else p.val := by
  split
  · have := p.isLt; omega
  · rfl

/-- A column broadcast along the columns, read at an entry: the column at the entry's row. -/
theorem col_read (h : (⟨2, ![n, 1]⟩ : Shape).BroadcastsInDim ⟨2, ![n, 128]⟩ ![0, 1]) (x : (⟨2, ![n, 1]⟩ : Shape).Idx → α)
    (p : Fin n) (q : Fin 128) : broadcastInDim ⟨2, ![n, 128]⟩ ![0, 1] h x (ix2 p q) = x (ix2 p 0) :=
  broadcastInDim_apply _ _ _ (ix2 p q) (ix2 p 0) (fun a => match a with | ⟨0, _⟩ => unit_or_self p | ⟨1, _⟩ => rfl)

/-- A vector stood up as a column, read at a row. -/
theorem up_read (h : (⟨1, ![n]⟩ : Shape).BroadcastsInDim ⟨2, ![n, 1]⟩ ![0]) (x : (⟨1, ![n]⟩ : Shape).Idx → α)
    (p : Fin n) (z : Fin 1) : broadcastInDim ⟨2, ![n, 1]⟩ ![0] h x (ix2 p z) = x (ix1 p) :=
  broadcastInDim_apply _ _ _ (ix2 p z) (ix1 p) (fun a => match a with | ⟨0, _⟩ => unit_or_self p)

/-- A scalar splat over any shape. -/
theorem splat_read {t : Shape} (h : S_.BroadcastsInDim t ![]) (c : S_.Idx → α) (j : t.Idx) :
    broadcastInDim t ![] h c j = c ix0 :=
  broadcastInDim_apply _ _ _ j ix0 (fun a => a.elim0)

/-! ### The sum along a row -/

/-- The host's sum along a row: the initial value plus the sum of the row's 128 entries. -/
theorem rowsum_read (h' : (⟨2, ![n, 128]⟩ : Shape).ReducesTo [1] ⟨1, ![n]⟩) (h : (⟨2, ![n, 128]⟩ : Shape).Reduces [1] ⟨1, ![n]⟩)
    (hu : 0 < S_.numel) (x : (⟨2, ![n, 128]⟩ : Shape).Idx → EReal) (init : S_.Idx → EReal) (p : Fin n) :
    Host.reduceAdd (F := Ideal) (φ := .f32) x init h' hu (ix1 p) = init ix0 + ∑ k : Fin 128, x (ix2 p k) := by
  unfold Host.reduceAdd
  rw [Ideal.hostReduceAdd_def, Ideal.hostReduceAdd_single h' h]
  refine congrArg₂ (· + ·) (congrArg init (eq_ix0 _)) (Finset.sum_congr rfl fun k _ => congrArg x ?_)
  funext a
  match a with
  | ⟨0, _⟩ => exact Fin.ext rfl
  | ⟨1, _⟩ => exact Fin.ext rfl

/-! ### The edge list -/

/-- Row `r` of the edge list, sliced off and flattened, read at an edge. -/
theorem row_read (o : Nat) (r : Fin 2) (hr : r.val = o) (ei : S2x600000.Idx → α) (hs : S2x600000.Slices ![o, 0] S1x600000)
    (p : Fin 600000) :
    shapeCast S600000 (extractStridedSlice S1x600000 ![o, 0] ei hs) shapeCasts_S1x600000_S600000 (ix1 p) = ei (ix2 r p) := by
  rw [shapeCast_apply _ _ (ix1 p) (ix2 0 p) (by rw [Shape.rowMajor_val_two, Shape.rowMajor_val_one]; simp),
    extractStridedSlice_apply (s := S2x600000) (t := S1x600000) ![o, 0] ei hs (ix2 0 p) (ix2 r p)
      (fun a => match a with | ⟨0, _⟩ => hr | ⟨1, _⟩ => (Nat.zero_add _).symm)]

/-! ### The concatenations -/

/-- The three-piece concatenation along the columns, read in its first, second and third block of 128 columns. -/
theorem cat3_0 (a b c : S600000x128.Idx → α) (p : Fin 600000) (k : Fin 128) :
    concatenate S600000x384 1 [⟨S600000x128, a⟩, ⟨S600000x128, b⟩, ⟨S600000x128, c⟩]
        concatenates_S600000x128_S600000x128_S600000x128_S600000x384_d1 (ix2 p ⟨k.val, by have := k.isLt; omega⟩) = a (ix2 p k) :=
  concatenate_apply_piece (t := S600000x384) 1 [⟨S600000x128, a⟩, ⟨S600000x128, b⟩, ⟨S600000x128, c⟩] concatenates_S600000x128_S600000x128_S600000x128_S600000x384_d1 _ 0 (by simp) S600000x128 a rfl rfl 0 rfl (ix2 p k)
    (fun b hb => match b with | ⟨0, _⟩ => rfl | ⟨1, _⟩ => absurd rfl hb) (Nat.zero_add _)
theorem cat3_1 (a b c : S600000x128.Idx → α) (p : Fin 600000) (k : Fin 128) :
    concatenate S600000x384 1 [⟨S600000x128, a⟩, ⟨S600000x128, b⟩, ⟨S600000x128, c⟩]
        concatenates_S600000x128_S600000x128_S600000x128_S600000x384_d1 (ix2 p ⟨128 + k.val, by have := k.isLt; omega⟩) = b (ix2 p k) :=
  concatenate_apply_piece (t := S600000x384) 1 [⟨S600000x128, a⟩, ⟨S600000x128, b⟩, ⟨S600000x128, c⟩] concatenates_S600000x128_S600000x128_S600000x128_S600000x384_d1 _ 1 (by simp) S600000x128 b rfl rfl 128 rfl (ix2 p k)
    (fun b hb => match b with | ⟨0, _⟩ => rfl | ⟨1, _⟩ => absurd rfl hb) rfl
theorem cat3_2 (a b c : S600000x128.Idx → α) (p : Fin 600000) (k : Fin 128) :
    concatenate S600000x384 1 [⟨S600000x128, a⟩, ⟨S600000x128, b⟩, ⟨S600000x128, c⟩]
        concatenates_S600000x128_S600000x128_S600000x128_S600000x384_d1 (ix2 p ⟨256 + k.val, by have := k.isLt; omega⟩) = c (ix2 p k) :=
  concatenate_apply_piece (t := S600000x384) 1 [⟨S600000x128, a⟩, ⟨S600000x128, b⟩, ⟨S600000x128, c⟩] concatenates_S600000x128_S600000x128_S600000x128_S600000x384_d1 _ 2 (by simp) S600000x128 c rfl rfl 256 rfl (ix2 p k)
    (fun b hb => match b with | ⟨0, _⟩ => rfl | ⟨1, _⟩ => absurd rfl hb) rfl

/-- The two-piece concatenation along the columns, read in its first and second half. -/
theorem cat2_0 (a b : S50000x128.Idx → α) (p : Fin 50000) (k : Fin 128) :
    concatenate S50000x256 1 [⟨S50000x128, a⟩, ⟨S50000x128, b⟩]
        concatenates_S50000x128_S50000x128_S50000x256_d1 (ix2 p ⟨k.val, by have := k.isLt; omega⟩) = a (ix2 p k) :=
  concatenate_apply_piece (t := S50000x256) 1 [⟨S50000x128, a⟩, ⟨S50000x128, b⟩] concatenates_S50000x128_S50000x128_S50000x256_d1 _ 0 (by simp) S50000x128 a rfl rfl 0 rfl (ix2 p k)
    (fun b hb => match b with | ⟨0, _⟩ => rfl | ⟨1, _⟩ => absurd rfl hb) (Nat.zero_add _)
theorem cat2_1 (a b : S50000x128.Idx → α) (p : Fin 50000) (k : Fin 128) :
    concatenate S50000x256 1 [⟨S50000x128, a⟩, ⟨S50000x128, b⟩]
        concatenates_S50000x128_S50000x128_S50000x256_d1 (ix2 p ⟨128 + k.val, by have := k.isLt; omega⟩) = b (ix2 p k) :=
  concatenate_apply_piece (t := S50000x256) 1 [⟨S50000x128, a⟩, ⟨S50000x128, b⟩] concatenates_S50000x128_S50000x128_S50000x256_d1 _ 1 (by simp) S50000x128 b rfl rfl 128 rfl (ix2 p k)
    (fun b hb => match b with | ⟨0, _⟩ => rfl | ⟨1, _⟩ => absurd rfl hb) rfl

/-! ### The word for 128 -/

/-- The single-precision word 0x43000000 is the real 128. -/
theorem width32_eq : width32 = ((128 : ℝ) : EReal) := by
  unfold width32
  simp [Ideal.ofBits, Ideal.ieee, -EReal.coe_mul]
  norm_num

/-- It is above zero. -/
theorem width32_pos : (0 : EReal) < width32 := by
  rw [width32_eq]
  exact_mod_cast (by norm_num : (0 : ℝ) < 128)

/-- The zero word is the real zero. -/
theorem zero32_eq : zero32 = 0 := Ideal.ofBits_zero_f32

end Cert.ReferenceIdeal.RefValue

end
-- ==== Proof.ReferenceValue.lean ====
/-
  The reference's run, read as the specification's round of message passing.

  The reference's operations are cut into ten consecutive stretches.  For each stretch the buffer it is run for is
  first written as ONE term of the buffers the stretch reads (the fold of the stretch's operations, read back), and
  that term is then read at an entry: a perceptron layer is the rectified row times the weights plus the bias; the
  first layer of either perceptron, a product with a concatenated row, is the sum of the products with the stacked
  blocks (a finite sum splits at any point); the normalisation, with the variance function's guard decided by the one
  literal fact that the word for 128 is above zero, is the specification's layer normalisation; and where no edge index
  is negative the wrap of negative indices before the two gathers is the identity.  The layer lemmas are stated once, for
  arrays of any number of rows.  A buffer a stretch does not write keeps its contents, which is how a stretch finds the
  arguments and the earlier stretches' results; the gathers and the summing over incoming edges are never opened.
-/
import proofs.«418581_j55173149884911_3_alg».proof.Proof.ReferenceRun
import proofs.«418581_j55173149884911_3_alg».proof.Proof.GraphBlock
import proofs.«418581_j55173149884911_3_alg».proof.Proof.LibPlainProduct
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«418581_j55173149884911_3_alg».proof.Proof.ReferenceReaders

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx Cert.GraphBlock
open scoped BigOperators

/-- The fold over a concatenation is the folds one after the other. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-! ## The layers, for arrays of any number of rows -/

section Layers

variable {n : Nat}

/-- A perceptron layer after a rectifier: the rectified row times the weights, plus the bias. -/
theorem layer_read (d : DotDims ⟨2, ![n, 128]⟩ ⟨2, ![128, 128]⟩ ⟨2, ![n, 128]⟩) (hd : Cert.Dots.IsPlain d)
    (h0 : S_.BroadcastsInDim ⟨2, ![n, 128]⟩ ![]) (h1 : S128.BroadcastsInDim S1x128 ![1])
    (h2 : S1x128.BroadcastsInDim ⟨2, ![n, 128]⟩ ![0, 1]) (x : Arr n 128) (w : Arr 128 128) (b : Vec1) (p : Fin n) (q : Fin 128) :
    addf (F := Ideal) (φ := .f32)
        (Host.dotGeneral (F := Ideal) (φ₁ := .f32) (φ₂ := .f32) d none
          (maximumf (F := Ideal) (φ := .f32) x (broadcastInDim ⟨2, ![n, 128]⟩ ![] h0 (constant (F := Ideal) S_ .f32 0x00000000#32))) w)
        (broadcastInDim ⟨2, ![n, 128]⟩ ![0, 1] h2 (broadcastInDim S1x128 ![1] h1 b)) (ix2 p q)
      = affine (relu (rowAt x p)) (block w 0 (by decide)) (vecRow b) q := by
  rw [addf_apply, bias_read]
  unfold Host.dotGeneral
  rw [Cert.Dots.dotGeneral_plain hd]
  unfold affine relu rowAt block vecRow zero32
  refine congrArg₂ (· + ·) (Finset.sum_congr rfl fun k _ => ?_) rfl
  rw [maximumf_apply, splat_read, constant_apply]
  simp only [Nat.zero_add, Fin.eta]

end Layers

/-! ## The normalisation, for arrays of any number of rows -/

section Norm

variable {n : Nat}
  (hR' : (⟨2, ![n, 128]⟩ : Shape).ReducesTo [1] ⟨1, ![n]⟩) (hu : 0 < S_.numel)
  (hUp : (⟨1, ![n]⟩ : Shape).BroadcastsInDim ⟨2, ![n, 1]⟩ ![0])
  (hS1 : S_.BroadcastsInDim ⟨2, ![n, 1]⟩ ![])
  (hCol : (⟨2, ![n, 1]⟩ : Shape).BroadcastsInDim ⟨2, ![n, 128]⟩ ![0, 1])
  (h1 : S128.BroadcastsInDim S1x128 ![1]) (h2 : S1x128.BroadcastsInDim ⟨2, ![n, 128]⟩ ![0, 1])

/-- The column of row means as the reference computes it: the row sums stood up as a column, over a column of 128s. -/
def meanCol (X : Arr n 128) : (⟨2, ![n, 1]⟩ : Shape).Idx → EReal :=
  Host.divf (F := Ideal) (φ := .f32)
    (broadcastInDim ⟨2, ![n, 1]⟩ ![0] hUp
      (Host.reduceAdd (F := Ideal) (φ := .f32) X (constant (F := Ideal) S_ .f32 0x00000000#32) hR' hu))
    (broadcastInDim ⟨2, ![n, 1]⟩ ![] hS1 (constant (F := Ideal) S_ .f32 0x43000000#32))

/-- The array less its row means. -/
def centredArr (X : Arr n 128) : Arr n 128 :=
  subf (F := Ideal) (φ := .f32) X (broadcastInDim ⟨2, ![n, 128]⟩ ![0, 1] hCol (meanCol hR' hu hUp hS1 X))

/-- The divisor of the variance as the reference computes it: 128 less the float of the integer zero. -/
def varDivisor : S_.Idx → EReal :=
  subf (F := Ideal) (φ := .f32) (constant (F := Ideal) S_ .f32 0x43000000#32) (sitofp (F := Ideal) .f32 (constantI S_ 32 0#32))

/-- The column of row variances as the reference computes it: the row sums of the squared centred array over the
    divisor, kept where the divisor is above zero and a not-a-number word elsewhere. -/
def varCol (X : Arr n 128) : (⟨2, ![n, 1]⟩ : Shape).Idx → EReal :=
  select
    (broadcastInDim ⟨2, ![n, 1]⟩ ![] hS1 (cmpf (F := Ideal) (φ := .f32) .ogt varDivisor (constant (F := Ideal) S_ .f32 0x00000000#32)))
    (Host.divf (F := Ideal) (φ := .f32)
      (broadcastInDim ⟨2, ![n, 1]⟩ ![0] hUp
        (Host.reduceAdd (F := Ideal) (φ := .f32)
          (mulf (F := Ideal) (φ := .f32) (centredArr hR' hu hUp hS1 hCol X) (centredArr hR' hu hUp hS1 hCol X))
          (constant (F := Ideal) S_ .f32 0x00000000#32) hR' hu))
      (broadcastInDim ⟨2, ![n, 1]⟩ ![] hS1 varDivisor))
    (broadcastInDim ⟨2, ![n, 1]⟩ ![] hS1 (constant (F := Ideal) S_ .f32 0x7FC00000#32))

/-- The normalisation as the reference computes it. -/
def lnTerm (X : Arr n 128) (g b : Vec1) : Arr n 128 :=
  addf (F := Ideal) (φ := .f32)
    (mulf (F := Ideal) (φ := .f32)
      (mulf (F := Ideal) (φ := .f32)
        (subf (F := Ideal) (φ := .f32) X (broadcastInDim ⟨2, ![n, 128]⟩ ![0, 1] hCol (meanCol hR' hu hUp hS1 X)))
        (broadcastInDim ⟨2, ![n, 128]⟩ ![0, 1] hCol
          (Host.rsqrt (F := Ideal) (φ := .f32)
            (addf (F := Ideal) (φ := .f32) (varCol hR' hu hUp hS1 hCol X)
              (broadcastInDim ⟨2, ![n, 1]⟩ ![] hS1 (constant (F := Ideal) S_ .f32 0x3727C5AC#32))))))
      (broadcastInDim ⟨2, ![n, 128]⟩ ![0, 1] h2 (broadcastInDim S1x128 ![1] h1 g)))
    (broadcastInDim ⟨2, ![n, 128]⟩ ![0, 1] h2 (broadcastInDim S1x128 ![1] h1 b))

/-- The mean column at a row: the row's sum over 128. -/
theorem meanCol_read (hR : (⟨2, ![n, 128]⟩ : Shape).Reduces [1] ⟨1, ![n]⟩) (X : Arr n 128) (p : Fin n) (z : Fin 1) :
    meanCol hR' hu hUp hS1 X (ix2 p z) = Ideal.div (∑ k, X (ix2 p k)) width32 := by
  unfold meanCol Host.divf
  rw [Ideal.hostDivf_def, up_read, rowsum_read hR' hR, splat_read, constant_apply, constant_apply, Ideal.ofBits_zero_f32, zero_add]
  rfl

/-- The centred array at an entry: the row less its mean. -/
theorem centredArr_read (hR : (⟨2, ![n, 128]⟩ : Shape).Reduces [1] ⟨1, ![n]⟩) (X : Arr n 128) (p : Fin n) (q : Fin 128) :
    centredArr hR' hu hUp hS1 hCol X (ix2 p q) = centred (rowAt X p) q := by
  unfold centredArr
  rw [subf_apply, col_read, meanCol_read hR' hu hUp hS1 hR]
  rfl

/-- The divisor is the word for 128. -/
theorem varDivisor_eq : varDivisor ix0 = width32 := by
  unfold varDivisor
  rw [subf_apply, constant_apply, sitofp_apply]
  show width32 - ((((0#32 : BitVec 32).toInt : ℝ)) : EReal) = width32
  simp

/-- The variance column at a row: the mean of the squared centred row. -/
theorem varCol_read (hR : (⟨2, ![n, 128]⟩ : Shape).Reduces [1] ⟨1, ![n]⟩) (X : Arr n 128) (p : Fin n) (z : Fin 1) :
    varCol hR' hu hUp hS1 hCol X (ix2 p z)
      = Ideal.div (∑ k, centred (rowAt X p) k * centred (rowAt X p) k) width32 := by
  unfold varCol
  rw [select_apply, splat_read, cmpf_apply, varDivisor_eq, constant_apply, Ideal.ofBits_zero_f32, Ideal.cmpf_def]
  have hg : Ideal.cmp .ogt width32 0 = 1#1 := by
    unfold Ideal.cmp
    simp [width32_pos]
  rw [hg, select_one]
  unfold Host.divf
  rw [Ideal.hostDivf_def, up_read, rowsum_read hR' hR, splat_read, varDivisor_eq, constant_apply, Ideal.ofBits_zero_f32, zero_add]
  refine congrArg₂ Ideal.div (Finset.sum_congr rfl fun k _ => ?_) rfl
  rw [mulf_apply, centredArr_read hR' hu hUp hS1 hCol hR]

/-- The reference's normalisation at an entry is the specification's layer normalisation of the row. -/
theorem lnTerm_read (hR : (⟨2, ![n, 128]⟩ : Shape).Reduces [1] ⟨1, ![n]⟩) (X : Arr n 128) (g b : Vec1) (p : Fin n) (q : Fin 128) :
    lnTerm hR' hu hUp hS1 hCol h1 h2 X g b (ix2 p q) = layerNorm (rowAt X p) (vecRow g) (vecRow b) q := by
  unfold lnTerm
  rw [addf_apply, mulf_apply, mulf_apply, bias_read, bias_read, col_read]
  unfold Host.rsqrt
  rw [Ideal.hostUnary_rsqrt_def, addf_apply, varCol_read hR' hu hUp hS1 hCol hR, splat_read, constant_apply]
  have hc := centredArr_read hR' hu hUp hS1 hCol hR X p q
  unfold centredArr at hc
  rw [hc]
  rfl

end Norm

/-! ## The two first layers -/

/-- The edge perceptron's first layer: the concatenated row against the stacked weights is the three rows against
    the three blocks. -/
theorem edgePre_read (a b c : Arr 600000 128) (W : Arr 384 128) (b0 : Vec1) (p : Fin 600000) (q : Fin 128) :
    addf (F := Ideal) (φ := .f32)
        (Host.dotGeneral (F := Ideal) (φ₁ := .f32) (φ₂ := .f32) dot_S600000x384_S384x128_S600000x128_1_0_0_1_n_n none (concatenate S600000x384 1 [⟨S600000x128, a⟩, ⟨S600000x128, b⟩, ⟨S600000x128, c⟩]
            concatenates_S600000x128_S600000x128_S600000x128_S600000x384_d1) W)
        (broadcastInDim S600000x128 ![0, 1] bcast_S1x128_S600000x128_0_1 (broadcastInDim S1x128 ![1] bcast_S128_S1x128_1 b0)) (ix2 p q)
      = edgePre (rowAt a p) (rowAt b p) (rowAt c p) (block W 0 (by decide)) (block W 128 (by decide)) (block W 256 (by decide))
          (vecRow b0) q := by
  rw [addf_apply, bias_read]
  unfold Host.dotGeneral
  rw [Cert.Dots.dotGeneral_plain (d := dot_S600000x384_S384x128_S600000x128_1_0_0_1_n_n) ⟨rfl, rfl, rfl, rfl, rfl, rfl⟩, sum_three_blocks]
  unfold edgePre rowAt block vecRow
  simp only [cat3_0, cat3_1, cat3_2, Nat.zero_add]

/-- The node perceptron's first layer likewise, with two blocks. -/
theorem nodePre_read (a b : Arr 50000 128) (W : Arr 256 128) (b0 : Vec1) (p : Fin 50000) (q : Fin 128) :
    addf (F := Ideal) (φ := .f32)
        (Host.dotGeneral (F := Ideal) (φ₁ := .f32) (φ₂ := .f32) dot_S50000x256_S256x128_S50000x128_1_0_0_1_n_n none (concatenate S50000x256 1 [⟨S50000x128, a⟩, ⟨S50000x128, b⟩]
            concatenates_S50000x128_S50000x128_S50000x256_d1) W)
        (broadcastInDim S50000x128 ![0, 1] bcast_S1x128_S50000x128_0_1 (broadcastInDim S1x128 ![1] bcast_S128_S1x128_1 b0)) (ix2 p q)
      = nodePre (rowAt a p) (rowAt b p) (block W 0 (by decide)) (block W 128 (by decide)) (vecRow b0) q := by
  rw [addf_apply, bias_read]
  unfold Host.dotGeneral
  rw [Cert.Dots.dotGeneral_plain (d := dot_S50000x256_S256x128_S50000x128_1_0_0_1_n_n) ⟨rfl, rfl, rfl, rfl, rfl, rfl⟩, sum_two_blocks]
  unfold nodePre rowAt block vecRow
  simp only [cat2_0, cat2_1, Nat.zero_add]

/-! ## The edge list's rows as start indices -/

/-- Row `o` of the edge list, sliced off and flattened. -/
def rowFlat (o : Nat) (hs : S2x600000.Slices ![o, 0] S1x600000) (ei : S2x600000.Idx → BitVec 32) : S600000.Idx → BitVec 32 :=
  shapeCast S600000 (extractStridedSlice S1x600000 ![o, 0] ei hs) shapeCasts_S1x600000_S600000

/-- The reference's wrap of negative indices: an index below zero has the node count added. -/
def wrapIdx (R : S600000.Idx → BitVec 32) : S600000.Idx → BitVec 32 :=
  select (cmpi .slt R (broadcastInDim S600000 ![] bcast_S_S600000 (constantI S_ 32 0#32)))
    (addi R (broadcastInDim S600000 ![] bcast_S_S600000 (constantI S_ 32 50000#32))) R

/-- Where no index is negative the wrap is the identity. -/
theorem wrapIdx_eq (R : S600000.Idx → BitVec 32) (hneg : ∀ i, (R i).slt 0#32 = false) : wrapIdx R = R := by
  funext i
  unfold wrapIdx
  rw [select_apply]
  have h0 : cmpi .slt R (broadcastInDim S600000 ![] bcast_S_S600000 (constantI S_ 32 0#32)) i = 0#1 := by
    show IntOp.cmpi .slt (R i) (broadcastInDim S600000 ![] bcast_S_S600000 (constantI S_ 32 0#32) i) = 0#1
    rw [splat_read]
    show BitVec.ofBool ((R i).slt 0#32) = 0#1
    rw [hneg i]
    rfl
  rw [h0, select_zero]

/-- A flattened row stood up as a column is the specification's column of start indices. -/
theorem rowFlat_column (o : Nat) (r : Fin 2) (hr : r.val = o) (hs : S2x600000.Slices ![o, 0] S1x600000) (ei : Edges) :
    broadcastInDim S600000x1 ![0] bcast_S600000_S600000x1_0 (rowFlat o hs ei) = column r ei := by
  funext i
  obtain ⟨p, z, rfl⟩ : ∃ (p : Fin 600000) (z : Fin 1), i = ix2 p z := ⟨i 0, i 1, eq_ix2 i⟩
  rw [up_read]
  unfold rowFlat
  rw [row_read o r hr]
  rfl

/-- A flattened row of an edge list with no negative entry has no negative entry. -/
theorem rowFlat_nonneg (o : Nat) (r : Fin 2) (hr : r.val = o) (hs : S2x600000.Slices ![o, 0] S1x600000) (ei : Edges)
    (hidx : ∀ i, (ei i).slt 0#32 = false) (i : S600000.Idx) : (rowFlat o hs ei i).slt 0#32 = false := by
  obtain ⟨p, rfl⟩ : ∃ p : Fin 600000, i = ix1 p := ⟨i 0, eq_ix1 i⟩
  unfold rowFlat
  rw [row_read o r hr]
  exact hidx _

/-- The zero splat the summing over incoming edges starts from. -/
theorem zero_splat : broadcastInDim S50000x128 ![] bcast_S_S50000x128 (constant (F := Ideal) S_ .f32 0x00000000#32) = fun _ => zero32 := by
  funext j
  rw [splat_read, constant_apply]
  rfl

/-! ## The stretches -/

/-- The ten stretches at the ideal values, under names of their own. -/
def S0 : List (HloOp τ sig (Elt Ideal)) := seg0
def S1 : List (HloOp τ sig (Elt Ideal)) := seg1
def S2 : List (HloOp τ sig (Elt Ideal)) := seg2
def S3 : List (HloOp τ sig (Elt Ideal)) := seg3
def S4 : List (HloOp τ sig (Elt Ideal)) := seg4
def S5 : List (HloOp τ sig (Elt Ideal)) := seg5
def S6 : List (HloOp τ sig (Elt Ideal)) := seg6
def S7 : List (HloOp τ sig (Elt Ideal)) := seg7
def S8 : List (HloOp τ sig (Elt Ideal)) := seg8
def S9 : List (HloOp τ sig (Elt Ideal)) := seg9

theorem ops_eq : (ops : List (HloOp τ sig (Elt Ideal))) = S0 ++ S1 ++ S2 ++ S3 ++ S4 ++ S5 ++ S6 ++ S7 ++ S8 ++ S9 := ops_eq_segs

/-- A buffer a stretch does not write keeps its contents. -/
theorem frame0 (V : Valuation τ sig (Elt Ideal)) {r : Ref sig .tc} (hr : r ∉ seg0_written) :
    after S0 V (no_index (Proc.devRef .tc r)) = V (Proc.devRef .tc r) := after_of_writes_sub _ V seg0_writes hr
theorem frame1 (V : Valuation τ sig (Elt Ideal)) {r : Ref sig .tc} (hr : r ∉ seg1_written) :
    after S1 V (no_index (Proc.devRef .tc r)) = V (Proc.devRef .tc r) := after_of_writes_sub _ V seg1_writes hr
theorem frame2 (V : Valuation τ sig (Elt Ideal)) {r : Ref sig .tc} (hr : r ∉ seg2_written) :
    after S2 V (no_index (Proc.devRef .tc r)) = V (Proc.devRef .tc r) := after_of_writes_sub _ V seg2_writes hr
theorem frame3 (V : Valuation τ sig (Elt Ideal)) {r : Ref sig .tc} (hr : r ∉ seg3_written) :
    after S3 V (no_index (Proc.devRef .tc r)) = V (Proc.devRef .tc r) := after_of_writes_sub _ V seg3_writes hr
theorem frame4 (V : Valuation τ sig (Elt Ideal)) {r : Ref sig .tc} (hr : r ∉ seg4_written) :
    after S4 V (no_index (Proc.devRef .tc r)) = V (Proc.devRef .tc r) := after_of_writes_sub _ V seg4_writes hr
theorem frame5 (V : Valuation τ sig (Elt Ideal)) {r : Ref sig .tc} (hr : r ∉ seg5_written) :
    after S5 V (no_index (Proc.devRef .tc r)) = V (Proc.devRef .tc r) := after_of_writes_sub _ V seg5_writes hr
theorem frame6 (V : Valuation τ sig (Elt Ideal)) {r : Ref sig .tc} (hr : r ∉ seg6_written) :
    after S6 V (no_index (Proc.devRef .tc r)) = V (Proc.devRef .tc r) := after_of_writes_sub _ V seg6_writes hr
theorem frame7 (V : Valuation τ sig (Elt Ideal)) {r : Ref sig .tc} (hr : r ∉ seg7_written) :
    after S7 V (no_index (Proc.devRef .tc r)) = V (Proc.devRef .tc r) := after_of_writes_sub _ V seg7_writes hr
theorem frame8 (V : Valuation τ sig (Elt Ideal)) {r : Ref sig .tc} (hr : r ∉ seg8_written) :
    after S8 V (no_index (Proc.devRef .tc r)) = V (Proc.devRef .tc r) := after_of_writes_sub _ V seg8_writes hr
theorem frame9 (V : Valuation τ sig (Elt Ideal)) {r : Ref sig .tc} (hr : r ∉ seg9_written) :
    after S9 V (no_index (Proc.devRef .tc r)) = V (Proc.devRef .tc r) := after_of_writes_sub _ V seg9_writes hr

/-! ### Stretch 0: the two gathers -/

/-- The three buffers later stretches read, each as one term of the arguments. -/
theorem S0_term (V : Valuation τ sig (Elt Ideal)) :
    after S0 V (main_v10 : DevRef τ sig)
        = Host.gather gather_S50000x128_S600000x1_S600000x128_1_0_n_n_0_1_1128 (V (main_arg0 : DevRef τ sig))
            (broadcastInDim S600000x1 ![0] bcast_S600000_S600000x1_0 (wrapIdx (rowFlat 1 slices_S2x600000_S1x600000_1_0 (V (main_arg2 : DevRef τ sig)))))
      ∧ after S0 V (main_v17 : DevRef τ sig)
        = Host.gather gather_S50000x128_S600000x1_S600000x128_1_0_n_n_0_1_1128 (V (main_arg0 : DevRef τ sig))
            (broadcastInDim S600000x1 ![0] bcast_S600000_S600000x1_0 (wrapIdx (rowFlat 0 slices_S2x600000_S1x600000_0_0 (V (main_arg2 : DevRef τ sig)))))
      ∧ after S0 V (main_v3 : DevRef τ sig) = rowFlat 1 slices_S2x600000_S1x600000_1_0 (V (main_arg2 : DevRef τ sig)) := by
  refine ⟨?_, ?_, ?_⟩
  · show after (seg0 (F := Ideal)) V _ = _
    after_results_simp
    rfl
  · show after (seg0 (F := Ideal)) V _ = _
    after_results_simp
    rfl
  · show after (seg0 (F := Ideal)) V _ = _
    after_results_simp
    rfl

/-- Where no edge index is negative: the destination rows, the source rows, and the destinations as a column. -/
theorem S0_read (V : Valuation τ sig (Elt Ideal)) (hidx : ∀ i, (((V (main_arg2 : DevRef τ sig)) : Edges) i).slt 0#32 = false) :
    after S0 V (main_v10 : DevRef τ sig)
        = Host.gather gather_S50000x128_S600000x1_S600000x128_1_0_n_n_0_1_1128 (V (main_arg0 : DevRef τ sig)) (column 1 (V (main_arg2 : DevRef τ sig)))
      ∧ after S0 V (main_v17 : DevRef τ sig)
        = Host.gather gather_S50000x128_S600000x1_S600000x128_1_0_n_n_0_1_1128 (V (main_arg0 : DevRef τ sig)) (column 0 (V (main_arg2 : DevRef τ sig)))
      ∧ broadcastInDim S600000x1 ![0] bcast_S600000_S600000x1_0 (after S0 V (main_v3 : DevRef τ sig)) = column 1 (V (main_arg2 : DevRef τ sig)) := by
  obtain ⟨h10, h17, h3⟩ := S0_term V
  rw [h10, h17, h3, wrapIdx_eq _ (rowFlat_nonneg 1 1 rfl _ _ hidx), wrapIdx_eq _ (rowFlat_nonneg 0 0 rfl _ _ hidx),
    rowFlat_column 1 1 rfl, rowFlat_column 0 0 rfl]
  exact ⟨rfl, rfl, rfl⟩

/-! ### Stretch 1: the edge perceptron's first layer -/

theorem S1_term (V : Valuation τ sig (Elt Ideal)) :
    after S1 V (main_v22 : DevRef τ sig)
      = addf (F := Ideal) (φ := .f32)
          (Host.dotGeneral (F := Ideal) (φ₁ := .f32) (φ₂ := .f32) dot_S600000x384_S384x128_S600000x128_1_0_0_1_n_n none (concatenate S600000x384 1 [⟨S600000x128, (V (main_v10 : DevRef τ sig))⟩, ⟨S600000x128, (V (main_v17 : DevRef τ sig))⟩, ⟨S600000x128, (V (main_arg1 : DevRef τ sig))⟩]
              concatenates_S600000x128_S600000x128_S600000x128_S600000x384_d1) (V (main_arg3 : DevRef τ sig)))
          (broadcastInDim S600000x128 ![0, 1] bcast_S1x128_S600000x128_0_1 (broadcastInDim S1x128 ![1] bcast_S128_S1x128_1 (V (main_arg4 : DevRef τ sig)))) := by
  show after (seg1 (F := Ideal)) V _ = _
  after_results_simp
  rfl

theorem S1_row (V : Valuation τ sig (Elt Ideal)) (p : Fin 600000) :
    rowAt (n := 600000) (after S1 V (main_v22 : DevRef τ sig)) p
      = edgePre (rowAt (n := 600000) (V (main_v10 : DevRef τ sig)) p) (rowAt (n := 600000) (V (main_v17 : DevRef τ sig)) p) (rowAt (n := 600000) (V (main_arg1 : DevRef τ sig)) p)
          (block (K := 384) (V (main_arg3 : DevRef τ sig)) 0 (by decide)) (block (K := 384) (V (main_arg3 : DevRef τ sig)) 128 (by decide))
          (block (K := 384) (V (main_arg3 : DevRef τ sig)) 256 (by decide)) (vecRow (V (main_arg4 : DevRef τ sig))) := by
  funext q
  show after S1 V (main_v22 : DevRef τ sig) (ix2 p q) = _
  rw [S1_term]
  exact edgePre_read _ _ _ _ _ p q

/-! ### Stretches 2 and 3: the edge perceptron's second and third layers -/

/-- Stretch 2 (the edge perceptron's second layer): the result as one term of the stretch's inputs. -/
theorem S2_term (V : Valuation τ sig (Elt Ideal)) :
    after S2 V (main_v27 : DevRef τ sig)
      = addf (F := Ideal) (φ := .f32)
          (Host.dotGeneral (F := Ideal) (φ₁ := .f32) (φ₂ := .f32) dot_S600000x128_S128x128_S600000x128_1_0_0_1_n_n none (maximumf (F := Ideal) (φ := .f32) (V (main_v22 : DevRef τ sig)) (broadcastInDim S600000x128 ![] bcast_S_S600000x128 (constant (F := Ideal) S_ .f32 0x00000000#32))) (V (main_arg5 : DevRef τ sig)))
          (broadcastInDim S600000x128 ![0, 1] bcast_S1x128_S600000x128_0_1 (broadcastInDim S1x128 ![1] bcast_S128_S1x128_1 (V (main_arg6 : DevRef τ sig)))) := by
  show after (seg2 (F := Ideal)) V _ = _
  after_results_simp
  rfl

/-- Its rows: the rectified input row through the linear layer. -/
theorem S2_row (V : Valuation τ sig (Elt Ideal)) (p : Fin 600000) :
    rowAt (n := 600000) (after S2 V (main_v27 : DevRef τ sig)) p
      = affine (relu (rowAt (n := 600000) (V (main_v22 : DevRef τ sig)) p)) (block (K := 128) (V (main_arg5 : DevRef τ sig)) 0 (by decide)) (vecRow (V (main_arg6 : DevRef τ sig))) := by
  funext q
  show after S2 V (main_v27 : DevRef τ sig) (ix2 p q) = _
  rw [S2_term]
  exact layer_read _ ⟨rfl, rfl, rfl, rfl, rfl, rfl⟩ _ _ _ _ _ _ p q

/-- Stretch 3 (the edge perceptron's third layer): the result as one term of the stretch's inputs. -/
theorem S3_term (V : Valuation τ sig (Elt Ideal)) :
    after S3 V (main_v32 : DevRef τ sig)
      = addf (F := Ideal) (φ := .f32)
          (Host.dotGeneral (F := Ideal) (φ₁ := .f32) (φ₂ := .f32) dot_S600000x128_S128x128_S600000x128_1_0_0_1_n_n none (maximumf (F := Ideal) (φ := .f32) (V (main_v27 : DevRef τ sig)) (broadcastInDim S600000x128 ![] bcast_S_S600000x128 (constant (F := Ideal) S_ .f32 0x00000000#32))) (V (main_arg7 : DevRef τ sig)))
          (broadcastInDim S600000x128 ![0, 1] bcast_S1x128_S600000x128_0_1 (broadcastInDim S1x128 ![1] bcast_S128_S1x128_1 (V (main_arg8 : DevRef τ sig)))) := by
  show after (seg3 (F := Ideal)) V _ = _
  after_results_simp
  rfl

/-- Its rows: the rectified input row through the linear layer. -/
theorem S3_row (V : Valuation τ sig (Elt Ideal)) (p : Fin 600000) :
    rowAt (n := 600000) (after S3 V (main_v32 : DevRef τ sig)) p
      = affine (relu (rowAt (n := 600000) (V (main_v27 : DevRef τ sig)) p)) (block (K := 128) (V (main_arg7 : DevRef τ sig)) 0 (by decide)) (vecRow (V (main_arg8 : DevRef τ sig))) := by
  funext q
  show after S3 V (main_v32 : DevRef τ sig) (ix2 p q) = _
  rw [S3_term]
  exact layer_read _ ⟨rfl, rfl, rfl, rfl, rfl, rfl⟩ _ _ _ _ _ _ p q

/-! ### Stretch 4: the edge normalisation -/

theorem S4_term (V : Valuation τ sig (Elt Ideal)) :
    after S4 V (main_v50 : DevRef τ sig)
      = lnTerm reducesTo_S600000x128_S600000_d1 h_S_ bcast_S600000_S600000x1_0 bcast_S_S600000x1 bcast_S600000x1_S600000x128_0_1 bcast_S128_S1x128_1 bcast_S1x128_S600000x128_0_1 (V (main_v32 : DevRef τ sig)) (V (main_arg9 : DevRef τ sig)) (V (main_arg10 : DevRef τ sig)) := by
  show after (seg4 (F := Ideal)) V _ = _
  after_results_simp
  simp only [TRef.toBuf, TRef.ofBuf, cast_eq, id]
  unfold lnTerm varCol centredArr meanCol varDivisor
  rfl

theorem S4_row (V : Valuation τ sig (Elt Ideal)) (p : Fin 600000) :
    rowAt (n := 600000) (after S4 V (main_v50 : DevRef τ sig)) p
      = layerNorm (rowAt (n := 600000) (V (main_v32 : DevRef τ sig)) p) (vecRow (V (main_arg9 : DevRef τ sig))) (vecRow (V (main_arg10 : DevRef τ sig))) := by
  funext q
  show after S4 V (main_v50 : DevRef τ sig) (ix2 p q) = _
  rw [S4_term]
  exact lnTerm_read _ _ _ _ _ _ _ (by decide) _ _ _ p q

/-! ### Stretch 5: the summing over incoming edges -/

theorem S5_term (V : Valuation τ sig (Elt Ideal)) :
    after S5 V (main_v53 : DevRef τ sig)
      = Host.scatterAdd (F := Ideal) (φ := .f32) scatter_S50000x128_S600000x1_S600000x128_1_0_0_1 (fun _ => zero32)
          (broadcastInDim S600000x1 ![0] bcast_S600000_S600000x1_0 (V (main_v3 : DevRef τ sig))) (V (main_v50 : DevRef τ sig)) := by
  rw [← zero_splat]
  show after (seg5 (F := Ideal)) V _ = _
  after_results_simp

/-! ### Stretch 6: the node perceptron's first layer -/

theorem S6_term (V : Valuation τ sig (Elt Ideal)) :
    after S6 V (main_v58 : DevRef τ sig)
      = addf (F := Ideal) (φ := .f32)
          (Host.dotGeneral (F := Ideal) (φ₁ := .f32) (φ₂ := .f32) dot_S50000x256_S256x128_S50000x128_1_0_0_1_n_n none (concatenate S50000x256 1 [⟨S50000x128, (V (main_arg0 : DevRef τ sig))⟩, ⟨S50000x128, (V (main_v53 : DevRef τ sig))⟩]
              concatenates_S50000x128_S50000x128_S50000x256_d1) (V (main_arg11 : DevRef τ sig)))
          (broadcastInDim S50000x128 ![0, 1] bcast_S1x128_S50000x128_0_1 (broadcastInDim S1x128 ![1] bcast_S128_S1x128_1 (V (main_arg12 : DevRef τ sig)))) := by
  show after (seg6 (F := Ideal)) V _ = _
  after_results_simp

theorem S6_row (V : Valuation τ sig (Elt Ideal)) (p : Fin 50000) :
    rowAt (n := 50000) (after S6 V (main_v58 : DevRef τ sig)) p
      = nodePre (rowAt (n := 50000) (V (main_arg0 : DevRef τ sig)) p) (rowAt (n := 50000) (V (main_v53 : DevRef τ sig)) p)
          (block (K := 256) (V (main_arg11 : DevRef τ sig)) 0 (by decide)) (block (K := 256) (V (main_arg11 : DevRef τ sig)) 128 (by decide)) (vecRow (V (main_arg12 : DevRef τ sig))) := by
  funext q
  show after S6 V (main_v58 : DevRef τ sig) (ix2 p q) = _
  rw [S6_term]
  exact nodePre_read _ _ _ _ p q

/-! ### Stretches 7 and 8: the node perceptron's second and third layers -/

/-- Stretch 7 (the node perceptron's second layer): the result as one term of the stretch's inputs. -/
theorem S7_term (V : Valuation τ sig (Elt Ideal)) :
    after S7 V (main_v63 : DevRef τ sig)
      = addf (F := Ideal) (φ := .f32)
          (Host.dotGeneral (F := Ideal) (φ₁ := .f32) (φ₂ := .f32) dot_S50000x128_S128x128_S50000x128_1_0_0_1_n_n none (maximumf (F := Ideal) (φ := .f32) (V (main_v58 : DevRef τ sig)) (broadcastInDim S50000x128 ![] bcast_S_S50000x128 (constant (F := Ideal) S_ .f32 0x00000000#32))) (V (main_arg13 : DevRef τ sig)))
          (broadcastInDim S50000x128 ![0, 1] bcast_S1x128_S50000x128_0_1 (broadcastInDim S1x128 ![1] bcast_S128_S1x128_1 (V (main_arg14 : DevRef τ sig)))) := by
  show after (seg7 (F := Ideal)) V _ = _
  after_results_simp
  rfl

/-- Its rows: the rectified input row through the linear layer. -/
theorem S7_row (V : Valuation τ sig (Elt Ideal)) (p : Fin 50000) :
    rowAt (n := 50000) (after S7 V (main_v63 : DevRef τ sig)) p
      = affine (relu (rowAt (n := 50000) (V (main_v58 : DevRef τ sig)) p)) (block (K := 128) (V (main_arg13 : DevRef τ sig)) 0 (by decide)) (vecRow (V (main_arg14 : DevRef τ sig))) := by
  funext q
  show after S7 V (main_v63 : DevRef τ sig) (ix2 p q) = _
  rw [S7_term]
  exact layer_read _ ⟨rfl, rfl, rfl, rfl, rfl, rfl⟩ _ _ _ _ _ _ p q

/-- Stretch 8 (the node perceptron's third layer): the result as one term of the stretch's inputs. -/
theorem S8_term (V : Valuation τ sig (Elt Ideal)) :
    after S8 V (main_v68 : DevRef τ sig)
      = addf (F := Ideal) (φ := .f32)
          (Host.dotGeneral (F := Ideal) (φ₁ := .f32) (φ₂ := .f32) dot_S50000x128_S128x128_S50000x128_1_0_0_1_n_n none (maximumf (F := Ideal) (φ := .f32) (V (main_v63 : DevRef τ sig)) (broadcastInDim S50000x128 ![] bcast_S_S50000x128 (constant (F := Ideal) S_ .f32 0x00000000#32))) (V (main_arg15 : DevRef τ sig)))
          (broadcastInDim S50000x128 ![0, 1] bcast_S1x128_S50000x128_0_1 (broadcastInDim S1x128 ![1] bcast_S128_S1x128_1 (V (main_arg16 : DevRef τ sig)))) := by
  show after (seg8 (F := Ideal)) V _ = _
  after_results_simp
  rfl

/-- Its rows: the rectified input row through the linear layer. -/
theorem S8_row (V : Valuation τ sig (Elt Ideal)) (p : Fin 50000) :
    rowAt (n := 50000) (after S8 V (main_v68 : DevRef τ sig)) p
      = affine (relu (rowAt (n := 50000) (V (main_v63 : DevRef τ sig)) p)) (block (K := 128) (V (main_arg15 : DevRef τ sig)) 0 (by decide)) (vecRow (V (main_arg16 : DevRef τ sig))) := by
  funext q
  show after S8 V (main_v68 : DevRef τ sig) (ix2 p q) = _
  rw [S8_term]
  exact layer_read _ ⟨rfl, rfl, rfl, rfl, rfl, rfl⟩ _ _ _ _ _ _ p q

/-! ### Stretch 9: the node normalisation and the residual -/

theorem S9_term (V : Valuation τ sig (Elt Ideal)) :
    after S9 V (main_v87 : DevRef τ sig)
      = addf (F := Ideal) (φ := .f32) (V (main_arg0 : DevRef τ sig))
          (lnTerm reducesTo_S50000x128_S50000_d1 h_S_ bcast_S50000_S50000x1_0 bcast_S_S50000x1 bcast_S50000x1_S50000x128_0_1 bcast_S128_S1x128_1 bcast_S1x128_S50000x128_0_1 (V (main_v68 : DevRef τ sig)) (V (main_arg17 : DevRef τ sig)) (V (main_arg18 : DevRef τ sig))) := by
  show after (seg9 (F := Ideal)) V _ = _
  after_results_simp
  simp only [TRef.toBuf, TRef.ofBuf, cast_eq, id]
  unfold lnTerm varCol centredArr meanCol varDivisor
  rfl

theorem S9_read (V : Valuation τ sig (Elt Ideal)) (p : Fin 50000) (q : Fin 128) :
    after S9 V (main_v87 : DevRef τ sig) (ix2 p q)
      = rowAt (n := 50000) (V (main_arg0 : DevRef τ sig)) p q
        + layerNorm (rowAt (n := 50000) (V (main_v68 : DevRef τ sig)) p) (vecRow (V (main_arg17 : DevRef τ sig))) (vecRow (V (main_arg18 : DevRef τ sig))) q := by
  rw [S9_term, addf_apply, lnTerm_read _ _ _ _ _ _ _ (by decide)]
  rfl

/-! ## The whole run -/

/-- Every edge's new row: the reference's second result, after the first five stretches. -/
theorem value_messages (V0 : Valuation τ sig (Elt Ideal)) (hidx : ∀ i, (((V0 (main_arg2 : DevRef τ sig)) : Edges) i).slt 0#32 = false) :
    (after S4 (after S3 (after S2 (after S1 (after S0 V0))))) (main_v50 : DevRef τ sig) = messages gather_S50000x128_S600000x1_S600000x128_1_0_n_n_0_1_1128 (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) := by
  obtain ⟨h10, h17, -⟩ := S0_read V0 hidx
  funext i
  obtain ⟨p, q, rfl⟩ : ∃ (p : Fin 600000) (q : Fin 128), i = ix2 p q := ⟨i 0, i 1, eq_ix2 i⟩
  show rowAt (n := 600000) (after S4 _ (main_v50 : DevRef τ sig)) p q = _
  rw [S4_row, S3_row, S2_row, S1_row]
  simp (disch := decide) only [frame0, frame1, frame2, frame3]
  rw [h10, h17]
  unfold GraphBlock.messages GraphBlock.edgeOut GraphBlock.edgeEntry GraphBlock.hidden
  rfl

/-- Every node's new row: the reference's first result, after all ten. -/
theorem value_updated (V0 : Valuation τ sig (Elt Ideal)) (hidx : ∀ i, (((V0 (main_arg2 : DevRef τ sig)) : Edges) i).slt 0#32 = false) :
    (after S9 (after S8 (after S7 (after S6 (after S5 (after S4 (after S3 (after S2 (after S1 (after S0 V0)))))))))) (main_v87 : DevRef τ sig) = updated gather_S50000x128_S600000x1_S600000x128_1_0_n_n_0_1_1128 scatter_S50000x128_S600000x1_S600000x128_1_0_0_1 (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) (V0 (main_arg18 : DevRef τ sig)) := by
  have hmsg := value_messages V0 hidx
  obtain ⟨-, -, h3⟩ := S0_read V0 hidx
  funext i
  obtain ⟨p, q, rfl⟩ : ∃ (p : Fin 50000) (q : Fin 128), i = ix2 p q := ⟨i 0, i 1, eq_ix2 i⟩
  rw [S9_read, S8_row, S7_row, S6_row, S5_term]
  simp (disch := decide) only [frame0, frame1, frame2, frame3, frame4, frame5, frame6, frame7, frame8]
  rw [hmsg, h3]
  unfold GraphBlock.updated GraphBlock.nodeOut GraphBlock.nodeEntry GraphBlock.hidden
  rfl

/-- A buffer no stretch writes keeps its launch contents through the whole run. -/
theorem keep (V0 : Valuation τ sig (Elt Ideal)) (r : Ref sig .tc) (h0 : r ∉ seg0_written) (h1 : r ∉ seg1_written)
    (h2 : r ∉ seg2_written) (h3 : r ∉ seg3_written) (h4 : r ∉ seg4_written) (h5 : r ∉ seg5_written) (h6 : r ∉ seg6_written)
    (h7 : r ∉ seg7_written) (h8 : r ∉ seg8_written) (h9 : r ∉ seg9_written) :
    after (ops (F := Ideal)) V0 (Proc.devRef .tc r) = V0 (Proc.devRef .tc r) := by
  rw [ops_eq]
  simp only [after_append]
  rw [frame9 _ h9, frame8 _ h8, frame7 _ h7, frame6 _ h6, frame5 _ h5, frame4 _ h4, frame3 _ h3, frame2 _ h2, frame1 _ h1,
    frame0 _ h0]

theorem ops_updated (V0 : Valuation τ sig (Elt Ideal)) (hidx : ∀ i, (((V0 (main_arg2 : DevRef τ sig)) : Edges) i).slt 0#32 = false) :
    after (ops (F := Ideal)) V0 (main_v87 : DevRef τ sig) = updated gather_S50000x128_S600000x1_S600000x128_1_0_n_n_0_1_1128 scatter_S50000x128_S600000x1_S600000x128_1_0_0_1 (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) (V0 (main_arg18 : DevRef τ sig)) := by
  rw [ops_eq]
  simp only [after_append]
  exact value_updated V0 hidx

theorem ops_messages (V0 : Valuation τ sig (Elt Ideal)) (hidx : ∀ i, (((V0 (main_arg2 : DevRef τ sig)) : Edges) i).slt 0#32 = false) :
    after (ops (F := Ideal)) V0 (main_v50 : DevRef τ sig) = messages gather_S50000x128_S600000x1_S600000x128_1_0_n_n_0_1_1128 (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) := by
  rw [ops_eq]
  simp only [after_append]
  rw [frame9 _ (by decide), frame8 _ (by decide), frame7 _ (by decide), frame6 _ (by decide), frame5 _ (by decide)]
  exact value_messages V0 hidx

/-- Where no edge index is negative as a signed word, from any memory with zero counters: every weakly fair execution of
    the reference terminates with its first result at the specification's updated node rows, its second at the
    specification's messages, of the launch contents of the nineteen arguments, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hidx : ∀ (c : Dev Cert.ReferenceIdeal.nD) (i : (⟨2, ![2, 600000]⟩ : Shape).Idx),
      ((m ((c.tc : Thread Cert.ReferenceIdeal.nD Cert.ReferenceIdeal.τ).loc Cert.ReferenceIdeal.main_arg2) : Cert.GraphBlock.Edges) i).slt 0#32 = false) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v87)
        = Cert.GraphBlock.updated Cert.ReferenceIdeal.gather_S50000x128_S600000x1_S600000x128_1_0_n_n_0_1_1128 Cert.ReferenceIdeal.scatter_S50000x128_S600000x1_S600000x128_1_0_0_1
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
            (m ((c.tc : Thread Cert.ReferenceIdeal.nD Cert.ReferenceIdeal.τ).loc Cert.ReferenceIdeal.main_arg11))
            (m ((c.tc : Thread Cert.ReferenceIdeal.nD Cert.ReferenceIdeal.τ).loc Cert.ReferenceIdeal.main_arg12))
            (m ((c.tc : Thread Cert.ReferenceIdeal.nD Cert.ReferenceIdeal.τ).loc Cert.ReferenceIdeal.main_arg13))
            (m ((c.tc : Thread Cert.ReferenceIdeal.nD Cert.ReferenceIdeal.τ).loc Cert.ReferenceIdeal.main_arg14))
            (m ((c.tc : Thread Cert.ReferenceIdeal.nD Cert.ReferenceIdeal.τ).loc Cert.ReferenceIdeal.main_arg15))
            (m ((c.tc : Thread Cert.ReferenceIdeal.nD Cert.ReferenceIdeal.τ).loc Cert.ReferenceIdeal.main_arg16))
            (m ((c.tc : Thread Cert.ReferenceIdeal.nD Cert.ReferenceIdeal.τ).loc Cert.ReferenceIdeal.main_arg17))
            (m ((c.tc : Thread Cert.ReferenceIdeal.nD Cert.ReferenceIdeal.τ).loc Cert.ReferenceIdeal.main_arg18))
      ∧ r.2.mem ((c.tc : Thread Cert.ReferenceIdeal.nD Cert.ReferenceIdeal.τ).loc Cert.ReferenceIdeal.main_v50)
        = Cert.GraphBlock.messages Cert.ReferenceIdeal.gather_S50000x128_S600000x1_S600000x128_1_0_n_n_0_1_1128
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)) :=
  (θ_run (Cert.ReferenceIdeal.defs (F := Ideal)) _ _).mono (fun _ h c =>
    ⟨(h c main_v87).trans (ops_updated (launchContents m c) (hidx c)),
      (h c main_v50).trans (ops_messages (launchContents m c) (hidx c)),
      (h c main_arg0).trans (keep (launchContents m c) main_arg0 (by decide) (by decide) (by decide) (by decide) (by decide) (by decide) (by decide) (by decide) (by decide) (by decide)),
      (h c main_arg1).trans (keep (launchContents m c) main_arg1 (by decide) (by decide) (by decide) (by decide) (by decide) (by decide) (by decide) (by decide) (by decide) (by decide)),
      (h c main_arg2).trans (keep (launchContents m c) main_arg2 (by decide) (by decide) (by decide) (by decide) (by decide) (by decide) (by decide) (by decide) (by decide) (by decide)),
      (h c main_arg3).trans (keep (launchContents m c) main_arg3 (by decide) (by decide) (by decide) (by decide) (by decide) (by decide) (by decide) (by decide) (by decide) (by decide)),
      (h c main_arg4).trans (keep (launchContents m c) main_arg4 (by decide) (by decide) (by decide) (by decide) (by decide) (by decide) (by decide) (by decide) (by decide) (by decide)),
      (h c main_arg5).trans (keep (launchContents m c) main_arg5 (by decide) (by decide) (by decide) (by decide) (by decide) (by decide) (by decide) (by decide) (by decide) (by decide)),
      (h c main_arg6).trans (keep (launchContents m c) main_arg6 (by decide) (by decide) (by decide) (by decide) (by decide) (by decide) (by decide) (by decide) (by decide) (by decide)),
      (h c main_arg7).trans (keep (launchContents m c) main_arg7 (by decide) (by decide) (by decide) (by decide) (by decide) (by decide) (by decide) (by decide) (by decide) (by decide)),
      (h c main_arg8).trans (keep (launchContents m c) main_arg8 (by decide) (by decide) (by decide) (by decide) (by decide) (by decide) (by decide) (by decide) (by decide) (by decide)),
      (h c main_arg9).trans (keep (launchContents m c) main_arg9 (by decide) (by decide) (by decide) (by decide) (by decide) (by decide) (by decide) (by decide) (by decide) (by decide)),
      (h c main_arg10).trans (keep (launchContents m c) main_arg10 (by decide) (by decide) (by decide) (by decide) (by decide) (by decide) (by decide) (by decide) (by decide) (by decide)),
      (h c main_arg11).trans (keep (launchContents m c) main_arg11 (by decide) (by decide) (by decide) (by decide) (by decide) (by decide) (by decide) (by decide) (by decide) (by decide)),
      (h c main_arg12).trans (keep (launchContents m c) main_arg12 (by decide) (by decide) (by decide) (by decide) (by decide) (by decide) (by decide) (by decide) (by decide) (by decide)),
      (h c main_arg13).trans (keep (launchContents m c) main_arg13 (by decide) (by decide) (by decide) (by decide) (by decide) (by decide) (by decide) (by decide) (by decide) (by decide)),
      (h c main_arg14).trans (keep (launchContents m c) main_arg14 (by decide) (by decide) (by decide) (by decide) (by decide) (by decide) (by decide) (by decide) (by decide) (by decide)),
      (h c main_arg15).trans (keep (launchContents m c) main_arg15 (by decide) (by decide) (by decide) (by decide) (by decide) (by decide) (by decide) (by decide) (by decide) (by decide)),
      (h c main_arg16).trans (keep (launchContents m c) main_arg16 (by decide) (by decide) (by decide) (by decide) (by decide) (by decide) (by decide) (by decide) (by decide) (by decide)),
      (h c main_arg17).trans (keep (launchContents m c) main_arg17 (by decide) (by decide) (by decide) (by decide) (by decide) (by decide) (by decide) (by decide) (by decide) (by decide)),
      (h c main_arg18).trans (keep (launchContents m c) main_arg18 (by decide) (by decide) (by decide) (by decide) (by decide) (by decide) (by decide) (by decide) (by decide) (by decide))⟩)
    (Cert.ReferenceIdeal.RefRun.run (F := Ideal) m ρ)

end Cert.ReferenceIdeal.RefValue

end
-- ==== Proof.PreIndex.lean ====
/-
  The precondition read at one entry of the edge list: no index is negative.

  The printed precondition is one conjunction, and its last conjunct says that every entry of the edge list compares
  greater than or equal to zero as a signed word. An "all" over an array of truth values that holds gives each entry; a
  signed word that is at least zero is not less than zero.
-/
import proofs.«418581_j55173149884911_3_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

/-- A rank-zero array has one index. -/
instance : Subsingleton S_.Idx := ⟨fun a b => funext fun d => d.elim0⟩

/-- A signed word that zero is less than or equal to is not less than zero. -/
theorem not_slt_zero_of_sge (v : BitVec 32) (h : IntOp.cmpi .sge v 0#32 = 1#1) : v.slt 0#32 = false := by
  have h1 : BitVec.ofBool ((0#32).sle v) = 1#1 := h
  have h2 : (0#32).sle v = true := by cases hb : (0#32).sle v <;> simp_all
  rw [BitVec.sle_eq_not_slt] at h2
  simpa using h2

/-- Under the precondition every entry of the edge list is non-negative. -/
theorem nonneg_of_pre (x0 : FVec Ideal S50000x128 .f32) (x1 : FVec Ideal S600000x128 .f32) (x2 : IVec S2x600000 32) (x3 : FVec Ideal S384x128 .f32) (x4 : FVec Ideal S128 .f32) (x5 : FVec Ideal S128x128 .f32) (x6 : FVec Ideal S128 .f32) (x7 : FVec Ideal S128x128 .f32) (x8 x9 x10 : FVec Ideal S128 .f32) (x11 : FVec Ideal S256x128 .f32) (x12 : FVec Ideal S128 .f32) (x13 : FVec Ideal S128x128 .f32) (x14 : FVec Ideal S128 .f32) (x15 : FVec Ideal S128x128 .f32) (x16 x17 x18 : FVec Ideal S128 .f32)
    (h : fn (F := Ideal) x0 x1 x2 x3 x4 x5 x6 x7 x8 x9 x10 x11 x12 x13 x14 x15 x16 x17 x18 = fun _ => 1#1) (i : S2x600000.Idx) :
    (x2 i).slt 0#32 = false := by
  have h0 : IntOp.andi _ _ = 1#1 := congrFun h ix0
  have h1 := (IntOp.andi_eq_one.mp h0).2
  have h2 : IntOp.cmpi .sge (x2 i) 0#32 = 1#1 := Host.reduce_andi_all _ _ _ _ _ h1 i
  exact not_slt_zero_of_sge _ h2

end Cert.Pre_finite_inputs.Decode

end
-- ==== Proof.lean ====
/-
  The certificate of one round of message passing on a graph: the two-region kernel program against its plain reference.

  At the ideal values both programs compute the same two arrays of extended reals. Every edge's new row is the edge
  perceptron (three linear layers with a rectifier after the first two, then a layer normalisation) of the rows of its
  destination node, its source node and its own old row; every node's new row is its old row plus the node perceptron of
  its old row and the sum of the new rows of the edges that point at it. The kernel computes the first layer of either
  perceptron as a sum of matrix products with the stacked weight blocks, the reference as one product of the
  concatenated rows with the stacked weights: a finite sum split into consecutive blocks, equal in any commutative monoid,
  so no finiteness is used. The gather of the end nodes' rows and the sum over incoming edges are the same host operations
  on the same operands in both programs. One thing differs: the reference first adds the number of nodes to a negative index,
  the kernel does not; under the precondition's last conjunct — no entry of the edge list is negative — that step is the
  identity, and this is the only place the precondition is used.

  The three frames: the two kernel programs' are the generated frame certificates; the reference's is its run with the
  results dropped. The idealisation ledger is empty. The value claim pairs the kernel program's run, read through its two
  regions to the specification's `updated` and `messages` of the argument arrays, with the reference's run read to the same
  two functions, the arguments agreeing.
-/
import proofs.«418581_j55173149884911_3_alg».proof.Defs
import proofs.«418581_j55173149884911_3_alg».proof.Proof.Gen.Kernel
import proofs.«418581_j55173149884911_3_alg».proof.Proof.Gen.Kernel.Skeleton
import proofs.«418581_j55173149884911_3_alg».proof.Proof.Gen.Kernel.Launch
import proofs.«418581_j55173149884911_3_alg».proof.Proof.Gen.Kernel.Points
import proofs.«418581_j55173149884911_3_alg».proof.Proof.Gen.Kernel.Frame
import proofs.«418581_j55173149884911_3_alg».proof.Proof.Gen.KernelIdeal
import proofs.«418581_j55173149884911_3_alg».proof.Proof.Gen.KernelIdeal.Skeleton
import proofs.«418581_j55173149884911_3_alg».proof.Proof.Gen.KernelIdeal.Launch
import proofs.«418581_j55173149884911_3_alg».proof.Proof.Gen.KernelIdeal.Points
import proofs.«418581_j55173149884911_3_alg».proof.Proof.Gen.KernelIdeal.Frame
import proofs.«418581_j55173149884911_3_alg».proof.Proof.Gen.ReferenceIdeal
import proofs.«418581_j55173149884911_3_alg».proof.Proof.Gen.Pre_finite_inputs
import proofs.«418581_j55173149884911_3_alg».proof.Proof.KernelValue
import proofs.«418581_j55173149884911_3_alg».proof.Proof.ReferenceValue
import proofs.«418581_j55173149884911_3_alg».proof.Proof.PreIndex
import Idealize.ShloMosaic.Adequacy
import Idealize.ShloMosaic.Init

noncomputable section

namespace Cert.Proof

open Idealize.ShloMosaic Idealize.ShloMosaic.TcCoe Idealize.SL.Sem

/-- Under the precondition no entry of the reference's edge list is negative. -/
theorem ref_nonneg (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) (i : (⟨2, ![2, 600000]⟩ : Shape).Idx) :
    ((m ((c.tc : Thread Cert.ReferenceIdeal.nD Cert.ReferenceIdeal.τ).loc Cert.ReferenceIdeal.main_arg2) : Cert.GraphBlock.Edges) i).slt 0#32 = false :=
  Cert.Pre_finite_inputs.Decode.nonneg_of_pre (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))
    (m ((c.tc : Thread Cert.ReferenceIdeal.nD Cert.ReferenceIdeal.τ).loc Cert.ReferenceIdeal.main_arg12))
    (m ((c.tc : Thread Cert.ReferenceIdeal.nD Cert.ReferenceIdeal.τ).loc Cert.ReferenceIdeal.main_arg13))
    (m ((c.tc : Thread Cert.ReferenceIdeal.nD Cert.ReferenceIdeal.τ).loc Cert.ReferenceIdeal.main_arg14))
    (m ((c.tc : Thread Cert.ReferenceIdeal.nD Cert.ReferenceIdeal.τ).loc Cert.ReferenceIdeal.main_arg15))
    (m ((c.tc : Thread Cert.ReferenceIdeal.nD Cert.ReferenceIdeal.τ).loc Cert.ReferenceIdeal.main_arg16))
    (m ((c.tc : Thread Cert.ReferenceIdeal.nD Cert.ReferenceIdeal.τ).loc Cert.ReferenceIdeal.main_arg17))
    (m ((c.tc : Thread Cert.ReferenceIdeal.nD Cert.ReferenceIdeal.τ).loc Cert.ReferenceIdeal.main_arg18)) (hpre c) i

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ hpre =>
  (θ_run Cert.ReferenceIdeal.defs _ _).mono (fun _ h c => (h c).2.2)
    (Cert.ReferenceIdeal.RefValue.run m ρ (ref_nonneg m hpre))

/-- The ledger of the idealisation is empty. -/
theorem preserves : Cert.preserves_Kernel_KernelIdeal := trivial

/-- Both programs apply the same gather and the same scatter-add: their dimension records carry the same numbers. -/
theorem gather_same : Cert.ReferenceIdeal.gather_S50000x128_S600000x1_S600000x128_1_0_n_n_0_1_1128 = Cert.KernelIdeal.gather_S50000x128_S600000x1_S600000x128_1_0_n_n_0_1_1128 := rfl
theorem scatter_same : Cert.ReferenceIdeal.scatter_S50000x128_S600000x1_S600000x128_1_0_0_1 = Cert.KernelIdeal.scatter_S50000x128_S600000x1_S600000x128_1_0_0_1 := rfl

/-- From memories that agree on the arguments the two idealised programs end with equal results: both are the
    specification's `updated` and `messages` of the argument arrays. -/
theorem algebraic : Cert.algebraic_KernelIdeal_ReferenceIdeal := by
  intro m ρ m' ρ' hpre hagree
  refine ⟨_, _, Cert.KernelIdeal.Value.run m ρ, ?_⟩
  have hidx : ∀ (c : Dev Cert.ReferenceIdeal.nD) (i : (⟨2, ![2, 600000]⟩ : Shape).Idx),
      ((m' ((c.tc : Thread Cert.ReferenceIdeal.nD Cert.ReferenceIdeal.τ).loc Cert.ReferenceIdeal.main_arg2) : Cert.GraphBlock.Edges) i).slt 0#32 = false :=
    fun c i => by
      have e2 := (hagree c).2.2.1
      rw [e2]
      exact Cert.Pre_finite_inputs.Decode.nonneg_of_pre (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18)) (hpre c) i
  refine (θ_run Cert.ReferenceIdeal.defs _ _).mono (fun r h c => ?_) (Cert.ReferenceIdeal.RefValue.run m' ρ' hidx)
  obtain ⟨e0, e1, e2, e3, e4, e5, e6, e7, e8, e9, e10, e11, e12, e13, e14, e15, e16, e17, e18⟩ := hagree c
  refine ⟨(h c).1.trans ?_, (h c).2.1.trans ?_, (h c).2.2⟩
  · rw [e0, e1, e2, e3, e4, e5, e6, e7, e8, e9, e10, e11, e12, e13, e14, e15, e16, e17, e18, gather_same, scatter_same]
  · rw [e0, e1, e2, e3, e4, e5, e6, e7, e8, e9, e10, gather_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
